-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_c_13)) (v3 : (c : Dev Cert.KernelIdeal.nD) → Buf (Elt Ideal) ((c.tc : Thread Cert.KernelIdeal.nD Cert.KernelIdeal.τ).loc Cert.KernelIdeal.main_c_14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_c_13) = v2 c
          ∧ r.2.mem ((c.tc : Thread Cert.KernelIdeal.nD Cert.KernelIdeal.τ).loc Cert.KernelIdeal.main_c_14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_c_12) = v2 c
          ∧ r.2.mem ((c.tc : Thread Cert.ReferenceIdeal.nD Cert.ReferenceIdeal.τ).loc Cert.ReferenceIdeal.main_c_13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S1600000x1 : Shape := ⟨2, ![1600000, 1]⟩
abbrev S64x4 : Shape := ⟨2, ![64, 4]⟩
abbrev S64 : Shape := ⟨1, ![64]⟩
abbrev S64x64 : Shape := ⟨2, ![64, 64]⟩
abbrev S64x129 : Shape := ⟨2, ![64, 129]⟩
abbrev S1x64 : Shape := ⟨2, ![1, 64]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x129 : S_.BroadcastsInDim S64x129 (![] : Fin 0 → Fin S64x129.rank)
  reducesTo_S64x129_S_d0_1 : S64x129.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_arg12 : FVec F S1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S2x1600000 32 := broadcastInDim S2x1600000 ![] bcast_S_S2x1600000 main_c_22
  let main_v60 : IVec S2x1600000 1 := cmpi .sge main_arg1 main_v59
  let main_c_23 : IVec S_ 32 := constantI S_ 32 100000#32
  let main_v61 : IVec S2x1600000 32 := broadcastInDim S2x1600000 ![] bcast_S_S2x1600000 main_c_23
  let main_v62 : IVec S2x1600000 1 := cmpi .slt main_arg1 main_v61
  let main_v63 : IVec S2x1600000 1 := andi main_v60 main_v62
  let main_c_24 : IVec S_ 1 := constantI S_ 1 1#1
  let main_v64 : IVec S_ 1 := (fun x v => Host.reduce IntOp.andi x v reducesTo_S2x1600000_S_d0_1 h_S_) main_v63 main_c_24
  let main_v65 : IVec S_ 1 := andi main_v58 main_v64
  main_v65

def fn_part2 {F : FTy → Type} [FloatOps F] (main_arg1 : IVec S2x1600000 32) (main_arg8 : FVec F S64 .f32) (main_arg9 : FVec F S64x129 .f32) (main_arg10 : FVec F S64 .f32) (main_arg11 : FVec F S1x64 .f32) (main_arg12 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x129 .f32 := Host.absf main_arg9
  let main_cst_14 : FVec F S_ .f32 := constant S_ .f32 0x7F800000#32
  let main_v40 : FVec F S64x129 .f32 := broadcastInDim S64x129 ![] bcast_S_S64x129 main_cst_14
  let main_v41 : IVec S64x129 1 := cmpf .olt main_v39 main_v40
  let main_c_15 : IVec S_ 1 := constantI S_ 1 1#1
  let main_v42 : IVec S_ 1 := (fun x v => Host.reduce IntOp.andi x v reducesTo_S64x129_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1x64 .f32 := Host.absf main_arg11
  let main_cst_18 : FVec F S_ .f32 := constant S_ .f32 0x7F800000#32
  let main_v50 : FVec F S1x64 .f32 := broadcastInDim S1x64 ![] bcast_S_S1x64 main_cst_18
  fn_part3 (F := F) main_arg1 main_arg12 main_v48 main_v49 main_v50

def fn_part1 {F : FTy → Type} [FloatOps F] (main_arg1 : IVec S2x1600000 32) (main_arg5 : FVec F S64 .f32) (main_arg6 : FVec F S64x64 .f32) (main_arg7 : FVec F S64x64 .f32) (main_arg8 : FVec F S64 .f32) (main_arg9 : FVec F S64x129 .f32) (main_arg10 : FVec F S64 .f32) (main_arg11 : FVec F S1x64 .f32) (main_arg12 : FVec F S1 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x4 .f32) (main_arg1 : IVec S2x1600000 32) (main_arg2 : FVec F S1600000x1 .f32) (main_arg3 : FVec F S64x4 .f32) (main_arg4 : FVec F S64x4 .f32) (main_arg5 : FVec F S64 .f32) (main_arg6 : FVec F S64x64 .f32) (main_arg7 : FVec F S64x64 .f32) (main_arg8 : FVec F S64 .f32) (main_arg9 : FVec F S64x129 .f32) (main_arg10 : FVec F S64 .f32) (main_arg11 : FVec F S1x64 .f32) (main_arg12 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S64x4 .f32 := Host.absf main_arg3
  let main_cst_2 : FVec F S_ .f32 := constant S_ .f32 0x7F800000#32
  let main_v10 : FVec F S64x4 .f32 := broadcastInDim S64x4 ![] bcast_S_S64x4 main_cst_2
  let main_v11 : IVec S64x4 1 := cmpf .olt main_v9 main_v10
  let main_c_3 : IVec S_ 1 := constantI S_ 1 1#1
  let main_v12 : IVec S_ 1 := (fun x v => Host.reduce IntOp.andi x v reducesTo_S64x4_S_d0_1 h_S_) main_v11 main_c_3
  let main_v13 : IVec S_ 1 := andi main_v8 main_v12
  let main_v14 : FVec F S64x4 .f32 := Host.absf main_arg4
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg1 main_arg5 main_arg6 main_arg7 main_arg8 main_arg9 main_arg10 main_arg11 main_arg12 main_v13 main_v16
-- ==== Kernel.lean ====
abbrev S100000x4 : Shape := ⟨2, ![100000, 4]⟩
abbrev S2x1600000 : Shape := ⟨2, ![2, 1600000]⟩
abbrev S1600000x1 : Shape := ⟨2, ![1600000, 1]⟩
abbrev S64x4 : Shape := ⟨2, ![64, 4]⟩
abbrev S64 : Shape := ⟨1, ![64]⟩
abbrev S64x64 : Shape := ⟨2, ![64, 64]⟩
abbrev S64x129 : Shape := ⟨2, ![64, 129]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x4 : Shape := ⟨2, ![1600000, 4]⟩
abbrev S100000x64 : Shape := ⟨2, ![100000, 64]⟩
abbrev S10000x4 : Shape := ⟨2, ![10000, 4]⟩
abbrev S10000x64 : Shape := ⟨2, ![10000, 64]⟩
abbrev S4x64 : Shape := ⟨2, ![4, 64]⟩
abbrev S1600000x64 : Shape := ⟨2, ![1600000, 64]⟩
abbrev S100000 : Shape := ⟨1, ![100000]⟩
abbrev S1x100000 : Shape := ⟨2, ![1, 100000]⟩
abbrev S2x100000 : Shape := ⟨2, ![2, 100000]⟩
abbrev S2x1800000 : Shape := ⟨2, ![2, 1800000]⟩
abbrev S100000x1 : Shape := ⟨2, ![100000, 1]⟩
abbrev S1800000x1 : Shape := ⟨2, ![1800000, 1]⟩
abbrev S1x1800000 : Shape := ⟨2, ![1, 1800000]⟩
abbrev S1800000 : Shape := ⟨1, ![1800000]⟩
abbrev S1800000x64 : Shape := ⟨2, ![1800000, 64]⟩
abbrev S1800000x129 : Shape := ⟨2, ![1800000, 129]⟩
abbrev S1x1 : Shape := ⟨2, ![1, 1]⟩
abbrev S12000x129 : Shape := ⟨2, ![12000, 129]⟩
abbrev S12000x1 : Shape := ⟨2, ![12000, 1]⟩
abbrev S129x64 : Shape := ⟨2, ![129, 64]⟩
abbrev S12000x64 : Shape := ⟨2, ![12000, 64]⟩
abbrev S64x1 : Shape := ⟨2, ![64, 1]⟩

abbrev nBuf : Space → Nat
  | .hbm => 122
  | .vmem => 26
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S1600000x1, .f32⟩
  | .hbm, ⟨3, _⟩ => ⟨S64x4, .f32⟩
  | .hbm, ⟨4, _⟩ => ⟨S64x4, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x129, .f32⟩
  | .hbm, ⟨10, _⟩ => ⟨S64, .f32⟩
  | .hbm, ⟨11, _⟩ => ⟨S1x64, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x4, .f32⟩
  | .hbm, ⟨26, _⟩ => ⟨S1600000x4, .f32⟩
  | .hbm, ⟨27, _⟩ => ⟨S1600000x4, .f32⟩
  | .hbm, ⟨28, _⟩ => ⟨S_, .f32⟩
  | .hbm, ⟨29, _⟩ => ⟨S100000x4, .f32⟩
  | .hbm, ⟨30, _⟩ => ⟨S1600000x1, .i32⟩
  | .hbm, ⟨31, _⟩ => ⟨S100000x4, .f32⟩
  | .hbm, ⟨32, _⟩ => ⟨S1x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000, .i32⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S1x100000, .i32⟩
  | .hbm, ⟨56, _⟩ => ⟨S1x100000, .i32⟩
  | .hbm, ⟨57, _⟩ => ⟨S2x100000, .i32⟩
  | .hbm, ⟨58, _⟩ => ⟨S_, .i32⟩
  | .hbm, ⟨59, _⟩ => ⟨S100000, .i32⟩
  | .hbm, ⟨60, _⟩ => ⟨S100000, .i32⟩
  | .hbm, ⟨61, _⟩ => ⟨S1x100000, .i32⟩
  | .hbm, ⟨62, _⟩ => ⟨S1x100000, .i32⟩
  | .hbm, ⟨63, _⟩ => ⟨S2x100000, .i32⟩
  | .hbm, ⟨64, _⟩ => ⟨S2x1800000, .i32⟩
  | .hbm, ⟨65, _⟩ => ⟨S_, .f32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S1800000x1, .f32⟩
  | .hbm, ⟨71, _⟩ => ⟨S1x1800000, .i32⟩
  | .hbm, ⟨72, _⟩ => ⟨S1800000, .i32⟩
  | .hbm, ⟨73, _⟩ => ⟨S1x1800000, .i32⟩
  | .hbm, ⟨74, _⟩ => ⟨S1800000, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S1800000, .i32⟩
  | .hbm, ⟨82, _⟩ => ⟨S1800000, .i32⟩
  | .hbm, ⟨83, _⟩ => ⟨S_, .i32⟩
  | .hbm, ⟨84, _⟩ => ⟨S1800000, .i32⟩
  | .hbm, ⟨85, _⟩ => ⟨S1800000, .i1⟩
  | .hbm, ⟨86, _⟩ => ⟨S_, .i32⟩
  | .hbm, ⟨87, _⟩ => ⟨S1800000, .i32⟩
  | .hbm, ⟨88, _⟩ => ⟨S1800000, .i1⟩
  | .hbm, ⟨89, _⟩ => ⟨S_, .i32⟩
  | .hbm, ⟨90, _⟩ => ⟨S_, .i1⟩
  | .hbm, ⟨91, _⟩ => ⟨S1800000, .i1⟩
  | .hbm, ⟨92, _⟩ => ⟨S1800000, .i1⟩
  | .hbm, ⟨93, _⟩ => ⟨S1800000, .i1⟩
  | .hbm, ⟨94, _⟩ => ⟨S1800000, .i32⟩
  | .hbm, ⟨95, _⟩ => ⟨S1800000, .i32⟩
  | .hbm, ⟨96, _⟩ => ⟨S1800000, .i32⟩
  | .hbm, ⟨97, _⟩ => ⟨S_, .i32⟩
  | .hbm, ⟨98, _⟩ => ⟨S1800000, .i32⟩
  | .hbm, ⟨99, _⟩ => ⟨S1800000, .i1⟩
  | .hbm, ⟨100, _⟩ => ⟨S_, .i32⟩
  | .hbm, ⟨101, _⟩ => ⟨S1800000, .i32⟩
  | .hbm, ⟨102, _⟩ => ⟨S1800000, .i32⟩
  | .hbm, ⟨103, _⟩ => ⟨S1800000, .i32⟩
  | .hbm, ⟨104, _⟩ => ⟨S1800000x1, .i32⟩
  | .hbm, ⟨105, _⟩ => ⟨S1800000x64, .f32⟩
  | .hbm, ⟨106, _⟩ => ⟨S_, .i32⟩
  | .hbm, ⟨107, _⟩ => ⟨S1800000, .i32⟩
  | .hbm, ⟨108, _⟩ => ⟨S1800000, .i1⟩
  | .hbm, ⟨109, _⟩ => ⟨S_, .i32⟩
  | .hbm, ⟨110, _⟩ => ⟨S1800000, .i32⟩
  | .hbm, ⟨111, _⟩ => ⟨S1800000, .i32⟩
  | .hbm, ⟨112, _⟩ => ⟨S1800000, .i32⟩
  | .hbm, ⟨113, _⟩ => ⟨S1800000x1, .i32⟩
  | .hbm, ⟨114, _⟩ => ⟨S1800000x64, .f32⟩
  | .hbm, ⟨115, _⟩ => ⟨S1800000x129, .f32⟩
  | .hbm, ⟨116, _⟩ => ⟨S1x64, .f32⟩
  | .hbm, ⟨117, _⟩ => ⟨S1x1, .f32⟩
  | .hbm, ⟨118, _⟩ => ⟨S1800000x1, .f32⟩
  | .hbm, ⟨119, _⟩ => ⟨S1800000, .f32⟩
  | .hbm, ⟨120, _⟩ => ⟨S_, .i32⟩
  | .hbm, ⟨121, _⟩ => ⟨S_, .i32⟩
  | .local _ .vmem, ⟨0, _⟩ => ⟨S10000x4, .f32⟩
  | .local _ .vmem, ⟨1, _⟩ => ⟨S10000x4, .f32⟩
  | .local _ .vmem, ⟨2, _⟩ => ⟨S10000x4, .f32⟩
  | .local _ .vmem, ⟨3, _⟩ => ⟨S10000x4, .f32⟩
  | .local _ .vmem, ⟨4, _⟩ => ⟨S64x4, .f32⟩
  | .local _ .vmem, ⟨5, _⟩ => ⟨S64x4, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S12000x129, .f32⟩
  | .local _ .vmem, ⟨19, _⟩ => ⟨S12000x129, .f32⟩
  | .local _ .vmem, ⟨20, _⟩ => ⟨S64x129, .f32⟩
  | .local _ .vmem, ⟨21, _⟩ => ⟨S1x64, .f32⟩
  | .local _ .vmem, ⟨22, _⟩ => ⟨S1x64, .f32⟩
  | .local _ .vmem, ⟨23, _⟩ => ⟨S1x1, .f32⟩
  | .local _ .vmem, ⟨24, _⟩ => ⟨S12000x1, .f32⟩
  | .local _ .vmem, ⟨25, _⟩ => ⟨S12000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_c_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_1 : Ref sig .tc := ⟨.hbm, 83, rfl⟩
abbrev main_call0_v5 : Ref sig .tc := ⟨.hbm, 84, rfl⟩
abbrev main_call0_v6 : Ref sig .tc := ⟨.hbm, 85, rfl⟩
abbrev main_call0_c_2 : Ref sig .tc := ⟨.hbm, 86, rfl⟩
abbrev main_call0_v7 : Ref sig .tc := ⟨.hbm, 87, rfl⟩
abbrev main_call0_v8 : Ref sig .tc := ⟨.hbm, 88, rfl⟩
abbrev main_call0_c_3 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_v12 : Ref sig .tc := ⟨.hbm, 93, rfl⟩
abbrev main_call0_v13 : Ref sig .tc := ⟨.hbm, 94, rfl⟩
abbrev main_call0_v14 : Ref sig .tc := ⟨.hbm, 95, rfl⟩
abbrev main_v52 : Ref sig .tc := ⟨.hbm, 96, rfl⟩
abbrev main_c_9 : Ref sig .tc := ⟨.hbm, 97, rfl⟩
abbrev main_v53 : Ref sig .tc := ⟨.hbm, 98, rfl⟩
abbrev main_v54 : Ref sig .tc := ⟨.hbm, 99, rfl⟩
abbrev main_c_10 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_11 : Ref sig .tc := ⟨.hbm, 106, rfl⟩
abbrev main_v60 : Ref sig .tc := ⟨.hbm, 107, rfl⟩
abbrev main_v61 : Ref sig .tc := ⟨.hbm, 108, rfl⟩
abbrev main_c_12 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_13 : Ref sig .tc := ⟨.hbm, 120, rfl⟩
abbrev main_c_14 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![150], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12000x129 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x129 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S12000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x4_0_1 : S1600000x1.BroadcastsInDim S1600000x4 (![0, 1] : Fin 2 → Fin S1600000x4.rank)
  bcast_S_S100000x4 : S_.BroadcastsInDim S100000x4 (![] : Fin 0 → Fin S100000x4.rank)
  shapeCasts_S64_S1x64 : S64.ShapeCasts S1x64
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  bitsLt_bf16_f32 : FTy.bits .bf16 < FTy.bits .f32
  inb_S64x4_S64x4_0_0 : ∀ a, (![0, 0] : Fin 2 → Nat) a + S64x4.size a ≤ S64x4.size a
  h_S64x4 : 0 < S64x4.numel
  transposes_S64x4_p1_0_S4x64 : S64x4.Transposes [1, 0] S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S_S100000 : S_.BroadcastsInDim S100000 (![] : Fin 0 → Fin S100000.rank)
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x100000_S2x1800000_d1 : Shape.Concatenates [S2x1600000, S2x100000, S2x100000] S2x1800000 1
  bcast_S_S100000x1 : S_.BroadcastsInDim S100000x1 (![] : Fin 0 → Fin S100000x1.rank)
  concatenates_S1600000x1_S100000x1_S100000x1_S1800000x1_d0 : Shape.Concatenates [S1600000x1, S100000x1, S100000x1] S1800000x1 0
  slices_S2x1800000_S1x1800000_0_0 : S2x1800000.Slices ![0, 0] S1x1800000
  shapeCasts_S1x1800000_S1800000 : S1x1800000.ShapeCasts S1800000
  slices_S2x1800000_S1x1800000_1_0 : S2x1800000.Slices ![1, 0] S1x1800000
  bcast_S_S1800000 : S_.BroadcastsInDim S1800000 (![] : Fin 0 → Fin S1800000.rank)
  bcast_S1800000_S1800000x1_0 : S1800000.BroadcastsInDim S1800000x1 (![0] : Fin 1 → Fin S1800000x1.rank)
  concatenates_S1800000x64_S1800000x64_S1800000x1_S1800000x129_d1 : Shape.Concatenates [S1800000x64, S1800000x64, S1800000x1] S1800000x129 1
  shapeCasts_S1_S1x1 : S1.ShapeCasts S1x1
  inb_S12000x129_S12000x129_0_0 : ∀ a, (![0, 0] : Fin 2 → Nat) a + S12000x129.size a ≤ S12000x129.size a
  h_S12000x129 : 0 < S12000x129.numel
  shapeCasts_S12000x129_S12000x129 : S12000x129.ShapeCasts S12000x129
  inb_S64x129_S64x129_0_0 : ∀ a, (![0, 0] : Fin 2 → Nat) a + S64x129.size a ≤ S64x129.size a
  h_S64x129 : 0 < S64x129.numel
  transposes_S64x129_p1_0_S129x64 : S64x129.Transposes [1, 0] S129x64
  broadcasts_S1x64_S12000x64 : S1x64.Broadcasts S12000x64
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S12000x1 : S1x1.Broadcasts S12000x1
  inb_S12000x1_S12000x1_0_0 : ∀ a, (![0, 0] : Fin 2 → Nat) a + S12000x1.size a ≤ S12000x1.size a
  h_S12000x1 : 0 < S12000x1.numel
  shapeCasts_S1800000x1_S1800000 : S1800000x1.ShapeCasts S1800000
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S10000x4_S4x64_S10000x64_1_0_0_1_n_n_wf : DotDims.WF S10000x4 S4x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  gather_S100000x64_S1800000x1_S1800000x64_1_0_n_n_0_1_164_wf : GatherDims.WF S100000x64 S1800000x1 S1800000x64 [1] [0] [] [0] [] 1 ![1, 64]
  dot_S12000x129_S129x64_S12000x64_1_0_0_1_n_n_wf : DotDims.WF S12000x129 S129x64 S12000x64 [1] [0] [0] [1] [] []
  dot_S12000x64_S64x1_S12000x1_1_0_0_1_n_n_wf : DotDims.WF S12000x64 S64x1 S12000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S100000x4.size a
  hwx0_1 : ∀ i : grid0.Coords, EltTy.bits .f32 = 32 ∨ (Rect.block (s := S100000x4) S10000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4.size a ≤ S64x4.size a
  hwx0_2 : ∀ i : grid0.Coords, EltTy.bits .f32 = 32 ∨ (Rect.block (s := S64x4) S64x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12000x129.size a ≤ S1800000x129.size a
  hwx2_0 : ∀ i : grid2.Coords, EltTy.bits .f32 = 32 ∨ (Rect.block (s := S1800000x129) S12000x129.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x129.size a ≤ S64x129.size a
  hwx2_1 : ∀ i : grid2.Coords, EltTy.bits .f32 = 32 ∨ (Rect.block (s := S64x129) S64x129.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S12000x1.size a ≤ S1800000x1.size a
  hwx2_5 : ∀ i : grid2.Coords, EltTy.bits .f32 = 32 ∨ (Rect.block (s := S1800000x1) S12000x1.size (cc2_transform_5 i) (hinb2_5 i)).WholeWords (EltTy.packing .f32)

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1800000x1_S1800000x64_1_0_n_n_0_1_164 : GatherDims S100000x64 S1800000x1 S1800000x64 where
  offsetDims := [1]
  collapsedSliceDims := [0]
  operandBatchingDims := []
  startIndicesBatchingDims := []
  startIndexMap := [0]
  indexVectorDim := 1
  sliceSizes := ![1, 64]
  wf := gather_S100000x64_S1800000x1_S1800000x64_1_0_n_n_0_1_164_wf
def dot_S12000x129_S129x64_S12000x64_1_0_0_1_n_n : DotDims S12000x129 S129x64 S12000x64 where
  lhsContracting := [1]
  rhsContracting := [0]
  lhsNonContracting := [0]
  rhsNonContracting := [1]
  lhsBatch := []
  rhsBatch := []
  wf := dot_S12000x129_S129x64_S12000x64_1_0_0_1_n_n_wf
def dot_S12000x64_S64x1_S12000x1_1_0_0_1_n_n : DotDims S12000x64 S64x1 S12000x1 where
  lhsContracting := [1]
  rhsContracting := [0]
  lhsNonContracting := [0]
  rhsNonContracting := [1]
  lhsBatch := []
  rhsBatch := []
  wf := dot_S12000x64_S64x1_S12000x1_1_0_0_1_n_n_wf

abbrev win0_0 : Pipeline.Window sig grid0 :=
  Pipeline.Window.ofSpec (Memref.whole main_v15) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v67) S12000x129.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x129.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S12000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S1600000x1 : Shape := ⟨2, ![1600000, 1]⟩
abbrev S64x4 : Shape := ⟨2, ![64, 4]⟩
abbrev S64 : Shape := ⟨1, ![64]⟩
abbrev S64x64 : Shape := ⟨2, ![64, 64]⟩
abbrev S64x129 : Shape := ⟨2, ![64, 129]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x4 : Shape := ⟨2, ![1600000, 4]⟩
abbrev S4x64 : Shape := ⟨2, ![4, 64]⟩
abbrev S100000x64 : Shape := ⟨2, ![100000, 64]⟩
abbrev S1600000x64 : Shape := ⟨2, ![1600000, 64]⟩
abbrev S100000 : Shape := ⟨1, ![100000]⟩
abbrev S1x100000 : Shape := ⟨2, ![1, 100000]⟩
abbrev S2x100000 : Shape := ⟨2, ![2, 100000]⟩
abbrev S2x1800000 : Shape := ⟨2, ![2, 1800000]⟩
abbrev S100000x1 : Shape := ⟨2, ![100000, 1]⟩
abbrev S1800000x1 : Shape := ⟨2, ![1800000, 1]⟩
abbrev S300000x64 : Shape := ⟨2, ![300000, 64]⟩
abbrev S1x1800000 : Shape := ⟨2, ![1, 1800000]⟩
abbrev S1800000 : Shape := ⟨1, ![1800000]⟩
abbrev S1800000x64 : Shape := ⟨2, ![1800000, 64]⟩
abbrev S1800000x129 : Shape := ⟨2, ![1800000, 129]⟩
abbrev S129x64 : Shape := ⟨2, ![129, 64]⟩
abbrev S64x1 : Shape := ⟨2, ![64, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x4, .f32⟩
  | 1 => ⟨S2x1600000, .i32⟩
  | 2 => ⟨S1600000x1, .f32⟩
  | 3 => ⟨S64x4, .f32⟩
  | 4 => ⟨S64x4, .f32⟩
  | 5 => ⟨S64, .f32⟩
  | 6 => ⟨S64x64, .f32⟩
  | 7 => ⟨S64x64, .f32⟩
  | 8 => ⟨S64, .f32⟩
  | 9 => ⟨S64x129, .f32⟩
  | 10 => ⟨S64, .f32⟩
  | 11 => ⟨S1x64, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x4, .f32⟩
  | 26 => ⟨S1600000x4, .f32⟩
  | 27 => ⟨S1600000x4, .f32⟩
  | 28 => ⟨S_, .f32⟩
  | 29 => ⟨S100000x4, .f32⟩
  | 30 => ⟨S1600000x1, .i32⟩
  | 31 => ⟨S100000x4, .f32⟩
  | 32 => ⟨S4x64, .f32⟩
  | 33 => ⟨S100000x64, .f32⟩
  | 34 => ⟨S1x64, .f32⟩
  | 35 => ⟨S100000x64, .f32⟩
  | 36 => ⟨S100000x64, .f32⟩
  | 37 => ⟨S4x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S64x64, .f32⟩
  | 59 => ⟨S100000x64, .f32⟩
  | 60 => ⟨S1x64, .f32⟩
  | 61 => ⟨S100000x64, .f32⟩
  | 62 => ⟨S100000x64, .f32⟩
  | 63 => ⟨S64x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S_, .i32⟩
  | 71 => ⟨S100000, .i32⟩
  | 72 => ⟨S100000, .i32⟩
  | 73 => ⟨S1x100000, .i32⟩
  | 74 => ⟨S1x100000, .i32⟩
  | 75 => ⟨S2x100000, .i32⟩
  | 76 => ⟨S_, .i32⟩
  | 77 => ⟨S100000, .i32⟩
  | 78 => ⟨S100000, .i32⟩
  | 79 => ⟨S1x100000, .i32⟩
  | 80 => ⟨S1x100000, .i32⟩
  | 81 => ⟨S2x100000, .i32⟩
  | 82 => ⟨S2x1800000, .i32⟩
  | 83 => ⟨S_, .f32⟩
  | 84 => ⟨S100000x1, .f32⟩
  | 85 => ⟨S_, .f32⟩
  | 86 => ⟨S100000x1, .f32⟩
  | 87 => ⟨S100000x1, .f32⟩
  | 88 => ⟨S1800000x1, .f32⟩
  | 89 => ⟨S300000x64, .f32⟩
  | 90 => ⟨S1x1800000, .i32⟩
  | 91 => ⟨S1800000, .i32⟩
  | 92 => ⟨S_, .i32⟩
  | 93 => ⟨S1800000, .i32⟩
  | 94 => ⟨S1800000, .i1⟩
  | 95 => ⟨S_, .i32⟩
  | 96 => ⟨S1800000, .i32⟩
  | 97 => ⟨S1800000, .i32⟩
  | 98 => ⟨S1800000, .i32⟩
  | 99 => ⟨S1800000x1, .i32⟩
  | 100 => ⟨S1800000x64, .f32⟩
  | 101 => ⟨S1x1800000, .i32⟩
  | 102 => ⟨S1800000, .i32⟩
  | 103 => ⟨S_, .i32⟩
  | 104 => ⟨S1800000, .i32⟩
  | 105 => ⟨S1800000, .i1⟩
  | 106 => ⟨S_, .i32⟩
  | 107 => ⟨S1800000, .i32⟩
  | 108 => ⟨S1800000, .i32⟩
  | 109 => ⟨S1800000, .i32⟩
  | 110 => ⟨S1800000x1, .i32⟩
  | 111 => ⟨S1800000x64, .f32⟩
  | 112 => ⟨S1800000x129, .f32⟩
  | 113 => ⟨S129x64, .f32⟩
  | 114 => ⟨S1800000x64, .f32⟩
  | 115 => ⟨S1x64, .f32⟩
  | 116 => ⟨S1800000x64, .f32⟩
  | 117 => ⟨S1800000x64, .f32⟩
  | 118 => ⟨S_, .f32⟩
  | 119 => ⟨S1800000x64, .f32⟩
  | 120 => ⟨S1800000x64, .f32⟩
  | 121 => ⟨S64x1, .f32⟩
  | 122 => ⟨S1800000x1, .f32⟩
  | 123 => ⟨S1x1, .f32⟩
  | 124 => ⟨S1800000x1, .f32⟩
  | 125 => ⟨S1800000x1, .f32⟩
  | 126 => ⟨S1800000, .f32⟩
  | 127 => ⟨S_, .i32⟩
  | _ => ⟨S100000x4, .f32⟩

abbrev hbmTy0_1 (i : Nat) : BufTy := match i % 128 with
  | 0 => ⟨S_, .i32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_c_4 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_cst_7 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_8 : Ref sig .tc := ⟨.hbm, 92, rfl⟩
abbrev main_v65 : Ref sig .tc := ⟨.hbm, 93, rfl⟩
abbrev main_v66 : Ref sig .tc := ⟨.hbm, 94, rfl⟩
abbrev main_c_9 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_10 : Ref sig .tc := ⟨.hbm, 103, rfl⟩
abbrev main_v74 : Ref sig .tc := ⟨.hbm, 104, rfl⟩
abbrev main_v75 : Ref sig .tc := ⟨.hbm, 105, rfl⟩
abbrev main_c_11 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_call2_cst : Ref sig .tc := ⟨.hbm, 118, rfl⟩
abbrev main_call2_v0 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_12 : Ref sig .tc := ⟨.hbm, 127, rfl⟩
abbrev main_c_13 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x4_0_1 : S1600000x1.BroadcastsInDim S1600000x4 (![0, 1] : Fin 2 → Fin S1600000x4.rank)
  bcast_S_S100000x4 : S_.BroadcastsInDim S100000x4 (![] : Fin 0 → Fin S100000x4.rank)
  transposes_S64x4_S4x64_1_0 : S64x4.Transposes [1, 0] S4x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  transposes_S64x64_S64x64_1_0 : S64x64.Transposes [1, 0] S64x64
  bcast_S_S100000 : S_.BroadcastsInDim S100000 (![] : Fin 0 → Fin S100000.rank)
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x100000_S2x1800000_d1 : Shape.Concatenates [S2x1600000, S2x100000, S2x100000] S2x1800000 1
  bcast_S_S100000x1 : S_.BroadcastsInDim S100000x1 (![] : Fin 0 → Fin S100000x1.rank)
  concatenates_S1600000x1_S100000x1_S100000x1_S1800000x1_d0 : Shape.Concatenates [S1600000x1, S100000x1, S100000x1] S1800000x1 0
  concatenates_S100000x64_S100000x64_S100000x64_S300000x64_d0 : Shape.Concatenates [S100000x64, S100000x64, S100000x64] S300000x64 0
  slices_S2x1800000_S1x1800000_0_0 : S2x1800000.Slices ![0, 0] S1x1800000
  shapeCasts_S1x1800000_S1800000 : S1x1800000.ShapeCasts S1800000
  bcast_S_S1800000 : S_.BroadcastsInDim S1800000 (![] : Fin 0 → Fin S1800000.rank)
  bcast_S1800000_S1800000x1_0 : S1800000.BroadcastsInDim S1800000x1 (![0] : Fin 1 → Fin S1800000x1.rank)
  slices_S2x1800000_S1x1800000_1_0 : S2x1800000.Slices ![1, 0] S1x1800000
  concatenates_S1800000x64_S1800000x64_S1800000x1_S1800000x129_d1 : Shape.Concatenates [S1800000x64, S1800000x64, S1800000x1] S1800000x129 1
  transposes_S64x129_S129x64_1_0 : S64x129.Transposes [1, 0] S129x64
  bcast_S1x64_S1800000x64_0_1 : S1x64.BroadcastsInDim S1800000x64 (![0, 1] : Fin 2 → Fin S1800000x64.rank)
  bcast_S_S1800000x64 : S_.BroadcastsInDim S1800000x64 (![] : Fin 0 → Fin S1800000x64.rank)
  transposes_S1x64_S64x1_1_0 : S1x64.Transposes [1, 0] S64x1
  bcast_S1_S1x1_1 : S1.BroadcastsInDim S1x1 (![1] : Fin 1 → Fin S1x1.rank)
  bcast_S1x1_S1800000x1_0_1 : S1x1.BroadcastsInDim S1800000x1 (![0, 1] : Fin 2 → Fin S1800000x1.rank)
  shapeCasts_S1800000x1_S1800000 : S1800000x1.ShapeCasts S1800000
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S100000x4_S4x64_S100000x64_1_0_0_1_n_n_wf : DotDims.WF S100000x4 S4x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S300000x64_S1800000x1_S1800000x64_1_0_n_n_0_1_164_wf : GatherDims.WF S300000x64 S1800000x1 S1800000x64 [1] [0] [] [0] [] 1 ![1, 64]
  dot_S1800000x129_S129x64_S1800000x64_1_0_0_1_n_n_wf : DotDims.WF S1800000x129 S129x64 S1800000x64 [1] [0] [0] [1] [] []
  dot_S1800000x64_S64x1_S1800000x1_1_0_0_1_n_n_wf : DotDims.WF S1800000x64 S64x1 S1800000x1 [1] [0] [0] [1] [] []

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S300000x64_S1800000x1_S1800000x64_1_0_n_n_0_1_164 : GatherDims S300000x64 S1800000x1 S1800000x64 where
  offsetDims := [1]
  collapsedSliceDims := [0]
  operandBatchingDims := []
  startIndicesBatchingDims := []
  startIndexMap := [0]
  indexVectorDim := 1
  sliceSizes := ![1, 64]
  wf := gather_S300000x64_S1800000x1_S1800000x64_1_0_n_n_0_1_164_wf
def dot_S1800000x129_S129x64_S1800000x64_1_0_0_1_n_n : DotDims S1800000x129 S129x64 S1800000x64 where
  lhsContracting := [1]
  rhsContracting := [0]
  lhsNonContracting := [0]
  rhsNonContracting := [1]
  lhsBatch := []
  rhsBatch := []
  wf := dot_S1800000x129_S129x64_S1800000x64_1_0_0_1_n_n_wf
def dot_S1800000x64_S64x1_S1800000x1_1_0_0_1_n_n : DotDims S1800000x64 S64x1 S1800000x1 where
  lhsContracting := [1]
  rhsContracting := [0]
  lhsNonContracting := [0]
  rhsNonContracting := [1]
  lhsBatch := []
  rhsBatch := []
  wf := dot_S1800000x64_S64x1_S1800000x1_1_0_0_1_n_n_wf

class Facts : Prop extends Facts₀ where

variable [Facts]
-- ==== Proof.KBRegion0.lean ====
import proofs.«416973_j1090921693652_1_alg».proof.Proof.Gen.Kernel.Launch
import proofs.«416973_j1090921693652_1_alg».proof.Proof.Gen.Kernel.Skeleton
import proofs.«416973_j1090921693652_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first dense layer's call (pipeline 0), at the buffer contents `V` the call is entered with

The call walks ten row blocks of 10000 nodes. At a block it reads that block of the aggregated messages and of
the node features (10000x4 each), the two 64x4 weight matrices and the 1x64 bias row (the same at every block),
and writes the block's 10000x64 rows of the layer's result. -/

/-! ## The windows' blocks -/

/-- Window `w`'s block at row block `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregated messages' window (0) moves with the row block and is fetched at each: for any proof data whose
    array is `V`'s and whose body leaves the block where it lies, the window's buffer holds rows
    `10000 t … 10000 t + 9999` of the messages when the body runs at `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The node features' window (1): the same rows of the features. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix's window (2) has a constant index map: it is brought in at the first row block only, and
    at a later block its buffer still holds what the body left at the block before, which is the whole matrix
    again because the index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix's window (3): likewise the whole matrix at every row block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The bias row's window (4): likewise the whole row at every row block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and the one store go through the whole of the buffer they touch: the unit-stride rectangle at offset
`(0, 0)` of the buffer's own extents, one per buffer shape. -/

/-- All of a 10000x4 row block (messages, features). -/
abbrev wholeRows4 : Rect S10000x4 := Rect.unit (s := S10000x4) ![0, 0] S10000x4.size inb_S10000x4_S10000x4_0_0
/-- All of a 64x4 weight matrix. -/
abbrev wholeWeight : Rect S64x4 := Rect.unit (s := S64x4) ![0, 0] S64x4.size inb_S64x4_S64x4_0_0
/-- All of the 1x64 bias row. -/
abbrev wholeBias : Rect S1x64 := Rect.unit (s := S1x64) ![0, 0] S1x64.size inb_S1x64_S1x64_0_0
/-- All of a 10000x64 result block. -/
abbrev wholeRows64 : Rect S10000x64 := Rect.unit (s := S10000x64) ![0, 0] S10000x64.size inb_S10000x64_S10000x64_0_0

/-! ## What the body leaves in the result window's buffer -/

/-- The result block (window 5) after the body, from the five input blocks: the one store, of
    `max (bf16 x0 · (bf16 x2)ᵀ + bf16 x1 · (bf16 x3)ᵀ + x4, 0)` (the skeleton's payload `k0_pay1`), over the whole
    buffer. Row `r` of it depends on row `r` of the messages' and of the features' block, and on all of both
    weight matrices and the bias. -/
def out0_5 (x0 : Vec F S10000x4 .f32) (x1 : Vec F S10000x4 .f32) (x2 : Vec F S64x4 .f32) (x3 : Vec F S64x4 .f32) (x4 : Vec F S1x64 .f32) :
    Vec F S10000x64 .f32 :=
  View.canon [⟨wholeRows64, k0_pay1 (View.ld x0 wholeRows4) (View.ld x1 wholeRows4) (View.ld x2 wholeWeight) (View.ld x3 wholeWeight) (View.ld x4 wholeBias)⟩]

/-- The one store is a single tile of the buffer's own extents, so every index of the buffer lies in it. -/
theorem cover0_5 (p : Vec F S10000x64 .f32) (y : S10000x64.Idx) :
    ∃ pc ∈ ([⟨wholeRows64, p⟩] : List (View.Piece (Elt F) S10000x64 .f32)), y ∈ pc.1.set :=
  View.cover_of_tiled [⟨wholeRows64, p⟩] S10000x64.size (by rfl) y

/-! ## The body's triple -/

set_option maxHeartbeats 1000000 in
/-- The kernel body on whole staging memrefs — the five inputs' reading `x0 … x4`, the result's at any contents — runs
    to a continuation that holds the inputs' as they were and the result's at `out0_5` of the inputs. The body is its
    skeleton of memory operations: five whole-buffer loads, a load of the result buffer whose value nothing uses, and the one
    whole-buffer store of the payload; the store covers the buffer, so what was there before does not matter. -/
theorem sound_kernel0 (c : Dev nD) (E : Set ℕ) (i : grid0.Coords)
    (arg1 : Memref sig .tc .vmem S10000x4 .f32) (harg1 : arg1.IsWhole) (arg2 : Memref sig .tc .vmem S10000x4 .f32) (harg2 : arg2.IsWhole)
    (arg3 : Memref sig .tc .vmem S64x4 .f32) (harg3 : arg3.IsWhole) (arg4 : Memref sig .tc .vmem S64x4 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x4 .f32) (x1 : Vec F S10000x4 .f32) (x2 : Vec F S64x4 .f32) (x3 : Vec F S64x4 .f32) (x4 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the call on core `c`: the six arrays as the call finds them (`V`); after the body at row
    block `t` each input window's buffer still at its block, and the result window's at `out0_5` of the five input
    blocks; the invariant the plain one (the core's other scoped buffers and its generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the contents the call is entered with. -/
theorem A_eq0 (c : Dev nD) (w : Fin cfg0.W) : (dat0 V c).A w = V c (Pipeline.arrRef spec0 w) := by
  dsimp only [dat0]

/-- What the body leaves, window by window: the inputs in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- and the result block computed from them. -/
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input window's buffer holds its block whenever the body runs, brought in there or kept from before. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at any row block -/

/-- What the body is entered with at row block `t`: the invariant, the core's debts, and each window's current
    buffer at what the pipeline put or left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any row block: the five input buffers hold their blocks (`before0_0 … before0_4`) and the result
    buffer holds something, so the body's triple applies; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the call: the windows' conjunction opened one by one, then the above. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRegion1.lean ====
import proofs.«416973_j1090921693652_1_alg».proof.Proof.Gen.Kernel.Launch
import proofs.«416973_j1090921693652_1_alg».proof.Proof.Gen.Kernel.Skeleton
import proofs.«416973_j1090921693652_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: one dense layer over ten slabs of 10000 node rows

At grid point `t` the kernel is handed the `t`-th slab of 10000 rows of the aggregated messages (window 0) and of
the hidden features (window 1), both 64 wide, the two 64x64 weight matrices (windows 2 and 3) and the 1x64 bias row
(window 4), the last three the same at every point. It writes the `t`-th slab of 10000 output rows (window 5):
`max (msgs · W₂ᵀ + hidden · W₃ᵀ + bias, 0)`, the products taken on operands rounded to bf16. Everything here is stated
at a parameter `V`, the core's buffer contents when the call is entered. -/

/-! ## What each window shows of its array at a grid point -/

/-- The block of window `w` at point `t`, read off the window's array as `V` has it: for the two slab inputs and the
    output, rows `10000·t … 10000·t + 9999`; for the weights and the bias, the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers hold their blocks

The two slab inputs are copied in afresh at every point. The weights and the bias are copied in at the first point only:
their block index never moves, so what the first copy left is still the block at every later point, provided the body
leaves it alone. One library lemma covers both cases; its hypotheses are that the window is an input, is never idle,
is not cut at the array's edge, and that the body leaves its block in place. -/

/-- The aggregated messages' slab. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The hidden features' slab. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix applied to the messages: copied in once, still there at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The weight matrix applied to the hidden features: likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The bias row: likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses

Every load and the one store of the body go through the whole of a staging buffer: the rectangle at offset `(0, 0)`
of the buffer's own extents with unit strides. There is one per block shape. -/

/-- All of a 10000x64 slab: the two slab inputs' loads, the output's load and the store. -/
abbrev slabRect : Rect S10000x64 := Rect.unit (s := S10000x64) ![0, 0] S10000x64.size inb_S10000x64_S10000x64_0_0
/-- All of a 64x64 weight matrix. -/
abbrev weightRect : Rect S64x64 := Rect.unit (s := S64x64) ![0, 0] S64x64.size inb_S64x64_S64x64_0_0
/-- All of the 1x64 bias row. -/
abbrev biasRect : Rect S1x64 := Rect.unit (s := S1x64) ![0, 0] S1x64.size inb_S1x64_S1x64_0_0

/-! ## What the body leaves in the output's staging buffer -/

/-- The output slab after the body, from the five input blocks: its single store, of the layer's value on what the
    five whole-buffer loads read (messages, hidden features, the two weight matrices, the bias, in that order),
    through the whole slab. The slab's earlier contents, which the body loads and drops, do not enter. -/
def out1_5 (x0 : Vec F S10000x64 .f32) (x1 : Vec F S10000x64 .f32) (x2 : Vec F S64x64 .f32) (x3 : Vec F S64x64 .f32) (x4 : Vec F S1x64 .f32) : Vec F S10000x64 .f32 :=
  View.canon [⟨slabRect, k1_pay1 (View.ld x0 slabRect) (View.ld x1 slabRect) (View.ld x2 weightRect) (View.ld x3 weightRect) (View.ld x4 biasRect)⟩]

/-- The one store is the slab's only tile, of the slab's own size: every output element lies in it. Decided on the
    rectangle's offsets, sizes and strides; no element is enumerated. -/
theorem cover1_5 (p0 : Vec F S10000x64 .f32) (y : S10000x64.Idx) :
    ∃ pc ∈ ([⟨slabRect, p0⟩] : List (View.Piece (Elt F) S10000x64 .f32)), y ∈ pc.1.set :=
  View.cover_of_tiled [⟨slabRect, p0⟩] S10000x64.size (by rfl) y

/-! ## The body's triple -/

set_option maxHeartbeats 1000000 in
/-- The body on six whole staging memrefs, the five inputs' read at `x0 … x4` and the output's at anything: it
    returns the inputs' as they were and the output's reading `out1_5 x0 … x4`. The body is five loads, a load of the
    output slab whose value is dropped, and one store; the store overwrites the whole slab, so the contents it is left
    with are the store's payload whatever was there (the cover above). -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this call's pipeline on core `c`. The six arrays are as the call finds them (`V`). After the
    body at point `t`, each input's staging buffer still holds its block, and the output's holds the layer's value on
    the five input blocks (`out1_5`). The invariant is the one of a body that touches its staging buffers only (the
    other scoped buffers and the generator register, untouched); every share is full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window: the five inputs' blocks in place, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- and the output slab at the layer's value on them. -/
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- So each input's current staging buffer holds its block when the body is called, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and the six current staging
    buffers, each at what the pipeline left in it (for the output: anything). -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, the buffers at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks (`before1_w`), so the triple applies at those
    blocks; the invariant and the debts do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: its two conjunctions over the windows spelled out, six factors
    each, are `bodyPre1` and `bodyPost1`. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBRegion2.lean ====
import proofs.«416973_j1090921693652_1_alg».proof.Proof.Gen.Kernel.Launch
import proofs.«416973_j1090921693652_1_alg».proof.Proof.Gen.Kernel.Skeleton
import proofs.«416973_j1090921693652_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge-scoring call (the third kernel call of @main), at the buffer contents `V` it is entered with

Its grid has 150 points; point `t` scores the 12000 edges of rows `12000 t … 12000 t + 11999`. Window 0 is those
edges' 129 embedding coordinates (it moves with `t`); windows 1–4 are the two layers' parameters (the 64x129
first-layer weights, the 1x64 first bias row, the 1x64 second-layer weights, the 1x1 second bias), whose index maps
are constant: the same block at every point, brought in at the first point only. Window 5 is the 12000x1 column of
scores, written back at every point. -/

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge rows' staging buffer holds the point's 12000 rows, for ANY proof data whose array is `V`'s and whose body
    leaves the block in place: the window is an input, never idle and uncut, so its buffer is what a fetch at the
    point brings — the block read off `V` — and it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The first-layer weights' staging buffer holds the 64x129 matrix at every point though it is brought in at the
    first only: the block index never moves, so an unfetched point finds the previous point's block, which is its own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first bias row's staging buffer holds the 1x64 row at every point (constant index map, as the weights'). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The second-layer weights' staging buffer holds the 1x64 row at every point (constant index map). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The second bias' staging buffer holds the 1x1 scalar at every point (constant index map). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Each access of the body is of a WHOLE staging buffer: the unit-stride rectangle from the origin of the buffer's own
    extent. One per shape: the edge rows', the first-layer weights', the two 1x64 rows' (first bias, second-layer
    weights), the second bias', the scores'. -/
abbrev edgeRowsRect : Rect S12000x129 := Rect.unit (s := S12000x129) ![0, 0] S12000x129.size inb_S12000x129_S12000x129_0_0
abbrev weights1Rect : Rect S64x129 := Rect.unit (s := S64x129) ![0, 0] S64x129.size inb_S64x129_S64x129_0_0
abbrev rowRect : Rect S1x64 := Rect.unit (s := S1x64) ![0, 0] S1x64.size inb_S1x64_S1x64_0_0
abbrev bias2Rect : Rect S1x1 := Rect.unit (s := S1x1) ![0, 0] S1x1.size inb_S1x1_S1x1_0_0
abbrev scoresRect : Rect S12000x1 := Rect.unit (s := S12000x1) ![0, 0] S12000x1.size inb_S12000x1_S12000x1_0_0

/-! ## What the body leaves in the scores' buffer -/

/-- The scores' staging buffer after the body, from the five input blocks: its one store, of the payload
    `k2_pay1` (the two-layer perceptron of the edge rows: first layer in bf16 with f32 accumulation, bias, ReLU, second
    layer likewise, second bias) over the whole buffer. What the buffer held before — which the body loads and
    drops — does not enter. -/
def out2_5 (x0 : Vec F S12000x129 .f32) (x1 : Vec F S64x129 .f32) (x2 : Vec F S1x64 .f32) (x3 : Vec F S1x64 .f32) (x4 : Vec F S1x1 .f32) : Vec F S12000x1 .f32 :=
  View.canon [⟨scoresRect, k2_pay1 (View.ld x0 edgeRowsRect) (View.ld x1 weights1Rect) (View.ld x2 rowRect) (View.ld x3 rowRect) (View.ld x4 bias2Rect)⟩]

/-- The one store tiles the 12000x1 buffer, so every index of it lies in the store's rectangle. -/
theorem cover2_5 (p0 : Vec F S12000x1 .f32) (y : S12000x1.Idx) :
    ∃ pc ∈ ([⟨scoresRect, p0⟩] : List (View.Piece (Elt F) S12000x1 .f32)), y ∈ pc.1.set :=
  View.cover_of_tiled [⟨scoresRect, p0⟩] S12000x1.size (by rfl) y

/-! ## The body's triple -/

set_option maxHeartbeats 1000000 in
/-- The body on whole staging memrefs — the five inputs' at read contents `x0 … x4`, the scores' at anything —
    runs to the continuation holding the inputs' as they were and the scores' at `out2_5` of them: five whole-buffer
    loads, a load of the scores' buffer whose value is dropped, and the one whole-buffer store of the payload. -/
theorem sound_kernel2 (c : Dev nD) (E : Set ℕ) (i : grid2.Coords)
    (arg1 : Memref sig .tc .vmem S12000x129 .f32) (harg1 : arg1.IsWhole) (arg2 : Memref sig .tc .vmem S64x129 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S12000x1 .f32) (harg6 : arg6.IsWhole)
    (x0 : Vec F S12000x129 .f32) (x1 : Vec F S64x129 .f32) (x2 : Vec F S1x64 .f32) (x3 : Vec F S1x64 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the edge-scoring pipeline on core `c`: the arrays as the call finds them (`V`); after the body at
    point `t` each input's buffer still at its block and the scores' at `out2_5` of the five input blocks; the
    invariant the class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window: each input as found, the scores as the payload of the inputs. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and each window's current staging
    memref at what the pipeline left in it, the six windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the five inputs' memrefs hold their blocks (`before2_w`) and the scores' holds something, so
    `sound_kernel2` applies at the blocks; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBRunAll.lean ====
/-
  The run of the whole program, given one segment record per kernel region: every weakly fair execution from a memory
  with zero counters terminates without a fault, and in every final memory EVERY buffer that lives outside the kernels'
  scopes holds what the last valuation of the chain says — the launch contents pushed through each stretch of host
  operations and through what each region leaves in its output array. The result buffers are then read off that
  valuation exactly as the argument buffers are.
-/
import proofs.«416973_j1090921693652_1_alg».proof.Proof.Gen.Kernel.Regions

set_option maxRecDepth 1104

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run, given the regions' records. For any user algebra, level assignment, launch dues and ghost resources, any
    rest states `E` the launch makes on every core at once (`hE0`) and that end owing nothing (`hE3`), any contents
    the regions leave (`outs`) and any proof data: GIVEN, per region K, a segment record entered from the thread state
    before it and left at the one after it (`RK`, `hpreK`, `hpostK`), every weakly fair execution of @main from memory
    `m` with zero counters terminates, and in every final memory each buffer outside the kernels' scopes holds what the
    last valuation `V9 m outs c` holds there. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, .rfl, .rfl, hpre2 c, hpost2 c, sep_mono .rfl (hE3 c)⟩)
    (hinit := ?_) (QY := fun c s => ∀ b ∈ Pipeline.ucRefs τ sig, s.mem (((c : Thread nD τ)).1, b) = V9 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

end Cert.Kernel.Hand

end
-- ==== Proof.KBRun.lean ====
import proofs.«416973_j1090921693652_1_alg».proof.Proof.KBRegion0
import proofs.«416973_j1090921693652_1_alg».proof.Proof.KBRegion1
import proofs.«416973_j1090921693652_1_alg».proof.Proof.KBRegion2
import proofs.«416973_j1090921693652_1_alg».proof.Proof.Gen.Kernel.Regions
import proofs.«416973_j1090921693652_1_alg».proof.Proof.KBRunAll
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of the whole program from its three kernel calls' halves

Between two items of @main a core holds every buffer outside the kernels' scopes at a valuation: the launch memory,
pushed through each stretch of host operations, and changed by each kernel call at its one output array only
(`main_v17` by the first call, `main_v31` by the second, `main_v70` by the third). What a call leaves in its output
array is a function of what it is ENTERED with, and the second call's entry contents already hold the first call's
output. So the contents the calls leave are built in stages, each stage naming one more call's output from the entry
valuation the stages before it determine. -/

/-! ## What the calls leave, stage by stage -/

/-- The first call's entry contents: the launch memory after the first stretch of host operations. -/
abbrev E1 : (c : Dev nD) → (b : Ref sig .tc) → Buf (Elt F) ((c : Thread nD τ).loc b) := fun c b => V1 m c b

/-- What the first call leaves in its output array `main_v17`: its ten write-backs folded over the entry contents. -/
def o2 (c : Dev nD) : Buf (Elt F) ((c : Thread nD τ).loc main_v17) := (dat0 (E1 m) c).arrAt 5 cfg0.N

/-- Stage 1: the first call's output named, every other read at the launch memory (no other is ever read before the
    later stages name it). -/
def outs1 : Outs (F := F) := fun _ r c => if h : r = main_v17 then h ▸ o2 m c else V0 m c r

/-- The second call's entry contents, determined by stage 1. -/
abbrev E3 : (c : Dev nD) → (b : Ref sig .tc) → Buf (Elt F) ((c : Thread nD τ).loc b) := fun c b => V3 m (outs1 m) c b

/-- What the second call leaves in its output array `main_v31`. -/
def o4 (c : Dev nD) : Buf (Elt F) ((c : Thread nD τ).loc main_v31) := (dat1 (E3 m) c).arrAt 5 cfg1.N

/-- Stage 2: the first two calls' outputs named. -/
def outs2 : Outs (F := F) := fun _ r c =>
  if h : r = main_v17 then h ▸ o2 m c else if h : r = main_v31 then h ▸ o4 m c else V0 m c r

/-- The third call's entry contents, determined by stage 2. -/
abbrev E7 : (c : Dev nD) → (b : Ref sig .tc) → Buf (Elt F) ((c : Thread nD τ).loc b) := fun c b => V7 m (outs2 m) c b

/-- What the third call leaves in its output array `main_v70`: the edge scores. -/
def o8 (c : Dev nD) : Buf (Elt F) ((c : Thread nD τ).loc main_v70) := (dat2 (E7 m) c).arrAt 5 cfg2.N

/-- The last stage: all three calls' outputs named. The run's valuations are read at this one. -/
def outs : Outs (F := F) := fun _ r c =>
  if h : r = main_v17 then h ▸ o2 m c else if h : r = main_v31 then h ▸ o4 m c
  else if h : r = main_v70 then h ▸ o8 m c else V0 m c r

/-! ### Each stage at the three arrays -/

theorem outs1_17 (c : Dev nD) : outs1 m 2 main_v17 c = o2 m c := by unfold outs1; exact dif_pos rfl
theorem outs2_17 (c : Dev nD) : outs2 m 2 main_v17 c = o2 m c := by unfold outs2; exact dif_pos rfl
theorem outs2_31 (c : Dev nD) : outs2 m 4 main_v31 c = o4 m c := by
  unfold outs2; rw [dif_neg (by decide : (main_v31 : Ref sig .tc) ≠ main_v17)]; exact dif_pos rfl
theorem outs_17 (c : Dev nD) : outs m 2 main_v17 c = o2 m c := by unfold outs; exact dif_pos rfl
theorem outs_31 (c : Dev nD) : outs m 4 main_v31 c = o4 m c := by
  unfold outs; rw [dif_neg (by decide : (main_v31 : Ref sig .tc) ≠ main_v17)]; exact dif_pos rfl
theorem outs_70 (c : Dev nD) : outs m 8 main_v70 c = o8 m c := by
  unfold outs; rw [dif_neg (by decide : (main_v70 : Ref sig .tc) ≠ main_v17), dif_neg (by decide : (main_v70 : Ref sig .tc) ≠ main_v31)]
  exact dif_pos rfl

/-! ### The valuations read a stage at those arrays only -/

section Congr
variable {o o' : Outs (F := F)} (c : Dev nD)

/-- Two families of outputs that agree at the first call's array give the same valuation up to the second call, -/
theorem V2_congr (h17 : o 2 main_v17 c = o' 2 main_v17 c) : V2 m o c = V2 m o' c := by
  show Function.update (V1 m c) _ (o 2 main_v17 c) = Function.update (V1 m c) _ (o' 2 main_v17 c); rw [h17]
theorem V3_congr (h17 : o 2 main_v17 c = o' 2 main_v17 c) : V3 m o c = V3 m o' c :=
  congrArg (StableHlo.after hostOps1) (V2_congr m c h17)
/-- that agree at the second's too, up to the third call, -/
theorem V4_congr (h17 : o 2 main_v17 c = o' 2 main_v17 c) (h31 : o 4 main_v31 c = o' 4 main_v31 c) : V4 m o c = V4 m o' c := by
  show Function.update (V3 m o c) _ (o 4 main_v31 c) = Function.update (V3 m o' c) _ (o' 4 main_v31 c)
  rw [h31, V3_congr m c h17]
theorem V5_congr (h17 : o 2 main_v17 c = o' 2 main_v17 c) (h31 : o 4 main_v31 c = o' 4 main_v31 c) : V5 m o c = V5 m o' c :=
  congrArg (StableHlo.after hostOps2) (V4_congr m c h17 h31)
theorem V6_congr (h17 : o 2 main_v17 c = o' 2 main_v17 c) (h31 : o 4 main_v31 c = o' 4 main_v31 c) : V6 m o c = V6 m o' c :=
  congrArg (StableHlo.after hostOps2_1) (V5_congr m c h17 h31)
theorem V7_congr (h17 : o 2 main_v17 c = o' 2 main_v17 c) (h31 : o 4 main_v31 c = o' 4 main_v31 c) : V7 m o c = V7 m o' c :=
  congrArg (StableHlo.after hostOps2_2) (V6_congr m c h17 h31)

end Congr

/-- The valuations of the run, read at the last stage, are the stage's that fixed them. -/
theorem V2_outs (c : Dev nD) : V2 m (outs m) c = V2 m (outs1 m) c := V2_congr m c ((outs_17 m c).trans (outs1_17 m c).symm)
theorem V3_outs (c : Dev nD) : V3 m (outs m) c = V3 m (outs1 m) c := V3_congr m c ((outs_17 m c).trans (outs1_17 m c).symm)
theorem V3_outs2 (c : Dev nD) : V3 m (outs2 m) c = V3 m (outs1 m) c := V3_congr m c ((outs2_17 m c).trans (outs1_17 m c).symm)
theorem V4_outs (c : Dev nD) : V4 m (outs m) c = V4 m (outs2 m) c :=
  V4_congr m c ((outs_17 m c).trans (outs2_17 m c).symm) ((outs_31 m c).trans (outs2_31 m c).symm)
theorem V7_outs (c : Dev nD) : V7 m (outs m) c = V7 m (outs2 m) c :=
  V7_congr m c ((outs_17 m c).trans (outs2_17 m c).symm) ((outs_31 m c).trans (outs2_31 m c).symm)

/-! ## Each call's exit contents against its entry contents -/

/-- The calls' exit contents, read at the TensorCore's references: the first call's by stage 1, the second's by stage 2,
    the third's by the last stage. -/
abbrev X2 : (c : Dev nD) → (b : Ref sig .tc) → Buf (Elt F) ((c : Thread nD τ).loc b) := fun c b => V2 m (outs1 m) c b
abbrev X4 : (c : Dev nD) → (b : Ref sig .tc) → Buf (Elt F) ((c : Thread nD τ).loc b) := fun c b => V4 m (outs2 m) c b
abbrev X8 : (c : Dev nD) → (b : Ref sig .tc) → Buf (Elt F) ((c : Thread nD τ).loc b) := fun c b => V8 m (outs m) c b

/-- A reference that is no array of a call's windows is in particular not its output array. -/
theorem not_out_of_not_arr0 {b : Ref sig .tc} (hb : b ∉ Finset.univ.image (Pipeline.arrRef spec0)) : b ∉ ([main_v17] : List (Ref sig .tc)) :=
  fun h => hb (Finset.mem_image.mpr ⟨5, Finset.mem_univ _, (List.mem_singleton.mp h).symm⟩)
theorem not_out_of_not_arr1 {b : Ref sig .tc} (hb : b ∉ Finset.univ.image (Pipeline.arrRef spec1)) : b ∉ ([main_v31] : List (Ref sig .tc)) :=
  fun h => hb (Finset.mem_image.mpr ⟨5, Finset.mem_univ _, (List.mem_singleton.mp h).symm⟩)
theorem not_out_of_not_arr2 {b : Ref sig .tc} (hb : b ∉ Finset.univ.image (Pipeline.arrRef spec2)) : b ∉ ([main_v70] : List (Ref sig .tc)) :=
  fun h => hb (Finset.mem_image.mpr ⟨5, Finset.mem_univ _, (List.mem_singleton.mp h).symm⟩)

/-- At the first call's exit each of its arrays holds what the pipeline leaves there: an input's, what it held at entry
    (no write-back touches it, and the exit valuation differs from the entry one at `main_v17` only); the output's, its
    write-backs folded, which is what stage 1 names there. -/
theorem hF0 (c : Dev nD) : ∀ w : Fin cfg0.W, (dat0 (E1 m) c).arrAt w cfg0.N = X2 m c (Pipeline.arrRef spec0 w)
  | 0 => ((dat0 (E1 m) c).arrAt_in 0 rfl _).trans ((A_eq0 (E1 m) c 0).trans (V2_of m (outs1 m) c _ (by decide)).symm)
  | 1 => ((dat0 (E1 m) c).arrAt_in 1 rfl _).trans ((A_eq0 (E1 m) c 1).trans (V2_of m (outs1 m) c _ (by decide)).symm)
  | 2 => ((dat0 (E1 m) c).arrAt_in 2 rfl _).trans ((A_eq0 (E1 m) c 2).trans (V2_of m (outs1 m) c _ (by decide)).symm)
  | 3 => ((dat0 (E1 m) c).arrAt_in 3 rfl _).trans ((A_eq0 (E1 m) c 3).trans (V2_of m (outs1 m) c _ (by decide)).symm)
  | 4 => ((dat0 (E1 m) c).arrAt_in 4 rfl _).trans ((A_eq0 (E1 m) c 4).trans (V2_of m (outs1 m) c _ (by decide)).symm)
  | 5 => ((Function.update_self (Proc.devRef .tc main_v17 : DevRef τ sig) (outs1 m 2 main_v17 c) (V1 m c)).trans (outs1_17 m c)).symm
  | ⟨_ + 6, h⟩ => absurd h (Nat.not_lt.2 (Nat.le_add_left 6 _))
/-- Every other buffer is as the call found it. -/
theorem hrest0 (c : Dev nD) : ∀ b, b ∉ Finset.univ.image (Pipeline.arrRef spec0) → X2 m c b = E1 m c b :=
  fun b hb => V2_of m (outs1 m) c b (not_out_of_not_arr0 hb)

/-- The same at the second call's exit: the exit valuation (stage 2) differs from the entry one (stage 1) at `main_v31`
    only — the two stages agree on everything before the second call. -/
theorem hF1 (c : Dev nD) : ∀ w : Fin cfg1.W, (dat1 (E3 m) c).arrAt w cfg1.N = X4 m c (Pipeline.arrRef spec1 w)
  | 0 => ((dat1 (E3 m) c).arrAt_in 0 rfl _).trans ((A_eq1 (E3 m) c 0).trans ((V4_of m (outs2 m) c _ (by decide)).trans (congrFun (V3_outs2 m c) _)).symm)
  | 1 => ((dat1 (E3 m) c).arrAt_in 1 rfl _).trans ((A_eq1 (E3 m) c 1).trans ((V4_of m (outs2 m) c _ (by decide)).trans (congrFun (V3_outs2 m c) _)).symm)
  | 2 => ((dat1 (E3 m) c).arrAt_in 2 rfl _).trans ((A_eq1 (E3 m) c 2).trans ((V4_of m (outs2 m) c _ (by decide)).trans (congrFun (V3_outs2 m c) _)).symm)
  | 3 => ((dat1 (E3 m) c).arrAt_in 3 rfl _).trans ((A_eq1 (E3 m) c 3).trans ((V4_of m (outs2 m) c _ (by decide)).trans (congrFun (V3_outs2 m c) _)).symm)
  | 4 => ((dat1 (E3 m) c).arrAt_in 4 rfl _).trans ((A_eq1 (E3 m) c 4).trans ((V4_of m (outs2 m) c _ (by decide)).trans (congrFun (V3_outs2 m c) _)).symm)
  | 5 => ((Function.update_self (Proc.devRef .tc main_v31 : DevRef τ sig) (outs2 m 4 main_v31 c) (V3 m (outs2 m) c)).trans (outs2_31 m c)).symm
  | ⟨_ + 6, h⟩ => absurd h (Nat.not_lt.2 (Nat.le_add_left 6 _))
theorem hrest1 (c : Dev nD) : ∀ b, b ∉ Finset.univ.image (Pipeline.arrRef spec1) → X4 m c b = E3 m c b :=
  fun b hb => (V4_of m (outs2 m) c b (not_out_of_not_arr1 hb)).trans (congrFun (V3_outs2 m c) _)

/-- The same at the third call's exit: the last stage differs from stage 2 at `main_v70` only. -/
theorem hF2 (c : Dev nD) : ∀ w : Fin cfg2.W, (dat2 (E7 m) c).arrAt w cfg2.N = X8 m c (Pipeline.arrRef spec2 w)
  | 0 => ((dat2 (E7 m) c).arrAt_in 0 rfl _).trans ((A_eq2 (E7 m) c 0).trans ((V8_of m (outs m) c _ (by decide)).trans (congrFun (V7_outs m c) _)).symm)
  | 1 => ((dat2 (E7 m) c).arrAt_in 1 rfl _).trans ((A_eq2 (E7 m) c 1).trans ((V8_of m (outs m) c _ (by decide)).trans (congrFun (V7_outs m c) _)).symm)
  | 2 => ((dat2 (E7 m) c).arrAt_in 2 rfl _).trans ((A_eq2 (E7 m) c 2).trans ((V8_of m (outs m) c _ (by decide)).trans (congrFun (V7_outs m c) _)).symm)
  | 3 => ((dat2 (E7 m) c).arrAt_in 3 rfl _).trans ((A_eq2 (E7 m) c 3).trans ((V8_of m (outs m) c _ (by decide)).trans (congrFun (V7_outs m c) _)).symm)
  | 4 => ((dat2 (E7 m) c).arrAt_in 4 rfl _).trans ((A_eq2 (E7 m) c 4).trans ((V8_of m (outs m) c _ (by decide)).trans (congrFun (V7_outs m c) _)).symm)
  | 5 => ((Function.update_self (Proc.devRef .tc main_v70 : DevRef τ sig) (outs m 8 main_v70 c) (V7 m (outs m) c)).trans (outs_70 m c)).symm
  | ⟨_ + 6, h⟩ => absurd h (Nat.not_lt.2 (Nat.le_add_left 6 _))
theorem hrest2 (c : Dev nD) : ∀ b, b ∉ Finset.univ.image (Pipeline.arrRef spec2) → X8 m c b = E7 m c b :=
  fun b hb => (V8_of m (outs m) c b (not_out_of_not_arr2 hb)).trans (congrFun (V7_outs m c) _)

/-! ## The proof data family and what rides beside the buffers -/

/-- Every pipeline's proof data, each at its call's entry contents (a literal match, so that at a numeral it reduces to
    the call's own data). -/
def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E7 m) c

abbrev noVariant : Variants := Variants.none
/-- No core waits on another: no level is assigned. -/
abbrev noLevel : GSem nD τ sig → Finset Unit := fun _ => ∅
abbrev levelOf : GSem nD τ sig → Unit → ℕ := fun _ _ => 0
/-- What a core holds beside its buffers between any two items: its generator register at some state (each call's
    invariant takes it in and gives it back) and its debts, none. -/
abbrev rideAlong (c : Dev nD) : sProp 𝕄 := iprop((∃ r, prngReg c r) ∗ ∃ W, owes (c : Thread nD τ) (0 : CellTallies nD τ sig Unit) W)

/-- A core that owes nothing owes what a pipeline point asks, when the proof data owe nothing there and put no bound on
    the recorded waits; -/
theorem debts_in {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, Hdebt⟩
  iexists W
  isplitr; · ipureintro; exact fun _ _ => Or.inl trivial
  iexact Hdebt
/-- and what a point that owes nothing holds is a core owing nothing. -/
theorem debts_out {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, Hdebt⟩
  iexists W; iexact Hdebt

/-- No call of this program has a prefetched table: holding the tables is holding nothing. -/
theorem noTable {p : Fin 3} (c : Dev nD) :
    (Pipeline.prefHeld (Ix := Unit) (Name := ℕ) (U := UR sig nD τ) (Lvl := ℕ) (pcfgs (F := F) p).pre c (fun _ => fullShare) (adm p).1 : sProp 𝕄) = BI.emp := by
  unfold Pipeline.prefHeld; rw [show (Finset.univ : Finset (Fin 0)) = ∅ from rfl, BI.bigSep_empty]

/-! ## The calls as segments -/

set_option backward.isDefEq.respectTransparency.types false in
/-- THE FIRST CALL over the thread state: entered from every buffer outside the scopes at the valuation after the first host
    stretch, left at stage 1's next valuation. Its six arrays are split out of those buffers at entry and put back at exit
    at the contents `hF0` / `hrest0` identify; the generator register goes into the call's invariant and comes back; nothing
    is owed; the kernel has no semaphore of its own and no table. -/
def reg0 : Pipeline.RegionSeg (pcfgs (F := F)) adm (pdats m) () defs₀ noVariant noLevel levelOf 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noLevel levelOf 0 fun _ _ => rfl
  pre c := iprop(StableHlo.held (c : Thread nD τ) (Pipeline.ucRefs τ sig) (V1 m c) ∗ rideAlong c)
  post c := iprop(StableHlo.held (c : Thread nD τ) (Pipeline.ucRefs τ sig) (V2 m (outs1 m) c) ∗ rideAlong c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    -- the buffers outside the scopes, at the entry contents, are the six arrays and the rest
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    rw [Pipeline.ownSems0_none]
    iintro ⟨⟨Hbufs, Hgen, Hdebt⟩, -, -⟩
    imodintro
    ihave Hsp := hsplit $$ Hbufs
    icases Hsp with ⟨Harr, Hrest⟩
    isplitl [Harr]; · iexact Harr
    isplitr; · rw [noTable]; iempintro
    isplitl [Hdebt]; · iapply (debts_in (pdats m 0 c) 0 rfl rfl); iexact Hdebt
    isplitl [Hgen]; · iexact Hgen
    iexact Hrest
  hin c := by
    rw [show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    -- the six arrays at what the pipeline leaves and the rest as found are the buffers at the exit contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Harr, Hdebt, Hgen, Hrest⟩
    imodintro
    isplitl [Harr Hrest]
    · iapply hjoin; isplitl [Harr]; · iexact Harr
      iexact Hrest
    isplitl [Hgen]; · iexact Hgen
    iapply (debts_out (pdats m 0 c) _ rfl); iexact Hdebt

set_option backward.isDefEq.respectTransparency.types false in
/-- THE SECOND CALL: entered at stage 1's valuation after the second host stretch, left at stage 2's next valuation. -/
def reg1 : Pipeline.RegionSeg (pcfgs (F := F)) adm (pdats m) () defs₀ noVariant noLevel levelOf 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noLevel levelOf 1 fun _ _ => rfl
  pre c := iprop(StableHlo.held (c : Thread nD τ) (Pipeline.ucRefs τ sig) (V3 m (outs1 m) c) ∗ rideAlong c)
  post c := iprop(StableHlo.held (c : Thread nD τ) (Pipeline.ucRefs τ sig) (V4 m (outs2 m) c) ∗ rideAlong c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    -- the buffers outside the scopes, at the entry contents, are the six arrays and the rest
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    rw [Pipeline.ownSems0_none]
    iintro ⟨⟨Hbufs, Hgen, Hdebt⟩, -, -⟩
    imodintro
    ihave Hsp := hsplit $$ Hbufs
    icases Hsp with ⟨Harr, Hrest⟩
    isplitl [Harr]; · iexact Harr
    isplitr; · rw [noTable]; iempintro
    isplitl [Hdebt]; · iapply (debts_in (pdats m 1 c) 0 rfl rfl); iexact Hdebt
    isplitl [Hgen]; · iexact Hgen
    iexact Hrest
  hin c := by
    rw [show (pdats m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    -- the six arrays at what the pipeline leaves and the rest as found are the buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Harr, Hdebt, Hgen, Hrest⟩
    imodintro
    isplitl [Harr Hrest]
    · iapply hjoin; isplitl [Harr]; · iexact Harr
      iexact Hrest
    isplitl [Hgen]; · iexact Hgen
    iapply (debts_out (pdats m 1 c) _ rfl); iexact Hdebt

set_option backward.isDefEq.respectTransparency.types false in
/-- THE THIRD CALL: entered at stage 2's valuation after the three host stretches that follow the second call, left at the
    last stage's next valuation. -/
def reg2 : Pipeline.RegionSeg (pcfgs (F := F)) adm (pdats m) () defs₀ noVariant noLevel levelOf 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ noLevel levelOf 2 fun _ _ => rfl
  pre c := iprop(StableHlo.held (c : Thread nD τ) (Pipeline.ucRefs τ sig) (V7 m (outs2 m) c) ∗ rideAlong c)
  post c := iprop(StableHlo.held (c : Thread nD τ) (Pipeline.ucRefs τ sig) (V8 m (outs m) c) ∗ rideAlong c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    -- the buffers outside the scopes, at the entry contents, are the six arrays and the rest
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    rw [Pipeline.ownSems0_none]
    iintro ⟨⟨Hbufs, Hgen, Hdebt⟩, -, -⟩
    imodintro
    ihave Hsp := hsplit $$ Hbufs
    icases Hsp with ⟨Harr, Hrest⟩
    isplitl [Harr]; · iexact Harr
    isplitr; · rw [noTable]; iempintro
    isplitl [Hdebt]; · iapply (debts_in (pdats m 2 c) 0 rfl rfl); iexact Hdebt
    isplitl [Hgen]; · iexact Hgen
    iexact Hrest
  hin c := by
    rw [show (pdats m 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (pdats m 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    -- the six arrays at what the pipeline leaves and the rest as found are the buffers at the exit contents
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (X8 m c) ((pdats m 2 c).arrAt · cfg2.N) (hF2 m c) (hrest2 m c)
    rw [Pipeline.unscopedBufs_held] at hjoin
    iintro ⟨Harr, Hdebt, Hgen, Hrest⟩
    imodintro
    isplitl [Harr Hrest]
    · iapply hjoin; isplitl [Harr]; · iexact Harr
      iexact Hrest
    isplitl [Hgen]; · iexact Hgen
    iapply (debts_out (pdats m 2 c) _ rfl); iexact Hdebt

/-! ## The launch, and the run -/

/-- The launch's element of the user algebra: the pipelines' cells at their initial state with the launch's tokens. -/
abbrev launchElt : UR sig nD τ := initOf (Pipeline.cells cfgs cellOf_inj) (Pipeline.launchToks cfgs cellOf_inj)

/-- Owning it is owning it through the embedding, beside no ghost resource on any core. -/
theorem launch_own : (ownU (launchElt) : sProp 𝕄) ⊢ |={Set.univ}=> iprop(BI.own (emb₁ (launchElt)) ∗ bigSep Finset.univ fun _ : Dev nD => (iprop(emp) : sProp 𝕄)) := by
  iintro Hu
  imodintro
  isplitl [Hu]
  · iapply (show (ownU (launchElt) : sProp 𝕄) ⊢ BI.own (emb₁ (launchElt)) from .rfl); iexact Hu
  iapply (show (BI.emp : sProp 𝕄) ⊢ bigSep Finset.univ (fun _ : Dev nD => (BI.emp : sProp 𝕄)) from by rw [BI.bigSep_emp_const])
  iempintro

/-- What the launch deals every core beside its buffers — its semaphores at zero, its debts (none), its generator
    register — makes what rides along: the register at some state and no debt. Core by core. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts noLevel levelOf)
      ⊢ (|={Set.univ}=> bigSep Finset.univ (fun c : Dev nD => rideAlong c) : sProp 𝕄) := by
  refine Pipeline.initEach noLevel levelOf fun c => ?_
  iintro ⟨⟨-, Hdebt, -, Hgen, -⟩, -⟩
  imodintro
  isplitl [Hgen]; · iexists _; iexact Hgen
  iexists ∅; iexact Hdebt

/-- What rides along ends owing nothing. -/
theorem rest_debts (c : Dev nD) : rideAlong c ⊢ (iprop(∃ W, owes (c : Thread nD τ) (0 : CellTallies nD τ sig Unit) W) : sProp 𝕄) := by
  iintro ⟨-, Hdebt⟩; iexact Hdebt

/-- Each call's record is entered from the run's thread state before it and leaves the one after it: the run's
    valuations, read at the last stage, are the stage's the record is stated at. -/
theorem leave0 (c : Dev nD) : (reg0 m).post c ⊢ iprop(StableHlo.held (c : Thread nD τ) (Pipeline.ucRefs τ sig) (V2 m (outs m) c) ∗ rideAlong c) := by
  rw [V2_outs]; exact .rfl
theorem enter1 (c : Dev nD) : iprop(StableHlo.held (c : Thread nD τ) (Pipeline.ucRefs τ sig) (V3 m (outs m) c) ∗ rideAlong c) ⊢ (reg1 m).pre c := by
  rw [V3_outs]; exact .rfl
theorem leave1 (c : Dev nD) : (reg1 m).post c ⊢ iprop(StableHlo.held (c : Thread nD τ) (Pipeline.ucRefs τ sig) (V4 m (outs m) c) ∗ rideAlong c) := by
  rw [V4_outs]; exact .rfl
theorem enter2 (c : Dev nD) : iprop(StableHlo.held (c : Thread nD τ) (Pipeline.ucRefs τ sig) (V7 m (outs m) c) ∗ rideAlong c) ⊢ (reg2 m).pre c := by
  rw [V7_outs]; exact .rfl

set_option backward.isDefEq.respectTransparency.types false in
/-- THE FRAME, at any float instance: from any memory with zero counters every weakly fair execution of @main on the
    TensorCores terminates, nothing faulting, and every final memory holds each of the thirteen argument arrays as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () noVariant noLevel levelOf (fun _ _ => rfl) ρ (outs m) (pdats m) 0 (fun _ => iprop(emp)) launchElt launch_own
    (fun _ c => rideAlong c) (launch_rest ρ) rest_debts
    (reg0 m) (fun _ => .rfl) (leave0 m) (reg1 m) (enter1 m) (leave1 m) (reg2 m) (enter2 m) (fun _ => .rfl)

set_option backward.isDefEq.respectTransparency.types false in
/-- THE RUN, whole: the same executions end with EVERY buffer outside the kernels' scopes at the last valuation of the
    chain, read at the last stage — the launch memory through every host stretch and every call's output. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) :=
  run_cond m emb₁ () noVariant noLevel levelOf (fun _ _ => rfl) ρ (outs m) (pdats m) 0 (fun _ => iprop(emp)) launchElt launch_own
    (fun _ c => rideAlong c) (launch_rest ρ) rest_debts
    (reg0 m) (fun _ => .rfl) (leave0 m) (reg1 m) (enter1 m) (leave1 m) (reg2 m) (enter2 m) (fun _ => .rfl)

end Cert.Kernel.Hand

end
-- ==== Proof.KIRegion0.lean ====
import proofs.«416973_j1090921693652_1_alg».proof.Proof.Gen.KernelIdeal.Launch
import proofs.«416973_j1090921693652_1_alg».proof.Proof.Gen.KernelIdeal.Skeleton
import proofs.«416973_j1090921693652_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first dense layer's call (pipeline 0), at the buffer contents `V` the call is entered with

The call walks ten row blocks of 10000 nodes. At a block it reads that block of the aggregated messages and of
the node features (10000x4 each), the two 64x4 weight matrices and the 1x64 bias row (the same at every block),
and writes the block's 10000x64 rows of the layer's result. -/

/-! ## The windows' blocks -/

/-- Window `w`'s block at row block `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregated messages' window (0) moves with the row block and is fetched at each: for any proof data whose
    array is `V`'s and whose body leaves the block where it lies, the window's buffer holds rows
    `10000 t … 10000 t + 9999` of the messages when the body runs at `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The node features' window (1): the same rows of the features. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix's window (2) has a constant index map: it is brought in at the first row block only, and
    at a later block its buffer still holds what the body left at the block before, which is the whole matrix
    again because the index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix's window (3): likewise the whole matrix at every row block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The bias row's window (4): likewise the whole row at every row block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and the one store go through the whole of the buffer they touch: the unit-stride rectangle at offset
`(0, 0)` of the buffer's own extents, one per buffer shape. -/

/-- All of a 10000x4 row block (messages, features). -/
abbrev wholeRows4 : Rect S10000x4 := Rect.unit (s := S10000x4) ![0, 0] S10000x4.size inb_S10000x4_S10000x4_0_0
/-- All of a 64x4 weight matrix. -/
abbrev wholeWeight : Rect S64x4 := Rect.unit (s := S64x4) ![0, 0] S64x4.size inb_S64x4_S64x4_0_0
/-- All of the 1x64 bias row. -/
abbrev wholeBias : Rect S1x64 := Rect.unit (s := S1x64) ![0, 0] S1x64.size inb_S1x64_S1x64_0_0
/-- All of a 10000x64 result block. -/
abbrev wholeRows64 : Rect S10000x64 := Rect.unit (s := S10000x64) ![0, 0] S10000x64.size inb_S10000x64_S10000x64_0_0

/-! ## What the body leaves in the result window's buffer -/

/-- The result block (window 5) after the body, from the five input blocks: the one store, of
    `max (bf16 x0 · (bf16 x2)ᵀ + bf16 x1 · (bf16 x3)ᵀ + x4, 0)` (the skeleton's payload `k0_pay1`), over the whole
    buffer. Row `r` of it depends on row `r` of the messages' and of the features' block, and on all of both
    weight matrices and the bias. -/
def out0_5 (x0 : Vec F S10000x4 .f32) (x1 : Vec F S10000x4 .f32) (x2 : Vec F S64x4 .f32) (x3 : Vec F S64x4 .f32) (x4 : Vec F S1x64 .f32) :
    Vec F S10000x64 .f32 :=
  View.canon [⟨wholeRows64, k0_pay1 (View.ld x0 wholeRows4) (View.ld x1 wholeRows4) (View.ld x2 wholeWeight) (View.ld x3 wholeWeight) (View.ld x4 wholeBias)⟩]

/-- The one store is a single tile of the buffer's own extents, so every index of the buffer lies in it. -/
theorem cover0_5 (p : Vec F S10000x64 .f32) (y : S10000x64.Idx) :
    ∃ pc ∈ ([⟨wholeRows64, p⟩] : List (View.Piece (Elt F) S10000x64 .f32)), y ∈ pc.1.set :=
  View.cover_of_tiled [⟨wholeRows64, p⟩] S10000x64.size (by rfl) y

/-! ## The body's triple -/

set_option maxHeartbeats 1000000 in
/-- The kernel body on whole staging memrefs — the five inputs' reading `x0 … x4`, the result's at any contents — runs
    to a continuation that holds the inputs' as they were and the result's at `out0_5` of the inputs. The body is its
    skeleton of memory operations: five whole-buffer loads, a load of the result buffer whose value nothing uses, and the one
    whole-buffer store of the payload; the store covers the buffer, so what was there before does not matter. -/
theorem sound_kernel0 (c : Dev nD) (E : Set ℕ) (i : grid0.Coords)
    (arg1 : Memref sig .tc .vmem S10000x4 .f32) (harg1 : arg1.IsWhole) (arg2 : Memref sig .tc .vmem S10000x4 .f32) (harg2 : arg2.IsWhole)
    (arg3 : Memref sig .tc .vmem S64x4 .f32) (harg3 : arg3.IsWhole) (arg4 : Memref sig .tc .vmem S64x4 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x4 .f32) (x1 : Vec F S10000x4 .f32) (x2 : Vec F S64x4 .f32) (x3 : Vec F S64x4 .f32) (x4 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the call on core `c`: the six arrays as the call finds them (`V`); after the body at row
    block `t` each input window's buffer still at its block, and the result window's at `out0_5` of the five input
    blocks; the invariant the plain one (the core's other scoped buffers and its generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the contents the call is entered with. -/
theorem A_eq0 (c : Dev nD) (w : Fin cfg0.W) : (dat0 V c).A w = V c (Pipeline.arrRef spec0 w) := by
  dsimp only [dat0]

/-- What the body leaves, window by window: the inputs in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- and the result block computed from them. -/
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input window's buffer holds its block whenever the body runs, brought in there or kept from before. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at any row block -/

/-- What the body is entered with at row block `t`: the invariant, the core's debts, and each window's current
    buffer at what the pipeline put or left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any row block: the five input buffers hold their blocks (`before0_0 … before0_4`) and the result
    buffer holds something, so the body's triple applies; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the call: the windows' conjunction opened one by one, then the above. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
import proofs.«416973_j1090921693652_1_alg».proof.Proof.Gen.KernelIdeal.Launch
import proofs.«416973_j1090921693652_1_alg».proof.Proof.Gen.KernelIdeal.Skeleton
import proofs.«416973_j1090921693652_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: one dense layer over ten slabs of 10000 node rows

At grid point `t` the kernel is handed the `t`-th slab of 10000 rows of the aggregated messages (window 0) and of
the hidden features (window 1), both 64 wide, the two 64x64 weight matrices (windows 2 and 3) and the 1x64 bias row
(window 4), the last three the same at every point. It writes the `t`-th slab of 10000 output rows (window 5):
`max (msgs · W₂ᵀ + hidden · W₃ᵀ + bias, 0)`, the products taken on operands rounded to bf16. Everything here is stated
at a parameter `V`, the core's buffer contents when the call is entered. -/

/-! ## What each window shows of its array at a grid point -/

/-- The block of window `w` at point `t`, read off the window's array as `V` has it: for the two slab inputs and the
    output, rows `10000·t … 10000·t + 9999`; for the weights and the bias, the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers hold their blocks

The two slab inputs are copied in afresh at every point. The weights and the bias are copied in at the first point only:
their block index never moves, so what the first copy left is still the block at every later point, provided the body
leaves it alone. One library lemma covers both cases; its hypotheses are that the window is an input, is never idle,
is not cut at the array's edge, and that the body leaves its block in place. -/

/-- The aggregated messages' slab. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The hidden features' slab. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix applied to the messages: copied in once, still there at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The weight matrix applied to the hidden features: likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The bias row: likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses

Every load and the one store of the body go through the whole of a staging buffer: the rectangle at offset `(0, 0)`
of the buffer's own extents with unit strides. There is one per block shape. -/

/-- All of a 10000x64 slab: the two slab inputs' loads, the output's load and the store. -/
abbrev slabRect : Rect S10000x64 := Rect.unit (s := S10000x64) ![0, 0] S10000x64.size inb_S10000x64_S10000x64_0_0
/-- All of a 64x64 weight matrix. -/
abbrev weightRect : Rect S64x64 := Rect.unit (s := S64x64) ![0, 0] S64x64.size inb_S64x64_S64x64_0_0
/-- All of the 1x64 bias row. -/
abbrev biasRect : Rect S1x64 := Rect.unit (s := S1x64) ![0, 0] S1x64.size inb_S1x64_S1x64_0_0

/-! ## What the body leaves in the output's staging buffer -/

/-- The output slab after the body, from the five input blocks: its single store, of the layer's value on what the
    five whole-buffer loads read (messages, hidden features, the two weight matrices, the bias, in that order),
    through the whole slab. The slab's earlier contents, which the body loads and drops, do not enter. -/
def out1_5 (x0 : Vec F S10000x64 .f32) (x1 : Vec F S10000x64 .f32) (x2 : Vec F S64x64 .f32) (x3 : Vec F S64x64 .f32) (x4 : Vec F S1x64 .f32) : Vec F S10000x64 .f32 :=
  View.canon [⟨slabRect, k1_pay1 (View.ld x0 slabRect) (View.ld x1 slabRect) (View.ld x2 weightRect) (View.ld x3 weightRect) (View.ld x4 biasRect)⟩]

/-- The one store is the slab's only tile, of the slab's own size: every output element lies in it. Decided on the
    rectangle's offsets, sizes and strides; no element is enumerated. -/
theorem cover1_5 (p0 : Vec F S10000x64 .f32) (y : S10000x64.Idx) :
    ∃ pc ∈ ([⟨slabRect, p0⟩] : List (View.Piece (Elt F) S10000x64 .f32)), y ∈ pc.1.set :=
  View.cover_of_tiled [⟨slabRect, p0⟩] S10000x64.size (by rfl) y

/-! ## The body's triple -/

set_option maxHeartbeats 1000000 in
/-- The body on six whole staging memrefs, the five inputs' read at `x0 … x4` and the output's at anything: it
    returns the inputs' as they were and the output's reading `out1_5 x0 … x4`. The body is five loads, a load of the
    output slab whose value is dropped, and one store; the store overwrites the whole slab, so the contents it is left
    with are the store's payload whatever was there (the cover above). -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this call's pipeline on core `c`. The six arrays are as the call finds them (`V`). After the
    body at point `t`, each input's staging buffer still holds its block, and the output's holds the layer's value on
    the five input blocks (`out1_5`). The invariant is the one of a body that touches its staging buffers only (the
    other scoped buffers and the generator register, untouched); every share is full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window: the five inputs' blocks in place, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- and the output slab at the layer's value on them. -/
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- So each input's current staging buffer holds its block when the body is called, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and the six current staging
    buffers, each at what the pipeline left in it (for the output: anything). -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, the buffers at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks (`before1_w`), so the triple applies at those
    blocks; the invariant and the debts do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: its two conjunctions over the windows spelled out, six factors
    each, are `bodyPre1` and `bodyPost1`. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
import proofs.«416973_j1090921693652_1_alg».proof.Proof.Gen.KernelIdeal.Launch
import proofs.«416973_j1090921693652_1_alg».proof.Proof.Gen.KernelIdeal.Skeleton
import proofs.«416973_j1090921693652_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge-scoring call (the third kernel call of @main), at the buffer contents `V` it is entered with

Its grid has 150 points; point `t` scores the 12000 edges of rows `12000 t … 12000 t + 11999`. Window 0 is those
edges' 129 embedding coordinates (it moves with `t`); windows 1–4 are the two layers' parameters (the 64x129
first-layer weights, the 1x64 first bias row, the 1x64 second-layer weights, the 1x1 second bias), whose index maps
are constant: the same block at every point, brought in at the first point only. Window 5 is the 12000x1 column of
scores, written back at every point. -/

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge rows' staging buffer holds the point's 12000 rows, for ANY proof data whose array is `V`'s and whose body
    leaves the block in place: the window is an input, never idle and uncut, so its buffer is what a fetch at the
    point brings — the block read off `V` — and it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The first-layer weights' staging buffer holds the 64x129 matrix at every point though it is brought in at the
    first only: the block index never moves, so an unfetched point finds the previous point's block, which is its own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first bias row's staging buffer holds the 1x64 row at every point (constant index map, as the weights'). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The second-layer weights' staging buffer holds the 1x64 row at every point (constant index map). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The second bias' staging buffer holds the 1x1 scalar at every point (constant index map). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Each access of the body is of a WHOLE staging buffer: the unit-stride rectangle from the origin of the buffer's own
    extent. One per shape: the edge rows', the first-layer weights', the two 1x64 rows' (first bias, second-layer
    weights), the second bias', the scores'. -/
abbrev edgeRowsRect : Rect S12000x129 := Rect.unit (s := S12000x129) ![0, 0] S12000x129.size inb_S12000x129_S12000x129_0_0
abbrev weights1Rect : Rect S64x129 := Rect.unit (s := S64x129) ![0, 0] S64x129.size inb_S64x129_S64x129_0_0
abbrev rowRect : Rect S1x64 := Rect.unit (s := S1x64) ![0, 0] S1x64.size inb_S1x64_S1x64_0_0
abbrev bias2Rect : Rect S1x1 := Rect.unit (s := S1x1) ![0, 0] S1x1.size inb_S1x1_S1x1_0_0
abbrev scoresRect : Rect S12000x1 := Rect.unit (s := S12000x1) ![0, 0] S12000x1.size inb_S12000x1_S12000x1_0_0

/-! ## What the body leaves in the scores' buffer -/

/-- The scores' staging buffer after the body, from the five input blocks: its one store, of the payload
    `k2_pay1` (the two-layer perceptron of the edge rows: first layer in bf16 with f32 accumulation, bias, ReLU, second
    layer likewise, second bias) over the whole buffer. What the buffer held before — which the body loads and
    drops — does not enter. -/
def out2_5 (x0 : Vec F S12000x129 .f32) (x1 : Vec F S64x129 .f32) (x2 : Vec F S1x64 .f32) (x3 : Vec F S1x64 .f32) (x4 : Vec F S1x1 .f32) : Vec F S12000x1 .f32 :=
  View.canon [⟨scoresRect, k2_pay1 (View.ld x0 edgeRowsRect) (View.ld x1 weights1Rect) (View.ld x2 rowRect) (View.ld x3 rowRect) (View.ld x4 bias2Rect)⟩]

/-- The one store tiles the 12000x1 buffer, so every index of it lies in the store's rectangle. -/
theorem cover2_5 (p0 : Vec F S12000x1 .f32) (y : S12000x1.Idx) :
    ∃ pc ∈ ([⟨scoresRect, p0⟩] : List (View.Piece (Elt F) S12000x1 .f32)), y ∈ pc.1.set :=
  View.cover_of_tiled [⟨scoresRect, p0⟩] S12000x1.size (by rfl) y

/-! ## The body's triple -/

set_option maxHeartbeats 1000000 in
/-- The body on whole staging memrefs — the five inputs' at read contents `x0 … x4`, the scores' at anything —
    runs to the continuation holding the inputs' as they were and the scores' at `out2_5` of them: five whole-buffer
    loads, a load of the scores' buffer whose value is dropped, and the one whole-buffer store of the payload. -/
theorem sound_kernel2 (c : Dev nD) (E : Set ℕ) (i : grid2.Coords)
    (arg1 : Memref sig .tc .vmem S12000x129 .f32) (harg1 : arg1.IsWhole) (arg2 : Memref sig .tc .vmem S64x129 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S12000x1 .f32) (harg6 : arg6.IsWhole)
    (x0 : Vec F S12000x129 .f32) (x1 : Vec F S64x129 .f32) (x2 : Vec F S1x64 .f32) (x3 : Vec F S1x64 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the edge-scoring pipeline on core `c`: the arrays as the call finds them (`V`); after the body at
    point `t` each input's buffer still at its block and the scores' at `out2_5` of the five input blocks; the
    invariant the class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window: each input as found, the scores as the payload of the inputs. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and each window's current staging
    memref at what the pipeline left in it, the six windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the five inputs' memrefs hold their blocks (`before2_w`) and the scores' holds something, so
    `sound_kernel2` applies at the blocks; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRunAll.lean ====
/-
  The run of the whole program, given one segment record per kernel region: every weakly fair execution from a memory
  with zero counters terminates without a fault, and in every final memory EVERY buffer that lives outside the kernels'
  scopes holds what the last valuation of the chain says — the launch contents pushed through each stretch of host
  operations and through what each region leaves in its output array. The result buffers are then read off that
  valuation exactly as the argument buffers are.
-/
import proofs.«416973_j1090921693652_1_alg».proof.Proof.Gen.KernelIdeal.Regions

set_option maxRecDepth 1104

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run, given the regions' records. For any user algebra, level assignment, launch dues and ghost resources, any
    rest states `E` the launch makes on every core at once (`hE0`) and that end owing nothing (`hE3`), any contents
    the regions leave (`outs`) and any proof data: GIVEN, per region K, a segment record entered from the thread state
    before it and left at the one after it (`RK`, `hpreK`, `hpostK`), every weakly fair execution of @main from memory
    `m` with zero counters terminates, and in every final memory each buffer outside the kernels' scopes holds what the
    last valuation `V9 m outs c` holds there. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, .rfl, .rfl, hpre2 c, hpost2 c, sep_mono .rfl (hE3 c)⟩)
    (hinit := ?_) (QY := fun c s => ∀ b ∈ Pipeline.ucRefs τ sig, s.mem (((c : Thread nD τ)).1, b) = V9 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

end Cert.KernelIdeal.Hand

end
-- ==== Proof.KIRun.lean ====
import proofs.«416973_j1090921693652_1_alg».proof.Proof.KIRegion0
import proofs.«416973_j1090921693652_1_alg».proof.Proof.KIRegion1
import proofs.«416973_j1090921693652_1_alg».proof.Proof.KIRegion2
import proofs.«416973_j1090921693652_1_alg».proof.Proof.Gen.KernelIdeal.Regions
import proofs.«416973_j1090921693652_1_alg».proof.Proof.KIRunAll
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of the whole program from its three kernel calls' halves

Between two items of @main a core holds every buffer outside the kernels' scopes at a valuation: the launch memory,
pushed through each stretch of host operations, and changed by each kernel call at its one output array only
(`main_v17` by the first call, `main_v31` by the second, `main_v70` by the third). What a call leaves in its output
array is a function of what it is ENTERED with, and the second call's entry contents already hold the first call's
output. So the contents the calls leave are built in stages, each stage naming one more call's output from the entry
valuation the stages before it determine. -/

/-! ## What the calls leave, stage by stage -/

/-- The first call's entry contents: the launch memory after the first stretch of host operations. -/
abbrev E1 : (c : Dev nD) → (b : Ref sig .tc) → Buf (Elt F) ((c : Thread nD τ).loc b) := fun c b => V1 m c b

/-- What the first call leaves in its output array `main_v17`: its ten write-backs folded over the entry contents. -/
def o2 (c : Dev nD) : Buf (Elt F) ((c : Thread nD τ).loc main_v17) := (dat0 (E1 m) c).arrAt 5 cfg0.N

/-- Stage 1: the first call's output named, every other read at the launch memory (no other is ever read before the
    later stages name it). -/
def outs1 : Outs (F := F) := fun _ r c => if h : r = main_v17 then h ▸ o2 m c else V0 m c r

/-- The second call's entry contents, determined by stage 1. -/
abbrev E3 : (c : Dev nD) → (b : Ref sig .tc) → Buf (Elt F) ((c : Thread nD τ).loc b) := fun c b => V3 m (outs1 m) c b

/-- What the second call leaves in its output array `main_v31`. -/
def o4 (c : Dev nD) : Buf (Elt F) ((c : Thread nD τ).loc main_v31) := (dat1 (E3 m) c).arrAt 5 cfg1.N

/-- Stage 2: the first two calls' outputs named. -/
def outs2 : Outs (F := F) := fun _ r c =>
  if h : r = main_v17 then h ▸ o2 m c else if h : r = main_v31 then h ▸ o4 m c else V0 m c r

/-- The third call's entry contents, determined by stage 2. -/
abbrev E7 : (c : Dev nD) → (b : Ref sig .tc) → Buf (Elt F) ((c : Thread nD τ).loc b) := fun c b => V7 m (outs2 m) c b

/-- What the third call leaves in its output array `main_v70`: the edge scores. -/
def o8 (c : Dev nD) : Buf (Elt F) ((c : Thread nD τ).loc main_v70) := (dat2 (E7 m) c).arrAt 5 cfg2.N

/-- The last stage: all three calls' outputs named. The run's valuations are read at this one. -/
def outs : Outs (F := F) := fun _ r c =>
  if h : r = main_v17 then h ▸ o2 m c else if h : r = main_v31 then h ▸ o4 m c
  else if h : r = main_v70 then h ▸ o8 m c else V0 m c r

/-! ### Each stage at the three arrays -/

theorem outs1_17 (c : Dev nD) : outs1 m 2 main_v17 c = o2 m c := by unfold outs1; exact dif_pos rfl
theorem outs2_17 (c : Dev nD) : outs2 m 2 main_v17 c = o2 m c := by unfold outs2; exact dif_pos rfl
theorem outs2_31 (c : Dev nD) : outs2 m 4 main_v31 c = o4 m c := by
  unfold outs2; rw [dif_neg (by decide : (main_v31 : Ref sig .tc) ≠ main_v17)]; exact dif_pos rfl
theorem outs_17 (c : Dev nD) : outs m 2 main_v17 c = o2 m c := by unfold outs; exact dif_pos rfl
theorem outs_31 (c : Dev nD) : outs m 4 main_v31 c = o4 m c := by
  unfold outs; rw [dif_neg (by decide : (main_v31 : Ref sig .tc) ≠ main_v17)]; exact dif_pos rfl
theorem outs_70 (c : Dev nD) : outs m 8 main_v70 c = o8 m c := by
  unfold outs; rw [dif_neg (by decide : (main_v70 : Ref sig .tc) ≠ main_v17), dif_neg (by decide : (main_v70 : Ref sig .tc) ≠ main_v31)]
  exact dif_pos rfl

/-! ### The valuations read a stage at those arrays only -/

section Congr
variable {o o' : Outs (F := F)} (c : Dev nD)

/-- Two families of outputs that agree at the first call's array give the same valuation up to the second call, -/
theorem V2_congr (h17 : o 2 main_v17 c = o' 2 main_v17 c) : V2 m o c = V2 m o' c := by
  show Function.update (V1 m c) _ (o 2 main_v17 c) = Function.update (V1 m c) _ (o' 2 main_v17 c); rw [h17]
theorem V3_congr (h17 : o 2 main_v17 c = o' 2 main_v17 c) : V3 m o c = V3 m o' c :=
  congrArg (StableHlo.after hostOps1) (V2_congr m c h17)
/-- that agree at the second's too, up to the third call, -/
theorem V4_congr (h17 : o 2 main_v17 c = o' 2 main_v17 c) (h31 : o 4 main_v31 c = o' 4 main_v31 c) : V4 m o c = V4 m o' c := by
  show Function.update (V3 m o c) _ (o 4 main_v31 c) = Function.update (V3 m o' c) _ (o' 4 main_v31 c)
  rw [h31, V3_congr m c h17]
theorem V5_congr (h17 : o 2 main_v17 c = o' 2 main_v17 c) (h31 : o 4 main_v31 c = o' 4 main_v31 c) : V5 m o c = V5 m o' c :=
  congrArg (StableHlo.after hostOps2) (V4_congr m c h17 h31)
theorem V6_congr (h17 : o 2 main_v17 c = o' 2 main_v17 c) (h31 : o 4 main_v31 c = o' 4 main_v31 c) : V6 m o c = V6 m o' c :=
  congrArg (StableHlo.after hostOps2_1) (V5_congr m c h17 h31)
theorem V7_congr (h17 : o 2 main_v17 c = o' 2 main_v17 c) (h31 : o 4 main_v31 c = o' 4 main_v31 c) : V7 m o c = V7 m o' c :=
  congrArg (StableHlo.after hostOps2_2) (V6_congr m c h17 h31)

end Congr

/-- The valuations of the run, read at the last stage, are the stage's that fixed them. -/
theorem V2_outs (c : Dev nD) : V2 m (outs m) c = V2 m (outs1 m) c := V2_congr m c ((outs_17 m c).trans (outs1_17 m c).symm)
theorem V3_outs (c : Dev nD) : V3 m (outs m) c = V3 m (outs1 m) c := V3_congr m c ((outs_17 m c).trans (outs1_17 m c).symm)
theorem V3_outs2 (c : Dev nD) : V3 m (outs2 m) c = V3 m (outs1 m) c := V3_congr m c ((outs2_17 m c).trans (outs1_17 m c).symm)
theorem V4_outs (c : Dev nD) : V4 m (outs m) c = V4 m (outs2 m) c :=
  V4_congr m c ((outs_17 m c).trans (outs2_17 m c).symm) ((outs_31 m c).trans (outs2_31 m c).symm)
theorem V7_outs (c : Dev nD) : V7 m (outs m) c = V7 m (outs2 m) c :=
  V7_congr m c ((outs_17 m c).trans (outs2_17 m c).symm) ((outs_31 m c).trans (outs2_31 m c).symm)

/-! ## Each call's exit contents against its entry contents -/

/-- The calls' exit contents, read at the TensorCore's references: the first call's by stage 1, the second's by stage 2,
    the third's by the last stage. -/
abbrev X2 : (c : Dev nD) → (b : Ref sig .tc) → Buf (Elt F) ((c : Thread nD τ).loc b) := fun c b => V2 m (outs1 m) c b
abbrev X4 : (c : Dev nD) → (b : Ref sig .tc) → Buf (Elt F) ((c : Thread nD τ).loc b) := fun c b => V4 m (outs2 m) c b
abbrev X8 : (c : Dev nD) → (b : Ref sig .tc) → Buf (Elt F) ((c : Thread nD τ).loc b) := fun c b => V8 m (outs m) c b

/-- A reference that is no array of a call's windows is in particular not its output array. -/
theorem not_out_of_not_arr0 {b : Ref sig .tc} (hb : b ∉ Finset.univ.image (Pipeline.arrRef spec0)) : b ∉ ([main_v17] : List (Ref sig .tc)) :=
  fun h => hb (Finset.mem_image.mpr ⟨5, Finset.mem_univ _, (List.mem_singleton.mp h).symm⟩)
theorem not_out_of_not_arr1 {b : Ref sig .tc} (hb : b ∉ Finset.univ.image (Pipeline.arrRef spec1)) : b ∉ ([main_v31] : List (Ref sig .tc)) :=
  fun h => hb (Finset.mem_image.mpr ⟨5, Finset.mem_univ _, (List.mem_singleton.mp h).symm⟩)
theorem not_out_of_not_arr2 {b : Ref sig .tc} (hb : b ∉ Finset.univ.image (Pipeline.arrRef spec2)) : b ∉ ([main_v70] : List (Ref sig .tc)) :=
  fun h => hb (Finset.mem_image.mpr ⟨5, Finset.mem_univ _, (List.mem_singleton.mp h).symm⟩)

/-- At the first call's exit each of its arrays holds what the pipeline leaves there: an input's, what it held at entry
    (no write-back touches it, and the exit valuation differs from the entry one at `main_v17` only); the output's, its
    write-backs folded, which is what stage 1 names there. -/
theorem hF0 (c : Dev nD) : ∀ w : Fin cfg0.W, (dat0 (E1 m) c).arrAt w cfg0.N = X2 m c (Pipeline.arrRef spec0 w)
  | 0 => ((dat0 (E1 m) c).arrAt_in 0 rfl _).trans ((A_eq0 (E1 m) c 0).trans (V2_of m (outs1 m) c _ (by decide)).symm)
  | 1 => ((dat0 (E1 m) c).arrAt_in 1 rfl _).trans ((A_eq0 (E1 m) c 1).trans (V2_of m (outs1 m) c _ (by decide)).symm)
  | 2 => ((dat0 (E1 m) c).arrAt_in 2 rfl _).trans ((A_eq0 (E1 m) c 2).trans (V2_of m (outs1 m) c _ (by decide)).symm)
  | 3 => ((dat0 (E1 m) c).arrAt_in 3 rfl _).trans ((A_eq0 (E1 m) c 3).trans (V2_of m (outs1 m) c _ (by decide)).symm)
  | 4 => ((dat0 (E1 m) c).arrAt_in 4 rfl _).trans ((A_eq0 (E1 m) c 4).trans (V2_of m (outs1 m) c _ (by decide)).symm)
  | 5 => ((Function.update_self (Proc.devRef .tc main_v17 : DevRef τ sig) (outs1 m 2 main_v17 c) (V1 m c)).trans (outs1_17 m c)).symm
  | ⟨_ + 6, h⟩ => absurd h (Nat.not_lt.2 (Nat.le_add_left 6 _))
/-- Every other buffer is as the call found it. -/
theorem hrest0 (c : Dev nD) : ∀ b, b ∉ Finset.univ.image (Pipeline.arrRef spec0) → X2 m c b = E1 m c b :=
  fun b hb => V2_of m (outs1 m) c b (not_out_of_not_arr0 hb)

/-- The same at the second call's exit: the exit valuation (stage 2) differs from the entry one (stage 1) at `main_v31`
    only — the two stages agree on everything before the second call. -/
theorem hF1 (c : Dev nD) : ∀ w : Fin cfg1.W, (dat1 (E3 m) c).arrAt w cfg1.N = X4 m c (Pipeline.arrRef spec1 w)
  | 0 => ((dat1 (E3 m) c).arrAt_in 0 rfl _).trans ((A_eq1 (E3 m) c 0).trans ((V4_of m (outs2 m) c _ (by decide)).trans (congrFun (V3_outs2 m c) _)).symm)
  | 1 => ((dat1 (E3 m) c).arrAt_in 1 rfl _).trans ((A_eq1 (E3 m) c 1).trans ((V4_of m (outs2 m) c _ (by decide)).trans (congrFun (V3_outs2 m c) _)).symm)
  | 2 => ((dat1 (E3 m) c).arrAt_in 2 rfl _).trans ((A_eq1 (E3 m) c 2).trans ((V4_of m (outs2 m) c _ (by decide)).trans (congrFun (V3_outs2 m c) _)).symm)
  | 3 => ((dat1 (E3 m) c).arrAt_in 3 rfl _).trans ((A_eq1 (E3 m) c 3).trans ((V4_of m (outs2 m) c _ (by decide)).trans (congrFun (V3_outs2 m c) _)).symm)
  | 4 => ((dat1 (E3 m) c).arrAt_in 4 rfl _).trans ((A_eq1 (E3 m) c 4).trans ((V4_of m (outs2 m) c _ (by decide)).trans (congrFun (V3_outs2 m c) _)).symm)
  | 5 => ((Function.update_self (Proc.devRef .tc main_v31 : DevRef τ sig) (outs2 m 4 main_v31 c) (V3 m (outs2 m) c)).trans (outs2_31 m c)).symm
  | ⟨_ + 6, h⟩ => absurd h (Nat.not_lt.2 (Nat.le_add_left 6 _))
theorem hrest1 (c : Dev nD) : ∀ b, b ∉ Finset.univ.image (Pipeline.arrRef spec1) → X4 m c b = E3 m c b :=
  fun b hb => (V4_of m (outs2 m) c b (not_out_of_not_arr1 hb)).trans (congrFun (V3_outs2 m c) _)

/-- The same at the third call's exit: the last stage differs from stage 2 at `main_v70` only. -/
theorem hF2 (c : Dev nD) : ∀ w : Fin cfg2.W, (dat2 (E7 m) c).arrAt w cfg2.N = X8 m c (Pipeline.arrRef spec2 w)
  | 0 => ((dat2 (E7 m) c).arrAt_in 0 rfl _).trans ((A_eq2 (E7 m) c 0).trans ((V8_of m (outs m) c _ (by decide)).trans (congrFun (V7_outs m c) _)).symm)
  | 1 => ((dat2 (E7 m) c).arrAt_in 1 rfl _).trans ((A_eq2 (E7 m) c 1).trans ((V8_of m (outs m) c _ (by decide)).trans (congrFun (V7_outs m c) _)).symm)
  | 2 => ((dat2 (E7 m) c).arrAt_in 2 rfl _).trans ((A_eq2 (E7 m) c 2).trans ((V8_of m (outs m) c _ (by decide)).trans (congrFun (V7_outs m c) _)).symm)
  | 3 => ((dat2 (E7 m) c).arrAt_in 3 rfl _).trans ((A_eq2 (E7 m) c 3).trans ((V8_of m (outs m) c _ (by decide)).trans (congrFun (V7_outs m c) _)).symm)
  | 4 => ((dat2 (E7 m) c).arrAt_in 4 rfl _).trans ((A_eq2 (E7 m) c 4).trans ((V8_of m (outs m) c _ (by decide)).trans (congrFun (V7_outs m c) _)).symm)
  | 5 => ((Function.update_self (Proc.devRef .tc main_v70 : DevRef τ sig) (outs m 8 main_v70 c) (V7 m (outs m) c)).trans (outs_70 m c)).symm
  | ⟨_ + 6, h⟩ => absurd h (Nat.not_lt.2 (Nat.le_add_left 6 _))
theorem hrest2 (c : Dev nD) : ∀ b, b ∉ Finset.univ.image (Pipeline.arrRef spec2) → X8 m c b = E7 m c b :=
  fun b hb => (V8_of m (outs m) c b (not_out_of_not_arr2 hb)).trans (congrFun (V7_outs m c) _)

/-! ## The proof data family and what rides beside the buffers -/

/-- Every pipeline's proof data, each at its call's entry contents (a literal match, so that at a numeral it reduces to
    the call's own data). -/
def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E7 m) c

abbrev noVariant : Variants := Variants.none
/-- No core waits on another: no level is assigned. -/
abbrev noLevel : GSem nD τ sig → Finset Unit := fun _ => ∅
abbrev levelOf : GSem nD τ sig → Unit → ℕ := fun _ _ => 0
/-- What a core holds beside its buffers between any two items: its generator register at some state (each call's
    invariant takes it in and gives it back) and its debts, none. -/
abbrev rideAlong (c : Dev nD) : sProp 𝕄 := iprop((∃ r, prngReg c r) ∗ ∃ W, owes (c : Thread nD τ) (0 : CellTallies nD τ sig Unit) W)

/-- A core that owes nothing owes what a pipeline point asks, when the proof data owe nothing there and put no bound on
    the recorded waits; -/
theorem debts_in {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, Hdebt⟩
  iexists W
  isplitr; · ipureintro; exact fun _ _ => Or.inl trivial
  iexact Hdebt
/-- and what a point that owes nothing holds is a core owing nothing. -/
theorem debts_out {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, Hdebt⟩
  iexists W; iexact Hdebt

/-- No call of this program has a prefetched table: holding the tables is holding nothing. -/
theorem noTable {p : Fin 3} (c : Dev nD) :
    (Pipeline.prefHeld (Ix := Unit) (Name := ℕ) (U := UR sig nD τ) (Lvl := ℕ) (pcfgs (F := F) p).pre c (fun _ => fullShare) (adm p).1 : sProp 𝕄) = BI.emp := by
  unfold Pipeline.prefHeld; rw [show (Finset.univ : Finset (Fin 0)) = ∅ from rfl, BI.bigSep_empty]

/-! ## The calls as segments -/

set_option backward.isDefEq.respectTransparency.types false in
/-- THE FIRST CALL over the thread state: entered from every buffer outside the scopes at the valuation after the first host
    stretch, left at stage 1's next valuation. Its six arrays are split out of those buffers at entry and put back at exit
    at the contents `hF0` / `hrest0` identify; the generator register goes into the call's invariant and comes back; nothing
    is owed; the kernel has no semaphore of its own and no table. -/
def reg0 : Pipeline.RegionSeg (pcfgs (F := F)) adm (pdats m) () defs₀ noVariant noLevel levelOf 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noLevel levelOf 0 fun _ _ => rfl
  pre c := iprop(StableHlo.held (c : Thread nD τ) (Pipeline.ucRefs τ sig) (V1 m c) ∗ rideAlong c)
  post c := iprop(StableHlo.held (c : Thread nD τ) (Pipeline.ucRefs τ sig) (V2 m (outs1 m) c) ∗ rideAlong c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    -- the buffers outside the scopes, at the entry contents, are the six arrays and the rest
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    rw [Pipeline.ownSems0_none]
    iintro ⟨⟨Hbufs, Hgen, Hdebt⟩, -, -⟩
    imodintro
    ihave Hsp := hsplit $$ Hbufs
    icases Hsp with ⟨Harr, Hrest⟩
    isplitl [Harr]; · iexact Harr
    isplitr; · rw [noTable]; iempintro
    isplitl [Hdebt]; · iapply (debts_in (pdats m 0 c) 0 rfl rfl); iexact Hdebt
    isplitl [Hgen]; · iexact Hgen
    iexact Hrest
  hin c := by
    rw [show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    -- the six arrays at what the pipeline leaves and the rest as found are the buffers at the exit contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Harr, Hdebt, Hgen, Hrest⟩
    imodintro
    isplitl [Harr Hrest]
    · iapply hjoin; isplitl [Harr]; · iexact Harr
      iexact Hrest
    isplitl [Hgen]; · iexact Hgen
    iapply (debts_out (pdats m 0 c) _ rfl); iexact Hdebt

set_option backward.isDefEq.respectTransparency.types false in
/-- THE SECOND CALL: entered at stage 1's valuation after the second host stretch, left at stage 2's next valuation. -/
def reg1 : Pipeline.RegionSeg (pcfgs (F := F)) adm (pdats m) () defs₀ noVariant noLevel levelOf 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noLevel levelOf 1 fun _ _ => rfl
  pre c := iprop(StableHlo.held (c : Thread nD τ) (Pipeline.ucRefs τ sig) (V3 m (outs1 m) c) ∗ rideAlong c)
  post c := iprop(StableHlo.held (c : Thread nD τ) (Pipeline.ucRefs τ sig) (V4 m (outs2 m) c) ∗ rideAlong c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    -- the buffers outside the scopes, at the entry contents, are the six arrays and the rest
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    rw [Pipeline.ownSems0_none]
    iintro ⟨⟨Hbufs, Hgen, Hdebt⟩, -, -⟩
    imodintro
    ihave Hsp := hsplit $$ Hbufs
    icases Hsp with ⟨Harr, Hrest⟩
    isplitl [Harr]; · iexact Harr
    isplitr; · rw [noTable]; iempintro
    isplitl [Hdebt]; · iapply (debts_in (pdats m 1 c) 0 rfl rfl); iexact Hdebt
    isplitl [Hgen]; · iexact Hgen
    iexact Hrest
  hin c := by
    rw [show (pdats m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    -- the six arrays at what the pipeline leaves and the rest as found are the buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Harr, Hdebt, Hgen, Hrest⟩
    imodintro
    isplitl [Harr Hrest]
    · iapply hjoin; isplitl [Harr]; · iexact Harr
      iexact Hrest
    isplitl [Hgen]; · iexact Hgen
    iapply (debts_out (pdats m 1 c) _ rfl); iexact Hdebt

set_option backward.isDefEq.respectTransparency.types false in
/-- THE THIRD CALL: entered at stage 2's valuation after the three host stretches that follow the second call, left at the
    last stage's next valuation. -/
def reg2 : Pipeline.RegionSeg (pcfgs (F := F)) adm (pdats m) () defs₀ noVariant noLevel levelOf 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ noLevel levelOf 2 fun _ _ => rfl
  pre c := iprop(StableHlo.held (c : Thread nD τ) (Pipeline.ucRefs τ sig) (V7 m (outs2 m) c) ∗ rideAlong c)
  post c := iprop(StableHlo.held (c : Thread nD τ) (Pipeline.ucRefs τ sig) (V8 m (outs m) c) ∗ rideAlong c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    -- the buffers outside the scopes, at the entry contents, are the six arrays and the rest
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    rw [Pipeline.ownSems0_none]
    iintro ⟨⟨Hbufs, Hgen, Hdebt⟩, -, -⟩
    imodintro
    ihave Hsp := hsplit $$ Hbufs
    icases Hsp with ⟨Harr, Hrest⟩
    isplitl [Harr]; · iexact Harr
    isplitr; · rw [noTable]; iempintro
    isplitl [Hdebt]; · iapply (debts_in (pdats m 2 c) 0 rfl rfl); iexact Hdebt
    isplitl [Hgen]; · iexact Hgen
    iexact Hrest
  hin c := by
    rw [show (pdats m 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (pdats m 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    -- the six arrays at what the pipeline leaves and the rest as found are the buffers at the exit contents
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (X8 m c) ((pdats m 2 c).arrAt · cfg2.N) (hF2 m c) (hrest2 m c)
    rw [Pipeline.unscopedBufs_held] at hjoin
    iintro ⟨Harr, Hdebt, Hgen, Hrest⟩
    imodintro
    isplitl [Harr Hrest]
    · iapply hjoin; isplitl [Harr]; · iexact Harr
      iexact Hrest
    isplitl [Hgen]; · iexact Hgen
    iapply (debts_out (pdats m 2 c) _ rfl); iexact Hdebt

/-! ## The launch, and the run -/

/-- The launch's element of the user algebra: the pipelines' cells at their initial state with the launch's tokens. -/
abbrev launchElt : UR sig nD τ := initOf (Pipeline.cells cfgs cellOf_inj) (Pipeline.launchToks cfgs cellOf_inj)

/-- Owning it is owning it through the embedding, beside no ghost resource on any core. -/
theorem launch_own : (ownU (launchElt) : sProp 𝕄) ⊢ |={Set.univ}=> iprop(BI.own (emb₁ (launchElt)) ∗ bigSep Finset.univ fun _ : Dev nD => (iprop(emp) : sProp 𝕄)) := by
  iintro Hu
  imodintro
  isplitl [Hu]
  · iapply (show (ownU (launchElt) : sProp 𝕄) ⊢ BI.own (emb₁ (launchElt)) from .rfl); iexact Hu
  iapply (show (BI.emp : sProp 𝕄) ⊢ bigSep Finset.univ (fun _ : Dev nD => (BI.emp : sProp 𝕄)) from by rw [BI.bigSep_emp_const])
  iempintro

/-- What the launch deals every core beside its buffers — its semaphores at zero, its debts (none), its generator
    register — makes what rides along: the register at some state and no debt. Core by core. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts noLevel levelOf)
      ⊢ (|={Set.univ}=> bigSep Finset.univ (fun c : Dev nD => rideAlong c) : sProp 𝕄) := by
  refine Pipeline.initEach noLevel levelOf fun c => ?_
  iintro ⟨⟨-, Hdebt, -, Hgen, -⟩, -⟩
  imodintro
  isplitl [Hgen]; · iexists _; iexact Hgen
  iexists ∅; iexact Hdebt

/-- What rides along ends owing nothing. -/
theorem rest_debts (c : Dev nD) : rideAlong c ⊢ (iprop(∃ W, owes (c : Thread nD τ) (0 : CellTallies nD τ sig Unit) W) : sProp 𝕄) := by
  iintro ⟨-, Hdebt⟩; iexact Hdebt

/-- Each call's record is entered from the run's thread state before it and leaves the one after it: the run's
    valuations, read at the last stage, are the stage's the record is stated at. -/
theorem leave0 (c : Dev nD) : (reg0 m).post c ⊢ iprop(StableHlo.held (c : Thread nD τ) (Pipeline.ucRefs τ sig) (V2 m (outs m) c) ∗ rideAlong c) := by
  rw [V2_outs]; exact .rfl
theorem enter1 (c : Dev nD) : iprop(StableHlo.held (c : Thread nD τ) (Pipeline.ucRefs τ sig) (V3 m (outs m) c) ∗ rideAlong c) ⊢ (reg1 m).pre c := by
  rw [V3_outs]; exact .rfl
theorem leave1 (c : Dev nD) : (reg1 m).post c ⊢ iprop(StableHlo.held (c : Thread nD τ) (Pipeline.ucRefs τ sig) (V4 m (outs m) c) ∗ rideAlong c) := by
  rw [V4_outs]; exact .rfl
theorem enter2 (c : Dev nD) : iprop(StableHlo.held (c : Thread nD τ) (Pipeline.ucRefs τ sig) (V7 m (outs m) c) ∗ rideAlong c) ⊢ (reg2 m).pre c := by
  rw [V7_outs]; exact .rfl

set_option backward.isDefEq.respectTransparency.types false in
/-- THE FRAME, at any float instance: from any memory with zero counters every weakly fair execution of @main on the
    TensorCores terminates, nothing faulting, and every final memory holds each of the thirteen argument arrays as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () noVariant noLevel levelOf (fun _ _ => rfl) ρ (outs m) (pdats m) 0 (fun _ => iprop(emp)) launchElt launch_own
    (fun _ c => rideAlong c) (launch_rest ρ) rest_debts
    (reg0 m) (fun _ => .rfl) (leave0 m) (reg1 m) (enter1 m) (leave1 m) (reg2 m) (enter2 m) (fun _ => .rfl)

set_option backward.isDefEq.respectTransparency.types false in
/-- THE RUN, whole: the same executions end with EVERY buffer outside the kernels' scopes at the last valuation of the
    chain, read at the last stage — the launch memory through every host stretch and every call's output. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) :=
  run_cond m emb₁ () noVariant noLevel levelOf (fun _ _ => rfl) ρ (outs m) (pdats m) 0 (fun _ => iprop(emp)) launchElt launch_own
    (fun _ c => rideAlong c) (launch_rest ρ) rest_debts
    (reg0 m) (fun _ => .rfl) (leave0 m) (reg1 m) (enter1 m) (leave1 m) (reg2 m) (enter2 m) (fun _ => .rfl)

end Cert.KernelIdeal.Hand

end
-- ==== Proof.RefRun.lean ====
/-
  The reference's operation list and its stages read one operation at a time, brought into one place for the value modules.
-/
import proofs.«416973_j1090921693652_1_alg».proof.Proof.RefOps
import proofs.«416973_j1090921693652_1_alg».proof.Proof.RefStages
-- ==== Proof.RefRunHand.lean ====
/-
  The reference program's run, read back against its stages.

  The reference is one list of 116 host operations. After the list has run from contents `V`, a buffer no operation
  writes (each of the thirteen arguments) holds what it held, and a buffer an operation writes holds that operation's
  function of what its operands hold at that point, which unwinds operation by operation down to the arguments. Read
  that way, the score vector is the stage `val_main_v93` of the arguments, the augmented edge list the stage
  `val_main_v57`, and the two counts are their constants. Each reading is stated against the stage, whose
  definitions unfold one operation at a time into the same term, and never against one pre-composed term.
-/
import proofs.«416973_j1090921693652_1_alg».proof.Proof.RefRun
import Idealize.ShloMosaic.Lib.StableHlo.Run
import Idealize.ShloMosaic.Lib.Pipeline.Frame

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- One pass over the operation list at one buffer: an operation's result at its own buffer is its function of its
    operands' contents, at any other buffer what was there before it; the `k`-th of a literal family of operand
    references (the pieces of a concatenation) is picked out, so that the pass goes on into what that piece holds. -/
macro "ref_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Matrix.cons_val]))

/-- No operation of the reference allocates a buffer. -/
theorem ops_fresh : (ops : List (HloOp τ sig (Elt F))).Forall fun op => op.fresh = ∅ := by
  simp only [List.Forall]; repeat' constructor

/-! ## No operation writes an argument -/

set_option maxHeartbeats 4000000 in
theorem kept_arg0 (V : Valuation τ sig (Elt F)) : after (ops (F := F)) V (Proc.devRef .tc main_arg0) = V (Proc.devRef .tc main_arg0) := by
  ref_results
set_option maxHeartbeats 4000000 in
theorem kept_arg1 (V : Valuation τ sig (Elt F)) : after (ops (F := F)) V (Proc.devRef .tc main_arg1) = V (Proc.devRef .tc main_arg1) := by
  ref_results
set_option maxHeartbeats 4000000 in
theorem kept_arg2 (V : Valuation τ sig (Elt F)) : after (ops (F := F)) V (Proc.devRef .tc main_arg2) = V (Proc.devRef .tc main_arg2) := by
  ref_results
set_option maxHeartbeats 4000000 in
theorem kept_arg3 (V : Valuation τ sig (Elt F)) : after (ops (F := F)) V (Proc.devRef .tc main_arg3) = V (Proc.devRef .tc main_arg3) := by
  ref_results
set_option maxHeartbeats 4000000 in
theorem kept_arg4 (V : Valuation τ sig (Elt F)) : after (ops (F := F)) V (Proc.devRef .tc main_arg4) = V (Proc.devRef .tc main_arg4) := by
  ref_results
set_option maxHeartbeats 4000000 in
theorem kept_arg5 (V : Valuation τ sig (Elt F)) : after (ops (F := F)) V (Proc.devRef .tc main_arg5) = V (Proc.devRef .tc main_arg5) := by
  ref_results
set_option maxHeartbeats 4000000 in
theorem kept_arg6 (V : Valuation τ sig (Elt F)) : after (ops (F := F)) V (Proc.devRef .tc main_arg6) = V (Proc.devRef .tc main_arg6) := by
  ref_results
set_option maxHeartbeats 4000000 in
theorem kept_arg7 (V : Valuation τ sig (Elt F)) : after (ops (F := F)) V (Proc.devRef .tc main_arg7) = V (Proc.devRef .tc main_arg7) := by
  ref_results
set_option maxHeartbeats 4000000 in
theorem kept_arg8 (V : Valuation τ sig (Elt F)) : after (ops (F := F)) V (Proc.devRef .tc main_arg8) = V (Proc.devRef .tc main_arg8) := by
  ref_results
set_option maxHeartbeats 4000000 in
theorem kept_arg9 (V : Valuation τ sig (Elt F)) : after (ops (F := F)) V (Proc.devRef .tc main_arg9) = V (Proc.devRef .tc main_arg9) := by
  ref_results
set_option maxHeartbeats 4000000 in
theorem kept_arg10 (V : Valuation τ sig (Elt F)) : after (ops (F := F)) V (Proc.devRef .tc main_arg10) = V (Proc.devRef .tc main_arg10) := by
  ref_results
set_option maxHeartbeats 4000000 in
theorem kept_arg11 (V : Valuation τ sig (Elt F)) : after (ops (F := F)) V (Proc.devRef .tc main_arg11) = V (Proc.devRef .tc main_arg11) := by
  ref_results
set_option maxHeartbeats 4000000 in
theorem kept_arg12 (V : Valuation τ sig (Elt F)) : after (ops (F := F)) V (Proc.devRef .tc main_arg12) = V (Proc.devRef .tc main_arg12) := by
  ref_results

/-! ## The results -/

set_option maxHeartbeats 4000000 in
/-- The first count is the constant 100000. -/
theorem at_c12 (V : Valuation τ sig (Elt F)) : after (ops (F := F)) V (Proc.devRef .tc main_c_12) = constantI S_ 32 100000#32 := by
  ref_results

set_option maxHeartbeats 4000000 in
/-- The second count is the constant 200000. -/
theorem at_c13 (V : Valuation τ sig (Elt F)) : after (ops (F := F)) V (Proc.devRef .tc main_c_13) = constantI S_ 32 200000#32 := by
  ref_results

set_option maxHeartbeats 40000000 in
set_option maxRecDepth 8192 in
/-- The augmented edge list is its stage of the edge-index argument. -/
theorem at_v57 (V : Valuation τ sig (Elt F)) :
    after (ops (F := F)) V (Proc.devRef .tc main_v57) = val_main_v57 (F := F) (V (Proc.devRef .tc main_arg1)) := by
  ref_results
  rfl

/-! ## The operation list cut before its two deep concatenations

Operation 77 stacks three copies of the second hidden table, and operation 100 joins the two fetched node rows and the
weights column into the edge embedding. What such an operation joins is read one piece at a time: the list is cut just
before it, the contents left by the part before the cut are named, the short part after the cut is read over those
named contents, and each named piece is then what the part before the cut leaves in its buffer. -/

/-- Operations 1 to 76: both graph-convolution layers, the augmented edge list and the weights column. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    unary main_arg2 main_v11 (broadcastInDim S1600000x4 ![0, 1] bcast_S1600000x1_S1600000x4_0_1 : (⟨S1600000x1, .f32⟩ : BufTy).Contents (Elt F) → (⟨S1600000x4, .f32⟩ : BufTy).Contents (Elt F)),
    binary main_v11 main_v10 main_v12 (mulf : (⟨S1600000x4, .f32⟩ : BufTy).Contents (Elt F) → (⟨S1600000x4, .f32⟩ : BufTy).Contents (Elt F) → (⟨S1600000x4, .f32⟩ : BufTy).Contents (Elt F)),
    nullary main_cst (constant S_ .f32 0x00000000#32),
    unary main_cst main_v13 (broadcastInDim S100000x4 ![] bcast_S_S100000x4 : (⟨S_, .f32⟩ : BufTy).Contents (Elt F) → (⟨S100000x4, .f32⟩ : BufTy).Contents (Elt F)),
    unary main_v3 main_v14 (broadcastInDim S1600000x1 ![0] bcast_S1600000_S1600000x1_0 : (⟨S1600000, .i32⟩ : BufTy).Contents (Elt F) → (⟨S1600000x1, .i32⟩ : BufTy).Contents (Elt F)),
    ternary main_v13 main_v14 main_v12 main_v15 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)),
    unary main_arg4 main_v16 ((transpose S4x64 [1, 0] · transposes_S64x4_S4x64_1_0) : (⟨S64x4, .f32⟩ : BufTy).Contents (Elt F) → (⟨S4x64, .f32⟩ : BufTy).Contents (Elt F)),
    binary main_v15 main_v16 main_v17 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)),
    unary main_arg5 main_v18 (broadcastInDim S1x64 ![1] bcast_S64_S1x64_1 : (⟨S64, .f32⟩ : BufTy).Contents (Elt F) → (⟨S1x64, .f32⟩ : BufTy).Contents (Elt F)),
    unary main_v18 main_v19 (broadcastInDim S100000x64 ![0, 1] bcast_S1x64_S100000x64_0_1 : (⟨S1x64, .f32⟩ : BufTy).Contents (Elt F) → (⟨S100000x64, .f32⟩ : BufTy).Contents (Elt F)),
    binary main_v17 main_v19 main_v20 (addf : (⟨S100000x64, .f32⟩ : BufTy).Contents (Elt F) → (⟨S100000x64, .f32⟩ : BufTy).Contents (Elt F) → (⟨S100000x64, .f32⟩ : BufTy).Contents (Elt F)),
    unary main_arg3 main_v21 ((transpose S4x64 [1, 0] · transposes_S64x4_S4x64_1_0) : (⟨S64x4, .f32⟩ : BufTy).Contents (Elt F) → (⟨S4x64, .f32⟩ : BufTy).Contents (Elt F)),
    binary main_arg0 main_v21 main_v22 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v23) (TRef.of (T := ⟨S100000x64, .f32⟩) main_call0_v0) (TRef.of (T := ⟨S100000x64, .f32⟩) main_v24) maximumf,
    nullary main_c_1 (constantI S_ 32 0#32),
    unary main_c_1 main_v25 (broadcastInDim S1600000 ![] bcast_S_S1600000 : (⟨S_, .i32⟩ : BufTy).Contents (Elt F) → (⟨S1600000, .i32⟩ : BufTy).Contents (Elt F)),
    binary main_v1 main_v25 main_v26 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v27 (broadcastInDim S1600000 ![] bcast_S_S1600000 : (⟨S_, .i32⟩ : BufTy).Contents (Elt F) → (⟨S1600000, .i32⟩ : BufTy).Contents (Elt F)),
    binary main_v1 main_v27 main_v28 (addi : (⟨S1600000, .i32⟩ : BufTy).Contents (Elt F) → (⟨S1600000, .i32⟩ : BufTy).Contents (Elt F) → (⟨S1600000, .i32⟩ : BufTy).Contents (Elt F)),
    ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v29 main_v30 (broadcastInDim S1600000x1 ![0] bcast_S1600000_S1600000x1_0 : (⟨S1600000, .i32⟩ : BufTy).Contents (Elt F) → (⟨S1600000x1, .i32⟩ : BufTy).Contents (Elt F)),
    binary main_v24 main_v30 main_v31 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg2 main_v32 (broadcastInDim S1600000x64 ![0, 1] bcast_S1600000x1_S1600000x64_0_1 : (⟨S1600000x1, .f32⟩ : BufTy).Contents (Elt F) → (⟨S1600000x64, .f32⟩ : BufTy).Contents (Elt F)),
    binary main_v32 main_v31 main_v33 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v34 (broadcastInDim S100000x64 ![] bcast_S_S100000x64 : (⟨S_, .f32⟩ : BufTy).Contents (Elt F) → (⟨S100000x64, .f32⟩ : BufTy).Contents (Elt F)),
    unary main_v3 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg7 main_v37 ((transpose S64x64 [1, 0] · transposes_S64x64_S64x64_1_0) : (⟨S64x64, .f32⟩ : BufTy).Contents (Elt F) → (⟨S64x64, .f32⟩ : BufTy).Contents (Elt F)),
    binary main_v36 main_v37 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v39 (broadcastInDim S1x64 ![1] bcast_S64_S1x64_1 : (⟨S64, .f32⟩ : BufTy).Contents (Elt F) → (⟨S1x64, .f32⟩ : BufTy).Contents (Elt F)),
    unary main_v39 main_v40 (broadcastInDim S100000x64 ![0, 1] bcast_S1x64_S100000x64_0_1 : (⟨S1x64, .f32⟩ : BufTy).Contents (Elt F) → (⟨S100000x64, .f32⟩ : BufTy).Contents (Elt F)),
    binary main_v38 main_v40 main_v41 (addf : (⟨S100000x64, .f32⟩ : BufTy).Contents (Elt F) → (⟨S100000x64, .f32⟩ : BufTy).Contents (Elt F) → (⟨S100000x64, .f32⟩ : BufTy).Contents (Elt F)),
    unary main_arg6 main_v42 ((transpose S64x64 [1, 0] · transposes_S64x64_S64x64_1_0) : (⟨S64x64, .f32⟩ : BufTy).Contents (Elt F) → (⟨S64x64, .f32⟩ : BufTy).Contents (Elt F)),
    binary main_v24 main_v42 main_v43 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v41 main_v43 main_v44 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v44) (TRef.of (T := ⟨S100000x64, .f32⟩) main_call1_v0) (TRef.of (T := ⟨S100000x64, .f32⟩) main_v45) maximumf,
    nullary main_v46 (iotaInDim S100000 32 0),
    nullary main_c_4 (constantI S_ 32 100000#32),
    unary main_c_4 main_v47 (broadcastInDim S100000 ![] bcast_S_S100000 : (⟨S_, .i32⟩ : BufTy).Contents (Elt F) → (⟨S100000, .i32⟩ : BufTy).Contents (Elt F)),
    binary main_v46 main_v47 main_v48 (addi : (⟨S100000, .i32⟩ : BufTy).Contents (Elt F) → (⟨S100000, .i32⟩ : BufTy).Contents (Elt F) → (⟨S100000, .i32⟩ : BufTy).Contents (Elt F)),
    unary main_v46 main_v49 (broadcastInDim S1x100000 ![1] bcast_S100000_S1x100000_1 : (⟨S100000, .i32⟩ : BufTy).Contents (Elt F) → (⟨S1x100000, .i32⟩ : BufTy).Contents (Elt F)),
    unary main_v48 main_v50 (broadcastInDim S1x100000 ![1] bcast_S100000_S1x100000_1 : (⟨S100000, .i32⟩ : BufTy).Contents (Elt F) → (⟨S1x100000, .i32⟩ : BufTy).Contents (Elt F)),
    binary main_v49 main_v50 main_v51 ((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)),
    nullary main_c_5 (constantI S_ 32 200000#32),
    unary main_c_5 main_v52 (broadcastInDim S100000 ![] bcast_S_S100000 : (⟨S_, .i32⟩ : BufTy).Contents (Elt F) → (⟨S100000, .i32⟩ : BufTy).Contents (Elt F)),
    binary main_v46 main_v52 main_v53 (addi : (⟨S100000, .i32⟩ : BufTy).Contents (Elt F) → (⟨S100000, .i32⟩ : BufTy).Contents (Elt F) → (⟨S100000, .i32⟩ : BufTy).Contents (Elt F)),
    unary main_v46 main_v54 (broadcastInDim S1x100000 ![1] bcast_S100000_S1x100000_1 : (⟨S100000, .i32⟩ : BufTy).Contents (Elt F) → (⟨S1x100000, .i32⟩ : BufTy).Contents (Elt F)),
    unary main_v53 main_v55 (broadcastInDim S1x100000 ![1] bcast_S100000_S1x100000_1 : (⟨S100000, .i32⟩ : BufTy).Contents (Elt F) → (⟨S1x100000, .i32⟩ : BufTy).Contents (Elt F)),
    binary main_v54 main_v55 main_v56 ((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)),
    nary ![main_arg1, main_v51, main_v56] main_v57 (fun u => concatenate S2x1800000 1 [⟨S2x1600000, u 0⟩, ⟨S2x100000, u 1⟩, ⟨S2x100000, u 2⟩] concatenates_S2x1600000_S2x100000_S2x100000_S2x1800000_d1),
    nullary main_cst_6 (constant S_ .f32 0x3F800000#32),
    unary main_cst_6 main_v58 (broadcastInDim S100000x1 ![] bcast_S_S100000x1 : (⟨S_, .f32⟩ : BufTy).Contents (Elt F) → (⟨S100000x1, .f32⟩ : BufTy).Contents (Elt F)),
    nullary main_cst_7 (constant S_ .f32 0x3F800000#32),
    unary main_cst_7 main_v59 (broadcastInDim S100000x1 ![] bcast_S_S100000x1 : (⟨S_, .f32⟩ : BufTy).Contents (Elt F) → (⟨S100000x1, .f32⟩ : BufTy).Contents (Elt F)),
    unary main_v59 main_v60 (Host.negf : (⟨S100000x1, .f32⟩ : BufTy).Contents (Elt F) → (⟨S100000x1, .f32⟩ : BufTy).Contents (Elt F)),
    nary ![main_arg2, main_v58, main_v60] main_v61 (fun u => concatenate S1800000x1 0 [⟨S1600000x1, u 0⟩, ⟨S100000x1, u 1⟩, ⟨S100000x1, u 2⟩] concatenates_S1600000x1_S100000x1_S100000x1_S1800000x1_d0) ]

/-- Operations 77 to 99: the three stacked copies of the hidden table and the two row fetches. -/
abbrev opsB : List (HloOp τ sig (Elt F)) :=
  [ nary ![main_v45, main_v45, main_v45] main_v62 (fun u => concatenate S300000x64 0 [⟨S100000x64, u 0⟩, ⟨S100000x64, u 1⟩, ⟨S100000x64, u 2⟩] concatenates_S100000x64_S100000x64_S100000x64_S300000x64_d0),
    unary main_v57 main_v63 ((extractStridedSlice S1x1800000 ![0, 0] · slices_S2x1800000_S1x1800000_0_0) : (⟨S2x1800000, .i32⟩ : BufTy).Contents (Elt F) → (⟨S1x1800000, .i32⟩ : BufTy).Contents (Elt F)),
    reshape main_v63 main_v64 rfl shapeCasts_S1x1800000_S1800000,
    nullary main_c_8 (constantI S_ 32 0#32),
    unary main_c_8 main_v65 (broadcastInDim S1800000 ![] bcast_S_S1800000 : (⟨S_, .i32⟩ : BufTy).Contents (Elt F) → (⟨S1800000, .i32⟩ : BufTy).Contents (Elt F)),
    binary main_v64 main_v65 main_v66 (cmpi .slt : (⟨S1800000, .i32⟩ : BufTy).Contents (Elt F) → (⟨S1800000, .i32⟩ : BufTy).Contents (Elt F) → (⟨S1800000, .i1⟩ : BufTy).Contents (Elt F)),
    nullary main_c_9 (constantI S_ 32 300000#32),
    unary main_c_9 main_v67 (broadcastInDim S1800000 ![] bcast_S_S1800000 : (⟨S_, .i32⟩ : BufTy).Contents (Elt F) → (⟨S1800000, .i32⟩ : BufTy).Contents (Elt F)),
    binary main_v64 main_v67 main_v68 (addi : (⟨S1800000, .i32⟩ : BufTy).Contents (Elt F) → (⟨S1800000, .i32⟩ : BufTy).Contents (Elt F) → (⟨S1800000, .i32⟩ : BufTy).Contents (Elt F)),
    ternary main_v66 main_v68 main_v64 main_v69 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v69 main_v70 (broadcastInDim S1800000x1 ![0] bcast_S1800000_S1800000x1_0 : (⟨S1800000, .i32⟩ : BufTy).Contents (Elt F) → (⟨S1800000x1, .i32⟩ : BufTy).Contents (Elt F)),
    binary main_v62 main_v70 main_v71 ((fun x i => Host.gather gather_S300000x64_S1800000x1_S1800000x64_1_0_n_n_0_1_164 x i) : (⟨S300000x64, .f32⟩ : BufTy).Contents (Elt F) → (⟨S1800000x1, .i32⟩ : BufTy).Contents (Elt F) → (⟨S1800000x64, .f32⟩ : BufTy).Contents (Elt F)),
    unary main_v57 main_v72 ((extractStridedSlice S1x1800000 ![1, 0] · slices_S2x1800000_S1x1800000_1_0) : (⟨S2x1800000, .i32⟩ : BufTy).Contents (Elt F) → (⟨S1x1800000, .i32⟩ : BufTy).Contents (Elt F)),
    reshape main_v72 main_v73 rfl shapeCasts_S1x1800000_S1800000,
    nullary main_c_10 (constantI S_ 32 0#32),
    unary main_c_10 main_v74 (broadcastInDim S1800000 ![] bcast_S_S1800000 : (⟨S_, .i32⟩ : BufTy).Contents (Elt F) → (⟨S1800000, .i32⟩ : BufTy).Contents (Elt F)),
    binary main_v73 main_v74 main_v75 (cmpi .slt : (⟨S1800000, .i32⟩ : BufTy).Contents (Elt F) → (⟨S1800000, .i32⟩ : BufTy).Contents (Elt F) → (⟨S1800000, .i1⟩ : BufTy).Contents (Elt F)),
    nullary main_c_11 (constantI S_ 32 300000#32),
    unary main_c_11 main_v76 (broadcastInDim S1800000 ![] bcast_S_S1800000 : (⟨S_, .i32⟩ : BufTy).Contents (Elt F) → (⟨S1800000, .i32⟩ : BufTy).Contents (Elt F)),
    binary main_v73 main_v76 main_v77 (addi : (⟨S1800000, .i32⟩ : BufTy).Contents (Elt F) → (⟨S1800000, .i32⟩ : BufTy).Contents (Elt F) → (⟨S1800000, .i32⟩ : BufTy).Contents (Elt F)),
    ternary main_v75 main_v77 main_v73 main_v78 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v78 main_v79 (broadcastInDim S1800000x1 ![0] bcast_S1800000_S1800000x1_0 : (⟨S1800000, .i32⟩ : BufTy).Contents (Elt F) → (⟨S1800000x1, .i32⟩ : BufTy).Contents (Elt F)),
    binary main_v62 main_v79 main_v80 ((fun x i => Host.gather gather_S300000x64_S1800000x1_S1800000x64_1_0_n_n_0_1_164 x i) : (⟨S300000x64, .f32⟩ : BufTy).Contents (Elt F) → (⟨S1800000x1, .i32⟩ : BufTy).Contents (Elt F) → (⟨S1800000x64, .f32⟩ : BufTy).Contents (Elt F)) ]

/-- Operation 100: the edge embedding joined from its three pieces. -/
abbrev opsC : List (HloOp τ sig (Elt F)) :=
  [ nary ![main_v71, main_v80, main_v61] main_v81 (fun u => concatenate S1800000x129 1 [⟨S1800000x64, u 0⟩, ⟨S1800000x64, u 1⟩, ⟨S1800000x1, u 2⟩] concatenates_S1800000x64_S1800000x64_S1800000x1_S1800000x129_d1) ]

/-- Operations 101 to 116: the edge network, the final reshape and the two counts. -/
abbrev opsD : List (HloOp τ sig (Elt F)) :=
  [ unary main_arg9 main_v82 ((transpose S129x64 [1, 0] · transposes_S64x129_S129x64_1_0) : (⟨S64x129, .f32⟩ : BufTy).Contents (Elt F) → (⟨S129x64, .f32⟩ : BufTy).Contents (Elt F)),
    binary main_v81 main_v82 main_v83 ((fun l r => Host.dotGeneral dot_S1800000x129_S129x64_S1800000x64_1_0_0_1_n_n none l r) : (⟨S1800000x129, .f32⟩ : BufTy).Contents (Elt F) → (⟨S129x64, .f32⟩ : BufTy).Contents (Elt F) → (⟨S1800000x64, .f32⟩ : BufTy).Contents (Elt F)),
    unary main_arg10 main_v84 (broadcastInDim S1x64 ![1] bcast_S64_S1x64_1 : (⟨S64, .f32⟩ : BufTy).Contents (Elt F) → (⟨S1x64, .f32⟩ : BufTy).Contents (Elt F)),
    unary main_v84 main_v85 (broadcastInDim S1800000x64 ![0, 1] bcast_S1x64_S1800000x64_0_1 : (⟨S1x64, .f32⟩ : BufTy).Contents (Elt F) → (⟨S1800000x64, .f32⟩ : BufTy).Contents (Elt F)),
    binary main_v83 main_v85 main_v86 (addf : (⟨S1800000x64, .f32⟩ : BufTy).Contents (Elt F) → (⟨S1800000x64, .f32⟩ : BufTy).Contents (Elt F) → (⟨S1800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1800000x64, .f32⟩) main_call2_v0) (broadcastInDim S1800000x64 ![] bcast_S_S1800000x64),
    TRef.binary (TRef.of (T := ⟨S1800000x64, .f32⟩) main_v86) (TRef.of (T := ⟨S1800000x64, .f32⟩) main_call2_v0) (TRef.of (T := ⟨S1800000x64, .f32⟩) main_v87) maximumf,
    unary main_arg11 main_v88 ((transpose S64x1 [1, 0] · transposes_S1x64_S64x1_1_0) : (⟨S1x64, .f32⟩ : BufTy).Contents (Elt F) → (⟨S64x1, .f32⟩ : BufTy).Contents (Elt F)),
    binary main_v87 main_v88 main_v89 ((fun l r => Host.dotGeneral dot_S1800000x64_S64x1_S1800000x1_1_0_0_1_n_n none l r) : (⟨S1800000x64, .f32⟩ : BufTy).Contents (Elt F) → (⟨S64x1, .f32⟩ : BufTy).Contents (Elt F) → (⟨S1800000x1, .f32⟩ : BufTy).Contents (Elt F)),
    unary main_arg12 main_v90 (broadcastInDim S1x1 ![1] bcast_S1_S1x1_1 : (⟨S1, .f32⟩ : BufTy).Contents (Elt F) → (⟨S1x1, .f32⟩ : BufTy).Contents (Elt F)),
    unary main_v90 main_v91 (broadcastInDim S1800000x1 ![0, 1] bcast_S1x1_S1800000x1_0_1 : (⟨S1x1, .f32⟩ : BufTy).Contents (Elt F) → (⟨S1800000x1, .f32⟩ : BufTy).Contents (Elt F)),
    binary main_v89 main_v91 main_v92 (addf : (⟨S1800000x1, .f32⟩ : BufTy).Contents (Elt F) → (⟨S1800000x1, .f32⟩ : BufTy).Contents (Elt F) → (⟨S1800000x1, .f32⟩ : BufTy).Contents (Elt F)),
    reshape main_v92 main_v93 rfl shapeCasts_S1800000x1_S1800000,
    nullary main_c_12 (constantI S_ 32 100000#32),
    nullary main_c_13 (constantI S_ 32 200000#32) ]

set_option maxRecDepth 8192 in
/-- The list is its four parts in order. -/
theorem ops_cut : (ops : List (HloOp τ sig (Elt F))) = ((opsA ++ opsB) ++ opsC) ++ opsD := rfl

/-! ### What operations 1 to 76 leave -/

set_option maxHeartbeats 40000000 in
set_option maxRecDepth 8192 in
/-- The second hidden table is its stage of the first nine arguments. -/
theorem a_v45 (V : Valuation τ sig (Elt F)) :
    after (opsA (F := F)) V (Proc.devRef .tc main_v45) = val_main_v45 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  ref_results
  rfl

set_option maxHeartbeats 40000000 in
set_option maxRecDepth 8192 in
/-- The augmented edge list is its stage of the edge-index argument. -/
theorem a_v57 (V : Valuation τ sig (Elt F)) :
    after (opsA (F := F)) V (Proc.devRef .tc main_v57) = val_main_v57 (F := F) (V (Proc.devRef .tc main_arg1)) := by
  ref_results
  rfl

set_option maxHeartbeats 40000000 in
set_option maxRecDepth 8192 in
/-- The weights column is its stage of the edge-weights argument. -/
theorem a_v61 (V : Valuation τ sig (Elt F)) :
    after (opsA (F := F)) V (Proc.devRef .tc main_v61) = val_main_v61 (F := F) (V (Proc.devRef .tc main_arg2)) := by
  ref_results
  rfl

set_option maxHeartbeats 4000000 in
theorem a_arg9 (V : Valuation τ sig (Elt F)) : after (opsA (F := F)) V (Proc.devRef .tc main_arg9) = V (Proc.devRef .tc main_arg9) := by
  ref_results
set_option maxHeartbeats 4000000 in
theorem a_arg10 (V : Valuation τ sig (Elt F)) : after (opsA (F := F)) V (Proc.devRef .tc main_arg10) = V (Proc.devRef .tc main_arg10) := by
  ref_results
set_option maxHeartbeats 4000000 in
theorem a_arg11 (V : Valuation τ sig (Elt F)) : after (opsA (F := F)) V (Proc.devRef .tc main_arg11) = V (Proc.devRef .tc main_arg11) := by
  ref_results
set_option maxHeartbeats 4000000 in
theorem a_arg12 (V : Valuation τ sig (Elt F)) : after (opsA (F := F)) V (Proc.devRef .tc main_arg12) = V (Proc.devRef .tc main_arg12) := by
  ref_results

/-! ### Through operations 77 to 99 -/

set_option maxHeartbeats 40000000 in
set_option maxRecDepth 8192 in
theorem ab_v71 (V : Valuation τ sig (Elt F)) :
    after (opsA ++ opsB : List (HloOp τ sig (Elt F))) V (Proc.devRef .tc main_v71) = val_main_v71 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [StableHlo.after_append]
  generalize hW : after (opsA : List (HloOp τ sig (Elt F))) V = W
  ref_results
  subst hW
  rw [a_v45 V, a_v57 V]
  rfl

set_option maxHeartbeats 40000000 in
set_option maxRecDepth 8192 in
theorem ab_v80 (V : Valuation τ sig (Elt F)) :
    after (opsA ++ opsB : List (HloOp τ sig (Elt F))) V (Proc.devRef .tc main_v80) = val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [StableHlo.after_append]
  generalize hW : after (opsA : List (HloOp τ sig (Elt F))) V = W
  ref_results
  subst hW
  rw [a_v45 V, a_v57 V]
  rfl

set_option maxHeartbeats 40000000 in
set_option maxRecDepth 8192 in
theorem ab_v61 (V : Valuation τ sig (Elt F)) :
    after (opsA ++ opsB : List (HloOp τ sig (Elt F))) V (Proc.devRef .tc main_v61) = val_main_v61 (F := F) (V (Proc.devRef .tc main_arg2)) := by
  rw [StableHlo.after_append]
  generalize hW : after (opsA : List (HloOp τ sig (Elt F))) V = W
  ref_results
  subst hW
  exact a_v61 V

set_option maxHeartbeats 40000000 in
set_option maxRecDepth 8192 in
theorem ab_arg9 (V : Valuation τ sig (Elt F)) :
    after (opsA ++ opsB : List (HloOp τ sig (Elt F))) V (Proc.devRef .tc main_arg9) = (V (Proc.devRef .tc main_arg9)) := by
  rw [StableHlo.after_append]
  generalize hW : after (opsA : List (HloOp τ sig (Elt F))) V = W
  ref_results
  subst hW
  exact a_arg9 V

set_option maxHeartbeats 40000000 in
set_option maxRecDepth 8192 in
theorem ab_arg10 (V : Valuation τ sig (Elt F)) :
    after (opsA ++ opsB : List (HloOp τ sig (Elt F))) V (Proc.devRef .tc main_arg10) = (V (Proc.devRef .tc main_arg10)) := by
  rw [StableHlo.after_append]
  generalize hW : after (opsA : List (HloOp τ sig (Elt F))) V = W
  ref_results
  subst hW
  exact a_arg10 V

set_option maxHeartbeats 40000000 in
set_option maxRecDepth 8192 in
theorem ab_arg11 (V : Valuation τ sig (Elt F)) :
    after (opsA ++ opsB : List (HloOp τ sig (Elt F))) V (Proc.devRef .tc main_arg11) = (V (Proc.devRef .tc main_arg11)) := by
  rw [StableHlo.after_append]
  generalize hW : after (opsA : List (HloOp τ sig (Elt F))) V = W
  ref_results
  subst hW
  exact a_arg11 V

set_option maxHeartbeats 40000000 in
set_option maxRecDepth 8192 in
theorem ab_arg12 (V : Valuation τ sig (Elt F)) :
    after (opsA ++ opsB : List (HloOp τ sig (Elt F))) V (Proc.devRef .tc main_arg12) = (V (Proc.devRef .tc main_arg12)) := by
  rw [StableHlo.after_append]
  generalize hW : after (opsA : List (HloOp τ sig (Elt F))) V = W
  ref_results
  subst hW
  exact a_arg12 V

/-! ### Through operation 100 -/

set_option maxHeartbeats 40000000 in
set_option maxRecDepth 8192 in
theorem abc_v81 (V : Valuation τ sig (Elt F)) :
    after ((opsA ++ opsB) ++ opsC : List (HloOp τ sig (Elt F))) V (Proc.devRef .tc main_v81) = val_main_v81 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [StableHlo.after_append]
  generalize hW : after ((opsA ++ opsB) : List (HloOp τ sig (Elt F))) V = W
  ref_results
  subst hW
  rw [ab_v71 V, ab_v80 V, ab_v61 V]
  rfl

set_option maxHeartbeats 40000000 in
set_option maxRecDepth 8192 in
theorem abc_arg9 (V : Valuation τ sig (Elt F)) :
    after ((opsA ++ opsB) ++ opsC : List (HloOp τ sig (Elt F))) V (Proc.devRef .tc main_arg9) = (V (Proc.devRef .tc main_arg9)) := by
  rw [StableHlo.after_append]
  generalize hW : after ((opsA ++ opsB) : List (HloOp τ sig (Elt F))) V = W
  ref_results
  subst hW
  exact ab_arg9 V

set_option maxHeartbeats 40000000 in
set_option maxRecDepth 8192 in
theorem abc_arg10 (V : Valuation τ sig (Elt F)) :
    after ((opsA ++ opsB) ++ opsC : List (HloOp τ sig (Elt F))) V (Proc.devRef .tc main_arg10) = (V (Proc.devRef .tc main_arg10)) := by
  rw [StableHlo.after_append]
  generalize hW : after ((opsA ++ opsB) : List (HloOp τ sig (Elt F))) V = W
  ref_results
  subst hW
  exact ab_arg10 V

set_option maxHeartbeats 40000000 in
set_option maxRecDepth 8192 in
theorem abc_arg11 (V : Valuation τ sig (Elt F)) :
    after ((opsA ++ opsB) ++ opsC : List (HloOp τ sig (Elt F))) V (Proc.devRef .tc main_arg11) = (V (Proc.devRef .tc main_arg11)) := by
  rw [StableHlo.after_append]
  generalize hW : after ((opsA ++ opsB) : List (HloOp τ sig (Elt F))) V = W
  ref_results
  subst hW
  exact ab_arg11 V

set_option maxHeartbeats 40000000 in
set_option maxRecDepth 8192 in
theorem abc_arg12 (V : Valuation τ sig (Elt F)) :
    after ((opsA ++ opsB) ++ opsC : List (HloOp τ sig (Elt F))) V (Proc.devRef .tc main_arg12) = (V (Proc.devRef .tc main_arg12)) := by
  rw [StableHlo.after_append]
  generalize hW : after ((opsA ++ opsB) : List (HloOp τ sig (Elt F))) V = W
  ref_results
  subst hW
  exact ab_arg12 V

/-! ### The whole list -/

set_option maxHeartbeats 40000000 in
set_option maxRecDepth 8192 in
/-- The score vector is its stage of the thirteen arguments. -/
theorem at_v93 (V : Valuation τ sig (Elt F)) :
    after (ops (F := F)) V (Proc.devRef .tc main_v93) = val_main_v93 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_cut, StableHlo.after_append]
  generalize hW : after (((opsA ++ opsB) ++ opsC) : List (HloOp τ sig (Elt F))) V = W
  ref_results
  subst hW
  rw [abc_v81 V, abc_arg9 V, abc_arg10 V, abc_arg11 V, abc_arg12 V]
  rfl

/-! ## The run -/

/-- From any memory with zero counters every weakly fair execution of the reference terminates, with the edge list
    and the score vector at their stages of the launch contents, the two counts at their constants, and every argument
    as launched. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = val_main_v57 (F := F) (m ((c.tc : Thread nD τ).loc main_arg1))
      ∧ r.2.mem ((c.tc : Thread nD τ).loc main_v93) = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_c_12) = constantI S_ 32 100000#32
      ∧ r.2.mem ((c.tc : Thread nD τ).loc main_c_13) = constantI S_ 32 200000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v57).trans (at_v57 _), (h c main_v93).trans (at_v93 _),
      (h c main_c_12).trans (at_c12 _), (h c main_c_13).trans (at_c13 _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _)⟩)
    (run_seq scopedRefs_eq scopedSems_eq defs main (fun _ => ops) main_eq (fun _ => ops_sub) m ρ
      (fun _ op hop => (List.forall_iff_forall_mem.mp ops_fresh) op hop))

end Cert.ReferenceIdeal.RefValue

end
-- ==== Proof.Spec.lean ====
/-
  What the network computes, as functions of whole arrays at the extended reals, entry by entry.

  A graph-convolution layer on 100000 nodes sends the aggregated messages `agg` and the node features `h` (D columns
  each), two 64 × D weight matrices and a bias row to the 100000 × 64 array whose entry (r, q) is
      max ( (Σ_k agg[r,k] · wrel[q,k]  +  Σ_k h[r,k] · wroot[q,k])  +  bias[0,q] ,  0 ).
  The edge network sends the 1800000 × 129 edge embedding, a 64 × 129 matrix, a bias row, a 1 × 64 matrix and a 1 × 1
  bias to the column whose entry e is
      Σ_q max ( Σ_k emb[e,k] · w1[q,k] + b1[0,q] , 0 ) · w2[0,q]   +   b2[0,0].
  Every sum is a finite sum in the extended reals, where addition is commutative and associative, so the order and
  grouping in which a program forms these sums does not matter.
-/
import Idealize.ShloMosaic.PureOps.Ideal
import Idealize.ShloMosaic.Lib.ValueIdx

noncomputable section

open scoped BigOperators

namespace Cert.Spec

open Idealize.ShloMosaic Idealize.ShloMosaic.ValueIdx

/-- The zero every rectifier compares against: the value of the 32-bit float zero word. -/
abbrev zero32 : EReal := Ideal.ofBits .f32 0x00000000#32

/-- Entry (r, q) of a graph-convolution layer whose inputs have 4 features. -/
def layer4At (agg h : (⟨2, ![100000, 4]⟩ : Shape).Idx → EReal) (wrel wroot : (⟨2, ![64, 4]⟩ : Shape).Idx → EReal)
    (bias : (⟨2, ![1, 64]⟩ : Shape).Idx → EReal) (r : Fin 100000) (q : Fin 64) : EReal :=
  max (((∑ k : Fin 4, agg (ix2 r k) * wrel (ix2 q k)) + ∑ k : Fin 4, h (ix2 r k) * wroot (ix2 q k)) + bias (ix2 (0 : Fin 1) q)) zero32

/-- A graph-convolution layer whose inputs have 4 features, as one array. -/
def layer4 (agg h : (⟨2, ![100000, 4]⟩ : Shape).Idx → EReal) (wrel wroot : (⟨2, ![64, 4]⟩ : Shape).Idx → EReal)
    (bias : (⟨2, ![1, 64]⟩ : Shape).Idx → EReal) : (⟨2, ![100000, 64]⟩ : Shape).Idx → EReal :=
  fun i => layer4At agg h wrel wroot bias (i 0) (i 1)

theorem layer4_apply (agg h : (⟨2, ![100000, 4]⟩ : Shape).Idx → EReal) (wrel wroot : (⟨2, ![64, 4]⟩ : Shape).Idx → EReal)
    (bias : (⟨2, ![1, 64]⟩ : Shape).Idx → EReal) (r : Fin 100000) (q : Fin 64) :
    layer4 agg h wrel wroot bias (ix2 r q) = layer4At agg h wrel wroot bias r q := rfl

/-- Entry (r, q) of a graph-convolution layer whose inputs have 64 features. -/
def layer64At (agg h : (⟨2, ![100000, 64]⟩ : Shape).Idx → EReal) (wrel wroot : (⟨2, ![64, 64]⟩ : Shape).Idx → EReal)
    (bias : (⟨2, ![1, 64]⟩ : Shape).Idx → EReal) (r : Fin 100000) (q : Fin 64) : EReal :=
  max (((∑ k : Fin 64, agg (ix2 r k) * wrel (ix2 q k)) + ∑ k : Fin 64, h (ix2 r k) * wroot (ix2 q k)) + bias (ix2 (0 : Fin 1) q)) zero32

/-- A graph-convolution layer whose inputs have 64 features, as one array. -/
def layer64 (agg h : (⟨2, ![100000, 64]⟩ : Shape).Idx → EReal) (wrel wroot : (⟨2, ![64, 64]⟩ : Shape).Idx → EReal)
    (bias : (⟨2, ![1, 64]⟩ : Shape).Idx → EReal) : (⟨2, ![100000, 64]⟩ : Shape).Idx → EReal :=
  fun i => layer64At agg h wrel wroot bias (i 0) (i 1)

theorem layer64_apply (agg h : (⟨2, ![100000, 64]⟩ : Shape).Idx → EReal) (wrel wroot : (⟨2, ![64, 64]⟩ : Shape).Idx → EReal)
    (bias : (⟨2, ![1, 64]⟩ : Shape).Idx → EReal) (r : Fin 100000) (q : Fin 64) :
    layer64 agg h wrel wroot bias (ix2 r q) = layer64At agg h wrel wroot bias r q := rfl

/-- The hidden unit q of the edge network at edge e, after the rectifier. -/
def hiddenAt (emb : (⟨2, ![1800000, 129]⟩ : Shape).Idx → EReal) (w1 : (⟨2, ![64, 129]⟩ : Shape).Idx → EReal)
    (b1 : (⟨2, ![1, 64]⟩ : Shape).Idx → EReal) (e : Fin 1800000) (q : Fin 64) : EReal :=
  max ((∑ k : Fin 129, emb (ix2 e k) * w1 (ix2 q k)) + b1 (ix2 (0 : Fin 1) q)) zero32

/-- Entry e of the edge network's output. -/
def edgeAt (emb : (⟨2, ![1800000, 129]⟩ : Shape).Idx → EReal) (w1 : (⟨2, ![64, 129]⟩ : Shape).Idx → EReal)
    (b1 : (⟨2, ![1, 64]⟩ : Shape).Idx → EReal) (w2 : (⟨2, ![1, 64]⟩ : Shape).Idx → EReal)
    (b2 : (⟨2, ![1, 1]⟩ : Shape).Idx → EReal) (e : Fin 1800000) : EReal :=
  (∑ q : Fin 64, hiddenAt emb w1 b1 e q * w2 (ix2 (0 : Fin 1) q)) + b2 (ix2 (0 : Fin 1) (0 : Fin 1))

/-- The edge network's output, as a one-column array. -/
def edgeNet (emb : (⟨2, ![1800000, 129]⟩ : Shape).Idx → EReal) (w1 : (⟨2, ![64, 129]⟩ : Shape).Idx → EReal)
    (b1 : (⟨2, ![1, 64]⟩ : Shape).Idx → EReal) (w2 : (⟨2, ![1, 64]⟩ : Shape).Idx → EReal)
    (b2 : (⟨2, ![1, 1]⟩ : Shape).Idx → EReal) : (⟨2, ![1800000, 1]⟩ : Shape).Idx → EReal :=
  fun i => edgeAt emb w1 b1 w2 b2 (i 0)

theorem edgeNet_apply (emb : (⟨2, ![1800000, 129]⟩ : Shape).Idx → EReal) (w1 : (⟨2, ![64, 129]⟩ : Shape).Idx → EReal)
    (b1 : (⟨2, ![1, 64]⟩ : Shape).Idx → EReal) (w2 : (⟨2, ![1, 64]⟩ : Shape).Idx → EReal)
    (b2 : (⟨2, ![1, 1]⟩ : Shape).Idx → EReal) (e : Fin 1800000) (z : Fin 1) :
    edgeNet emb w1 b1 w2 b2 (ix2 e z) = edgeAt emb w1 b1 w2 b2 e := rfl

end Cert.Spec

end
-- ==== Proof.KIPayload0.lean ====
/-
  What the body of the first dense layer's call computes from its five loaded blocks, entry by entry, at the
  extended reals.

  The body holds a 10000 x 4 block of aggregated messages `x0`, the same rows of the node features `x1`, two 64 x 4
  weight matrices `x2`, `x3` and a 1 x 64 bias row `x4`. It narrows the four matrices to sixteen-bit floats (the
  identity on extended reals), multiplies each row block by its weight matrix transposed, into a zero accumulator,
  adds the two products, adds the bias row to every row, and takes the maximum with zero. Entry (p, q) of the
  10000 x 64 result is therefore
      max ( (Σ_k x0[p,k] · x2[q,k]  +  Σ_k x1[p,k] · x3[q,k])  +  x4[0,q] ,  0 ).
-/
import proofs.«416973_j1090921693652_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The contraction's operand indices

The product contracts the left operand's axis 1 with the right operand's axis 0 and has no batch axis: at the
result's entry `i` and contraction index `k` it reads the left operand at `(i 0, k)` and the right at `(k, i 1)`. -/

/-- The left operand's row is the result's row. -/
theorem lhs_rowsTimesWeightT_0 (i : S10000x64.Idx) (k : dot_S10000x4_S4x64_S10000x64_1_0_0_1_n_n.contr.Idx) :
    (dot_S10000x4_S4x64_S10000x64_1_0_0_1_n_n.lhsIdx i k 0).val = (i 0).val := by
  unfold DotDims.lhsIdx
  rw [dif_neg (show ¬(0 : Fin S10000x4.rank) ∈ dot_S10000x4_S4x64_S10000x64_1_0_0_1_n_n.lhsBatch by decide),
    dif_pos (show (0 : Fin S10000x4.rank) ∈ dot_S10000x4_S4x64_S10000x64_1_0_0_1_n_n.lhsNonContracting by decide)]
  rfl
/-- The left operand's column is the contraction index. -/
theorem lhs_rowsTimesWeightT_1 (i : S10000x64.Idx) (k : dot_S10000x4_S4x64_S10000x64_1_0_0_1_n_n.contr.Idx) :
    (dot_S10000x4_S4x64_S10000x64_1_0_0_1_n_n.lhsIdx i k 1).val = (k ⟨0, by decide⟩).val :=
  dot_S10000x4_S4x64_S10000x64_1_0_0_1_n_n.lhsIdx_val_of_single rfl i k
/-- The right operand's row is the contraction index. -/
theorem rhs_rowsTimesWeightT_0 (i : S10000x64.Idx) (k : dot_S10000x4_S4x64_S10000x64_1_0_0_1_n_n.contr.Idx) :
    (dot_S10000x4_S4x64_S10000x64_1_0_0_1_n_n.rhsIdx i k 0).val = (k ⟨0, by decide⟩).val :=
  dot_S10000x4_S4x64_S10000x64_1_0_0_1_n_n.rhsIdx_val_of_single rfl i k
/-- The right operand's column is the result's column. -/
theorem rhs_rowsTimesWeightT_1 (i : S10000x64.Idx) (k : dot_S10000x4_S4x64_S10000x64_1_0_0_1_n_n.contr.Idx) :
    (dot_S10000x4_S4x64_S10000x64_1_0_0_1_n_n.rhsIdx i k 1).val = (i 1).val := by
  unfold DotDims.rhsIdx
  rw [dif_neg (show ¬(1 : Fin S4x64.rank) ∈ dot_S10000x4_S4x64_S10000x64_1_0_0_1_n_n.rhsBatch by decide),
    dif_pos (show (1 : Fin S4x64.rank) ∈ dot_S10000x4_S4x64_S10000x64_1_0_0_1_n_n.rhsNonContracting by decide)]
  rfl

/-! ## One product at an entry -/

/-- A 10000 x 4 row block `a` times the transpose of a 64 x 4 weight matrix `w`, accumulated into zero: entry (p, q)
    is the sum over the four features `k` of `a[p,k] · w[q,k]` (the transpose reads `w` at `(q, k)` where the product
    reads its right operand at `(k, q)`). -/
theorem rowsTimesWeightT_apply (a : FVec Ideal S10000x4 .bf16) (w : FVec Ideal S64x4 .bf16) (p : Fin 10000) (q : Fin 64) :
    matmul dot_S10000x4_S4x64_S10000x64_1_0_0_1_n_n none a (transpose S4x64 [1, 0] w transposes_S64x4_p1_0_S4x64)
        (constant (F := Ideal) S10000x64 .f32 0x00000000#32) (ix2 p q)
      = ∑ k : Fin 4, a (ix2 p k) * w (ix2 q k) := by
  simp only [matmul]
  rw [Ideal.matmul_constant_zero_apply, ← Equiv.sum_comp (contrEquiv1 dot_S10000x4_S4x64_S10000x64_1_0_0_1_n_n 4 rfl rfl).symm]
  refine Finset.sum_congr rfl fun k _ => ?_
  have hk := contrEquiv1_symm_val dot_S10000x4_S4x64_S10000x64_1_0_0_1_n_n 4 rfl rfl k
  have el : dot_S10000x4_S4x64_S10000x64_1_0_0_1_n_n.lhsIdx (ix2 p q) ((contrEquiv1 dot_S10000x4_S4x64_S10000x64_1_0_0_1_n_n 4 rfl rfl).symm k) = ix2 p k := funext fun a => Fin.ext (by
    match a with
    | ⟨0, _⟩ => exact lhs_rowsTimesWeightT_0 _ _
    | ⟨1, _⟩ => exact (lhs_rowsTimesWeightT_1 _ _).trans hk)
  have er : dot_S10000x4_S4x64_S10000x64_1_0_0_1_n_n.rhsIdx (ix2 p q) ((contrEquiv1 dot_S10000x4_S4x64_S10000x64_1_0_0_1_n_n 4 rfl rfl).symm k) = ix2 k q := funext fun a => Fin.ext (by
    match a with
    | ⟨0, _⟩ => exact (rhs_rowsTimesWeightT_0 _ _).trans hk
    | ⟨1, _⟩ => exact rhs_rowsTimesWeightT_1 _ _)
  rw [el, er, transpose_ix2_apply]

/-! ## The payload at an entry -/

/-- Entry (p, q) of what the body stores: the two products' entries added, plus the bias row's entry `q`, cut below
    at zero. It depends on row `p` of the two row blocks, on row `q` of the two weight matrices and on entry `q` of the
    bias row. -/
theorem k0_pay1_apply (x0 x1 : Vec Ideal S10000x4 .f32) (x2 x3 : Vec Ideal S64x4 .f32) (x4 : Vec Ideal S1x64 .f32)
    (p : Fin 10000) (q : Fin 64) :
    k0_pay1 (F := Ideal) x0 x1 x2 x3 x4 (ix2 p q)
      = max (((∑ k : Fin 4, x0 (ix2 p k) * x2 (ix2 q k)) + ∑ k : Fin 4, x1 (ix2 p k) * x3 (ix2 q k))
          + x4 (ix2 (0 : Fin 1) q)) (Ideal.ofBits .f32 0x00000000#32) := by
  unfold k0_pay1
  simp only [shapeCast_self]
  rw [maximumf_apply, addf_apply, addf_apply, rowsTimesWeightT_apply, rowsTimesWeightT_apply, broadcastTo_1b_ab_apply,
    broadcast_apply]
  simp only [truncf_apply]
  rfl

end Cert.KernelIdeal.Hand

end
-- ==== Proof.KIValue0.lean ====
/-
  What the first dense layer's call leaves in its result array, as one function of the arrays it is entered with, at
  the extended reals.

  The call walks ten row blocks of 10000 nodes. At row block `t` its body reads rows `10000 t … 10000 t + 9999` of the
  aggregated messages and of the node features (four columns each), the whole of the two 64 x 4 weight matrices and
  of the 1 x 64 bias row, and writes the same rows of the 100000 x 64 result. Entry (p, q) of the block it writes is
      max ( (Σ_k messages[10000 t + p, k] · wrel[q,k]  +  Σ_k features[10000 t + p, k] · wroot[q,k])  +  bias[0,q] ,  0 ),
  which is entry (10000 t + p, q) of the layer as the specification states it. Row `r` of the result lies in row block
  `r / 10000`, every row block is written back, and so the array ends holding the whole layer.
-/
import proofs.«416973_j1090921693652_1_alg».proof.Proof.Gen.KernelIdeal.Launch
import proofs.«416973_j1090921693652_1_alg».proof.Proof.Gen.KernelIdeal.Skeleton
import proofs.«416973_j1090921693652_1_alg».proof.Proof.Gen.KernelIdeal.Points
import proofs.«416973_j1090921693652_1_alg».proof.Proof.KIRegion0
import proofs.«416973_j1090921693652_1_alg».proof.Proof.Spec
import proofs.«416973_j1090921693652_1_alg».proof.Proof.KIPayload0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## Where each window's block lies in its array -/

/-- Every load and the one store of the body start at offset (0, 0). -/
theorem zeroOffsets : (![0, 0] : Fin 2 → Nat) = fun _ => 0 := funext fun a => by fin_cases a <;> rfl

/-- The index maps over the ten row blocks: the messages', the features' and the result's block index is
    `(t, 0)` at row block `t`; the two weight matrices' and the bias row's is `(0, 0)` throughout. -/
theorem blockIndices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the messages' block at row block `t` is row `10000 t + p` of the aggregated messages. -/
theorem messagesBlock_apply (c : Dev nD) (t : Fin cfg0.N) (p : Fin 10000) (k : Fin 4) (r : Fin 100000)
    (hr : r.val = 10000 * t.val + p.val) :
    (iblk0 V c 0 t : Vec Ideal S10000x4 .f32) (ix2 p k) = (V c main_v15 : Vec Ideal S100000x4 .f32) (ix2 r k) := by
  obtain ⟨e0, e1, -⟩ := blockIndices t
  unfold iblk0
  rw [View.read_apply]
  show V c main_v15 _ = V c main_v15 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 4 + 1 * k.val = k.val; rw [e1]; omega

/-- Row `p` of the features' block at row block `t` is row `10000 t + p` of the node features. -/
theorem featuresBlock_apply (c : Dev nD) (t : Fin cfg0.N) (p : Fin 10000) (k : Fin 4) (r : Fin 100000)
    (hr : r.val = 10000 * t.val + p.val) :
    (iblk0 V c 1 t : Vec Ideal S10000x4 .f32) (ix2 p k) = (V c main_arg0 : Vec Ideal S100000x4 .f32) (ix2 r k) := by
  obtain ⟨-, -, e0, e1, -⟩ := blockIndices t
  unfold iblk0
  rw [View.read_apply]
  show V c main_arg0 _ = V c main_arg0 _
  congr 1
  funext a
  apply Fin.ext
  match a with
  | ⟨0, _⟩ => show win0_1.index t (0 : Fin 2) * 10000 + 1 * p.val = r.val; rw [e0, hr]; omega
  | ⟨1, _⟩ => show win0_1.index t (1 : Fin 2) * 4 + 1 * k.val = k.val; rw [e1]; omega

/-- The first weight matrix's block is the whole matrix at every row block. -/
theorem relWeightBlock_apply (c : Dev nD) (t : Fin cfg0.N) (q : Fin 64) (k : Fin 4) :
    (iblk0 V c 2 t : Vec Ideal S64x4 .f32) (ix2 q k) = (V c main_arg4 : Vec Ideal S64x4 .f32) (ix2 q k) := by
  obtain ⟨-, -, -, -, e0, e1, -⟩ := blockIndices t
  unfold iblk0
  rw [View.read_apply]
  show V c main_arg4 _ = V c main_arg4 _
  congr 1
  funext a
  apply Fin.ext
  match a with
  | ⟨0, _⟩ => show win0_2.index t (0 : Fin 2) * 64 + 1 * q.val = q.val; rw [e0]; omega
  | ⟨1, _⟩ => show win0_2.index t (1 : Fin 2) * 4 + 1 * k.val = k.val; rw [e1]; omega

/-- The second weight matrix's block is the whole matrix at every row block. -/
theorem rootWeightBlock_apply (c : Dev nD) (t : Fin cfg0.N) (q : Fin 64) (k : Fin 4) :
    (iblk0 V c 3 t : Vec Ideal S64x4 .f32) (ix2 q k) = (V c main_arg3 : Vec Ideal S64x4 .f32) (ix2 q k) := by
  obtain ⟨-, -, -, -, -, -, e0, e1, -⟩ := blockIndices t
  unfold iblk0
  rw [View.read_apply]
  show V c main_arg3 _ = V c main_arg3 _
  congr 1
  funext a
  apply Fin.ext
  match a with
  | ⟨0, _⟩ => show win0_3.index t (0 : Fin 2) * 64 + 1 * q.val = q.val; rw [e0]; omega
  | ⟨1, _⟩ => show win0_3.index t (1 : Fin 2) * 4 + 1 * k.val = k.val; rw [e1]; omega

/-- The bias window's block is the whole bias row at every row block. -/
theorem biasBlock_apply (c : Dev nD) (t : Fin cfg0.N) (z : Fin 1) (q : Fin 64) :
    (iblk0 V c 4 t : Vec Ideal S1x64 .f32) (ix2 z q) = (V c main_v16 : Vec Ideal S1x64 .f32) (ix2 z q) := by
  obtain ⟨-, -, -, -, -, -, -, -, e0, e1, -⟩ := blockIndices t
  unfold iblk0
  rw [View.read_apply]
  show V c main_v16 _ = V c main_v16 _
  congr 1
  funext a
  apply Fin.ext
  match a with
  | ⟨0, _⟩ => show win0_4.index t (0 : Fin 2) * 1 + 1 * z.val = z.val; rw [e0]; omega
  | ⟨1, _⟩ => show win0_4.index t (1 : Fin 2) * 64 + 1 * q.val = q.val; rw [e1]; omega

/-! ## One entry of a result block is one entry of the layer -/

/-- The payload at entry (p, q), over blocks that agree with the five arrays where that entry reads them — row `p`
    of the two row blocks with row `r` of the messages and features, row `q` of the two weight blocks with row `q`
    of the weight matrices, entry `q` of the bias block with the bias row's — is the layer's entry (r, q). -/
theorem payload_eq_layer4At (x0 x1 : Vec Ideal S10000x4 .f32) (x2 x3 : Vec Ideal S64x4 .f32) (x4 : Vec Ideal S1x64 .f32)
    (agg h : Vec Ideal S100000x4 .f32) (wrel wroot : Vec Ideal S64x4 .f32) (bias : Vec Ideal S1x64 .f32)
    (p : Fin 10000) (q : Fin 64) (r : Fin 100000)
    (h0 : ∀ k : Fin 4, x0 (ix2 p k) = agg (ix2 r k)) (h1 : ∀ k : Fin 4, x1 (ix2 p k) = h (ix2 r k))
    (h2 : ∀ k : Fin 4, x2 (ix2 q k) = wrel (ix2 q k)) (h3 : ∀ k : Fin 4, x3 (ix2 q k) = wroot (ix2 q k))
    (h4 : x4 (ix2 (0 : Fin 1) q) = bias (ix2 (0 : Fin 1) q)) :
    k0_pay1 (F := Ideal) x0 x1 x2 x3 x4 (ix2 p q) = Cert.Spec.layer4At agg h wrel wroot bias r q := by
  rw [k0_pay1_apply]
  unfold Cert.Spec.layer4At
  simp only [h0, h1, h2, h3, h4]

/-! ## What a row block's write-back writes -/

/-- The write-back at row block `t` writes rows `10000 t … 10000 t + 9999` of the layer computed from the five arrays
    as the call finds them. -/
theorem flushed_eq_layer4 (c : Dev nD) (t : Fin cfg0.N) :
    (dat0 V c).flushed 5 t = ((cfg0.win 5).blk t).view.read (Elt Ideal)
      (Cert.Spec.layer4 (V c main_v15 : Vec Ideal S100000x4 .f32) (V c main_arg0 : Vec Ideal S100000x4 .f32)
        (V c main_arg4 : Vec Ideal S64x4 .f32) (V c main_arg3 : Vec Ideal S64x4 .f32) (V c main_v16 : Vec Ideal S1x64 .f32)) := by
  show (cfg0.win 5).cut (grid0.coords t) ((dat0 V c).after 5 t) = _
  rw [after0_5]
  unfold out0_5
  rw [View.canon_unit_zero zeroOffsets]
  simp only [View.ld_unit_zero (S := S10000x4) zeroOffsets, View.ld_unit_zero (S := S64x4) zeroOffsets,
    View.ld_unit_zero (S := S1x64) zeroOffsets]
  obtain ⟨-, -, -, -, -, -, -, -, -, -, e0, e1⟩ := blockIndices t
  funext j
  obtain ⟨p, q, rfl⟩ : ∃ (p : Fin 10000) (q : Fin 64), j = ix2 p q := ⟨j 0, j 1, eq_ix2 j⟩
  have ht : t.val < 10 := by have h := t.isLt; have hN : cfg0.N = 10 := N_0; omega
  have hr : 10000 * t.val + p.val < 100000 := by have := p.isLt; omega
  rw [View.read_apply]
  have hemb : ((cfg0.win 5).blk t).view.emb (ix2 p q) = (ix2 (⟨10000 * t.val + p.val, hr⟩ : Fin 100000) q : S100000x64.Idx) := by
    funext a
    apply Fin.ext
    match a with
    | ⟨0, _⟩ => show win0_5.index t (0 : Fin 2) * 10000 + 1 * p.val = 10000 * t.val + p.val; rw [e0]; omega
    | ⟨1, _⟩ => show win0_5.index t (1 : Fin 2) * 64 + 1 * q.val = q.val; rw [e1]; omega
  show k0_pay1 (F := Ideal) _ _ _ _ _ (ix2 p q) = Cert.Spec.layer4 _ _ _ _ _ (((cfg0.win 5).blk t).view.emb (ix2 p q))
  rw [hemb, Cert.Spec.layer4_apply]
  refine payload_eq_layer4At _ _ _ _ _ _ _ _ _ _ p q _ ?_ ?_ ?_ ?_ ?_
  · exact fun k => messagesBlock_apply V c t p k _ rfl
  · exact fun k => featuresBlock_apply V c t p k _ rfl
  · exact fun k => relWeightBlock_apply V c t q k
  · exact fun k => rootWeightBlock_apply V c t q k
  · exact biasBlock_apply V c t 0 q

/-! ## The row blocks cover the array -/

/-- An entry of the result array is in row block `t`'s block iff each coordinate is in the block's range. -/
theorem mem_resultBlock (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v17).slice (win0_5.rect t)).set ↔ _
  rw [View.set_slice_whole, Rect.mem_set_unit]
  exact Iff.rfl

/-- Row `r` of the result lies in row block `r / 10000`, which is written back. -/
theorem resultBlocks_cover (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  have hN : cfg0.N = 10 := N_0
  have ht : (i 0).val / 10000 < cfg0.N := by rw [hN]; omega
  obtain ⟨-, -, -, -, -, -, -, -, -, -, e0, e1⟩ := blockIndices ⟨(i 0).val / 10000, ht⟩
  refine ⟨⟨(i 0).val / 10000, ht⟩, flush0_5 _, ?_⟩
  rw [mem_resultBlock]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_5.index ⟨(i 0).val / 10000, ht⟩ (1 : Fin 2) * 64 ≤ (i 1).val
      ∧ (i 1).val < win0_5.index ⟨(i 0).val / 10000, ht⟩ (1 : Fin 2) * 64 + 64
    rw [e1]
    omega

/-! ## The result array after the call -/

/-- After the ten row blocks the result array holds the layer of the five arrays the call was entered with. -/
theorem final0 (c : Dev nD) :
    (dat0 (F := Ideal) V c).arrAt 5 cfg0.N
      = Cert.Spec.layer4 (V c main_v15 : Vec Ideal S100000x4 .f32) (V c main_arg0 : Vec Ideal S100000x4 .f32)
          (V c main_arg4 : Vec Ideal S64x4 .f32) (V c main_arg3 : Vec Ideal S64x4 .f32) (V c main_v16 : Vec Ideal S1x64 .f32) :=
  (dat0 V c).arrAt_eq_of_cover 5 _ (fun t _ => flushed_eq_layer4 V c t) resultBlocks_cover

end Cert.KernelIdeal.Hand

end
-- ==== Proof.KIPayload1.lean ====
import proofs.«416973_j1090921693652_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! # The second dense layer's arithmetic at one entry of a slab

The body of the second pallas_call computes, on a slab of 10000 rows of aggregated messages `x0` and of hidden
features `x1` (64 columns each), two 64x64 weight matrices `x2`, `x3` and a 1x64 bias row `x4`,
`max (x0 · x2ᵀ + x1 · x3ᵀ + bias, 0)`. At the extended reals the roundings to bf16 are the identity, a
transpose reads its operand at the swapped index and a matrix product into the zero accumulator is the plain sum of
products over the contracted axis, so entry `(p, q)` of the result is
`max ((Σ_k x0[p,k] · x2[q,k] + Σ_k x1[p,k] · x3[q,k]) + x4[0,q], 0)`. -/

/-! ## The matrix product's operand indices

The product contracts the slab's columns (its axis 1) with the transposed weight's rows (its axis 0); the result's
row is the slab's row and the result's column is the transposed weight's column. -/

/-- The slab operand is read at the result's row, -/
theorem slabDot_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- and at the contraction index on its columns. -/
theorem slabDot_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The transposed weight is read at the contraction index on its rows, -/
theorem slabDot_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- and at the result's column. -/
theorem slabDot_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix product of a slab `a` and a 64x64 matrix `b` into the zero accumulator, at entry `(p, q)`: the sum
    over the 64 contracted positions of `a[p,k] · b[k,q]`. The sum over the contraction shape's indices is
    re-indexed by its one coordinate. -/
theorem slabDot_apply (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  show FloatOps.matmul dot_S10000x64_S64x64_S10000x64_1_0_0_1_n_n none a b (constant (F := Ideal) S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact slabDot_lhs_row _ _
    | ⟨1, _⟩ => exact (slabDot_lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (slabDot_rhs_row _ _).trans hk
    | ⟨1, _⟩ => exact slabDot_rhs_col _ _)
  rw [el, er]

/-! ## The payload at an entry -/

/-- A weight matrix rounded to bf16 and transposed, read at `(k, q)`, is the weight at `(q, k)`: the rounding is the
    identity on the extended reals and the transpose swaps the two coordinates. -/
theorem weightT_apply (w : FVec Ideal S64x64 .f32) (k q : Fin 64) :
    transpose S64x64 [1, 0] (truncf .bf16 w bitsLt_bf16_f32) transposes_S64x64_p1_0_S64x64 (ix2 k q) = w (ix2 q k) :=
  transpose_ix2_apply (truncf .bf16 w bitsLt_bf16_f32) transposes_S64x64_p1_0_S64x64 k q

/-- Entry `(p, q)` of what the body stores, from the five blocks it loads. The shape casts are identities; the
    roundings read their operand; each transposed weight read at `(k, q)` is the weight at `(q, k)`; the bias row
    broadcast over the slab's rows reads its one row at `q`; the scalar zero broadcast reads the zero. -/
theorem k1_pay1_apply (x0 x1 : Vec Ideal S10000x64 .f32) (x2 x3 : Vec Ideal S64x64 .f32) (x4 : Vec Ideal S1x64 .f32)
    (p : Fin 10000) (q : Fin 64) :
    k1_pay1 x0 x1 x2 x3 x4 (ix2 p q)
      = max (((∑ k : Fin 64, x0 (ix2 p k) * x2 (ix2 q k)) + ∑ k : Fin 64, x1 (ix2 p k) * x3 (ix2 q k)) + x4 (ix2 (0 : Fin 1) q))
          (Ideal.ofBits .f32 0x00000000#32) := by
  unfold k1_pay1
  simp only [shapeCast_self]
  rw [maximumf_apply, addf_apply, addf_apply, broadcast_apply, slabDot_apply, slabDot_apply, broadcastTo_1b_ab_apply]
  refine congrArg₂ max (congrArg₂ (· + ·) (congrArg₂ (· + ·) (Finset.sum_congr rfl fun k _ => ?_) (Finset.sum_congr rfl fun k _ => ?_)) rfl) rfl
  · exact congrArg (x0 (ix2 p k) * ·) (weightT_apply x2 k q)
  · exact congrArg (x1 (ix2 p k) * ·) (weightT_apply x3 k q)

end Cert.KernelIdeal.Hand

end
-- ==== Proof.KIValue1.lean ====
import proofs.«416973_j1090921693652_1_alg».proof.Proof.KIRegion1
import proofs.«416973_j1090921693652_1_alg».proof.Proof.KIPayload1
import proofs.«416973_j1090921693652_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # What the second pallas_call leaves in its output array

The call's grid has ten points. Point `t` is handed rows `10000·t … 10000·t + 9999` of the aggregated messages and
of the hidden features, the two weight matrices and the bias row whole, and writes rows `10000·t … 10000·t + 9999` of
the output. Entry `(p, q)` of what it writes is the dense layer's value at row `10000·t + p` and column `q` of
the five arrays as the call finds them; the ten slabs tile the 100000 rows, so the output array ends holding the
layer's value at every entry. -/

variable (V : (c : Dev nD) → (b : Ref sig .tc) → Buf (Elt Ideal) ((c : Thread nD τ).loc b))

/-- The offsets of a whole-buffer rectangle are all zero. -/
theorem zeroOffsets : (![0, 0] : Fin 2 → Nat) = fun _ => 0 := funext fun a => by fin_cases a <;> rfl

/-! ## From a slab's blocks to the layer's value at a row -/

/-- If row `p` of the two slab blocks is row `r` of the two node arrays, and the weight and bias blocks are the
    weight and bias arrays at the entries read, then entry `(p, q)` of the body's payload is the layer's value at
    `(r, q)`. -/
theorem slab_entry (A0 A1 : (⟨2, ![100000, 64]⟩ : Shape).Idx → EReal) (A2 A3 : (⟨2, ![64, 64]⟩ : Shape).Idx → EReal)
    (A4 : (⟨2, ![1, 64]⟩ : Shape).Idx → EReal)
    (x0 x1 : Vec Ideal S10000x64 .f32) (x2 x3 : Vec Ideal S64x64 .f32) (x4 : Vec Ideal S1x64 .f32)
    (p : Fin 10000) (q : Fin 64) (r : Fin 100000)
    (h0 : ∀ k : Fin 64, x0 (ix2 p k) = A0 (ix2 r k)) (h1 : ∀ k : Fin 64, x1 (ix2 p k) = A1 (ix2 r k))
    (h2 : ∀ k : Fin 64, x2 (ix2 q k) = A2 (ix2 q k)) (h3 : ∀ k : Fin 64, x3 (ix2 q k) = A3 (ix2 q k))
    (h4 : x4 (ix2 (0 : Fin 1) q) = A4 (ix2 (0 : Fin 1) q)) :
    k1_pay1 x0 x1 x2 x3 x4 (ix2 p q) = Cert.Spec.layer64At A0 A1 A2 A3 A4 r q := by
  rw [k1_pay1_apply]
  unfold Cert.Spec.layer64At
  rw [Finset.sum_congr rfl fun k _ => congrArg₂ (· * ·) (h0 k) (h2 k),
    Finset.sum_congr rfl fun k _ => congrArg₂ (· * ·) (h1 k) (h3 k), h4]

/-! ## The index maps over the grid -/

/-- The printed index maps at every grid point: the two slab inputs and the output sit at block row `t`, block
    column 0; the weights and the bias at block (0, 0). -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## What point `t` writes back -/

/-- What grid point `t` writes back to the output array is block `t` of the layer's value on the five arrays as the
    call finds them. -/
theorem flushed1_5_eq (c : Dev nD) (t : Fin cfg1.N) :
    (dat1 (F := Ideal) V c).flushed 5 t = ((cfg1.win 5).blk t).view.read (Elt Ideal)
      (Cert.Spec.layer64 (V c main_v29 : Vec Ideal S100000x64 .f32) (V c main_v17 : Vec Ideal S100000x64 .f32)
        (V c main_arg7 : Vec Ideal S64x64 .f32) (V c main_arg6 : Vec Ideal S64x64 .f32) (V c main_v30 : Vec Ideal S1x64 .f32)) := by
  show (cfg1.win 5).cut (grid1.coords t) ((dat1 V c).after 5 t) = _
  rw [after1_5]
  unfold out1_5
  rw [View.canon_unit_zero zeroOffsets]
  simp only [View.ld_unit_zero (S := S10000x64) zeroOffsets, View.ld_unit_zero (S := S64x64) zeroOffsets, View.ld_unit_zero (S := S1x64) zeroOffsets]
  obtain ⟨e00, e01, e10, e11, e20, e21, e30, e31, e40, e41, e50, e51⟩ := blockIndex1 t
  have hN : cfg1.N = 10 := N_1
  have ht : t.val < 10 := hN ▸ t.isLt
  funext j
  obtain ⟨p, q, rfl⟩ : ∃ (p : Fin 10000) (q : Fin 64), j = ix2 p q := ⟨j 0, j 1, eq_ix2 j⟩
  have hp : p.val < 10000 := p.isLt
  -- the output block's entry (p, q) lies at row 10000·t + p, column q of the array
  have hrow : 10000 * t.val + p.val < 100000 := by omega
  have hout : ((cfg1.win 5).blk t).view.emb (ix2 p q) = ix2 (⟨10000 * t.val + p.val, hrow⟩ : Fin 100000) q := by
    funext a; apply Fin.ext
    match a with
    | ⟨0, _⟩ => show win1_5.index t (0 : Fin 2) * 10000 + 1 * p.val = 10000 * t.val + p.val; rw [e50]; omega
    | ⟨1, _⟩ => show win1_5.index t (1 : Fin 2) * 64 + 1 * q.val = q.val; rw [e51]; omega
  show k1_pay1 (iblk1 V c 0 t) (iblk1 V c 1 t) (iblk1 V c 2 t) (iblk1 V c 3 t) (iblk1 V c 4 t) (ix2 p q)
    = Cert.Spec.layer64 (V c main_v29 : Vec Ideal S100000x64 .f32) (V c main_v17 : Vec Ideal S100000x64 .f32)
        (V c main_arg7 : Vec Ideal S64x64 .f32) (V c main_arg6 : Vec Ideal S64x64 .f32) (V c main_v30 : Vec Ideal S1x64 .f32)
        (((cfg1.win 5).blk t).view.emb (ix2 p q))
  rw [hout, Cert.Spec.layer64_apply]
  refine slab_entry _ _ _ _ _ (iblk1 V c 0 t) (iblk1 V c 1 t) (iblk1 V c 2 t) (iblk1 V c 3 t) (iblk1 V c 4 t) p q _ ?_ ?_ ?_ ?_ ?_
  · -- the messages' slab: row p of block t is row 10000·t + p
    intro k
    show V c main_v29 (((cfg1.win 0).blk t).view.emb (ix2 p k)) = V c main_v29 (ix2 (⟨10000 * t.val + p.val, hrow⟩ : Fin 100000) k)
    refine congrArg (V c main_v29) (funext fun a => Fin.ext ?_)
    match a with
    | ⟨0, _⟩ => show win1_0.index t (0 : Fin 2) * 10000 + 1 * p.val = 10000 * t.val + p.val; rw [e00]; omega
    | ⟨1, _⟩ => show win1_0.index t (1 : Fin 2) * 64 + 1 * k.val = k.val; rw [e01]; omega
  · -- the hidden features' slab: likewise
    intro k
    show V c main_v17 (((cfg1.win 1).blk t).view.emb (ix2 p k)) = V c main_v17 (ix2 (⟨10000 * t.val + p.val, hrow⟩ : Fin 100000) k)
    refine congrArg (V c main_v17) (funext fun a => Fin.ext ?_)
    match a with
    | ⟨0, _⟩ => show win1_1.index t (0 : Fin 2) * 10000 + 1 * p.val = 10000 * t.val + p.val; rw [e10]; omega
    | ⟨1, _⟩ => show win1_1.index t (1 : Fin 2) * 64 + 1 * k.val = k.val; rw [e11]; omega
  · -- the first weight matrix: its one block is the whole array
    intro k
    show V c main_arg7 (((cfg1.win 2).blk t).view.emb (ix2 q k)) = V c main_arg7 (ix2 q k)
    refine congrArg (V c main_arg7) (funext fun a => Fin.ext ?_)
    match a with
    | ⟨0, _⟩ => show win1_2.index t (0 : Fin 2) * 64 + 1 * q.val = q.val; rw [e20]; omega
    | ⟨1, _⟩ => show win1_2.index t (1 : Fin 2) * 64 + 1 * k.val = k.val; rw [e21]; omega
  · -- the second weight matrix: likewise
    intro k
    show V c main_arg6 (((cfg1.win 3).blk t).view.emb (ix2 q k)) = V c main_arg6 (ix2 q k)
    refine congrArg (V c main_arg6) (funext fun a => Fin.ext ?_)
    match a with
    | ⟨0, _⟩ => show win1_3.index t (0 : Fin 2) * 64 + 1 * q.val = q.val; rw [e30]; omega
    | ⟨1, _⟩ => show win1_3.index t (1 : Fin 2) * 64 + 1 * k.val = k.val; rw [e31]; omega
  · -- the bias row: likewise
    show V c main_v30 (((cfg1.win 4).blk t).view.emb (ix2 (0 : Fin 1) q)) = V c main_v30 (ix2 (0 : Fin 1) q)
    refine congrArg (V c main_v30) (funext fun a => Fin.ext ?_)
    match a with
    | ⟨0, _⟩ => show win1_4.index t (0 : Fin 2) * 1 + 1 * (0 : Fin 1).val = (0 : Fin 1).val; rw [e40]; omega
    | ⟨1, _⟩ => show win1_4.index t (1 : Fin 2) * 64 + 1 * q.val = q.val; rw [e41]; omega

/-! ## The ten slabs tile the rows -/

/-- An entry of the output array is in point `t`'s block iff each of its coordinates is in the block's range. -/
theorem mem_blk1_5 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v31).slice (win1_5.rect t)).set ↔ _
  rw [View.set_slice_whole, Rect.mem_set_unit]
  exact Iff.rfl

/-- Every entry of the output array is written back by some point: row `r` by point `r / 10000`. -/
theorem rows_covered1_5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨-, -, -, -, -, -, -, -, -, -, e50, e51⟩ := blockIndex1 ⟨(i 0).val / 10000, hlt⟩
  refine ⟨⟨(i 0).val / 10000, hlt⟩, flush1_5 _, ?_⟩
  rw [mem_blk1_5]
  intro a
  match a with
  | ⟨0, _⟩ =>
    show win1_5.index ⟨(i 0).val / 10000, hlt⟩ (0 : Fin 2) * 10000 ≤ (i 0).val ∧ (i 0).val < win1_5.index ⟨(i 0).val / 10000, hlt⟩ (0 : Fin 2) * 10000 + 10000
    rw [e50]; show (i 0).val / 10000 * 10000 ≤ (i 0).val ∧ (i 0).val < (i 0).val / 10000 * 10000 + 10000; omega
  | ⟨1, _⟩ =>
    show win1_5.index ⟨(i 0).val / 10000, hlt⟩ (1 : Fin 2) * 64 ≤ (i 1).val ∧ (i 1).val < win1_5.index ⟨(i 0).val / 10000, hlt⟩ (1 : Fin 2) * 64 + 64
    rw [e51]; omega

/-! ## The output array after the call -/

/-- After the call the output array holds the dense layer's value on the five arrays as the call finds them: every
    point writes its block of that one function, and the blocks cover the array. -/
theorem final1 (c : Dev nD) :
    (dat1 (F := Ideal) V c).arrAt 5 cfg1.N
      = Cert.Spec.layer64 (V c main_v29 : Vec Ideal S100000x64 .f32) (V c main_v17 : Vec Ideal S100000x64 .f32)
          (V c main_arg7 : Vec Ideal S64x64 .f32) (V c main_arg6 : Vec Ideal S64x64 .f32) (V c main_v30 : Vec Ideal S1x64 .f32) :=
  (dat1 (F := Ideal) V c).arrAt_eq_of_cover 5
    (Cert.Spec.layer64 (V c main_v29 : Vec Ideal S100000x64 .f32) (V c main_v17 : Vec Ideal S100000x64 .f32)
      (V c main_arg7 : Vec Ideal S64x64 .f32) (V c main_arg6 : Vec Ideal S64x64 .f32) (V c main_v30 : Vec Ideal S1x64 .f32))
    (fun t _ => flushed1_5_eq V c t) rows_covered1_5

end Cert.KernelIdeal.Hand

end
-- ==== Proof.KIPayload2.lean ====
/-
  The arithmetic of the edge network's block, entry by entry.

  One grid point of the third launch holds 12000 rows of the edge embedding (129 columns), the 64 × 129 first-layer
  matrix, the first-layer bias row, the 1 × 64 second-layer matrix and the 1 × 1 second-layer bias. Its body rounds
  the operands to a shorter float format (the identity at the extended reals), multiplies the rows by the transposed
  first-layer matrix into a zero accumulator, adds the bias row to every row, rectifies against zero, multiplies by the
  transposed second-layer row into a zero accumulator and adds the 1 × 1 bias to every row. So entry (p, 0) of what it
  stores is
      Σ_q max ( Σ_k x[p,k] · w1[q,k] + b1[0,q] , 0 ) · w2[0,q]   +   b2[0,0].
-/
import proofs.«416973_j1090921693652_1_alg».proof.Proof.Gen.KernelIdeal.Skeleton
import proofs.«416973_j1090921693652_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.SL.Sem

/-! ## The first product: rows of the embedding against the transposed first-layer matrix

The contraction runs over axis 1 of the left operand and axis 0 of the right one; the row of the result is the left
operand's row and its column is the right operand's column. -/

theorem lhs_hidden_0 (i : S12000x64.Idx) (q : dot_S12000x129_S129x64_S12000x64_1_0_0_1_n_n.contr.Idx) :
    (dot_S12000x129_S129x64_S12000x64_1_0_0_1_n_n.lhsIdx i q 0).val = (i 0).val := by
  unfold DotDims.lhsIdx
  rw [dif_neg (show ¬(0 : Fin S12000x129.rank) ∈ dot_S12000x129_S129x64_S12000x64_1_0_0_1_n_n.lhsBatch by decide), dif_pos (show (0 : Fin S12000x129.rank) ∈ dot_S12000x129_S129x64_S12000x64_1_0_0_1_n_n.lhsNonContracting by decide)]
  rfl
theorem lhs_hidden_1 (i : S12000x64.Idx) (q : dot_S12000x129_S129x64_S12000x64_1_0_0_1_n_n.contr.Idx) :
    (dot_S12000x129_S129x64_S12000x64_1_0_0_1_n_n.lhsIdx i q 1).val = (q ⟨0, by decide⟩).val :=
  dot_S12000x129_S129x64_S12000x64_1_0_0_1_n_n.lhsIdx_val_of_single rfl i q
theorem rhs_hidden_0 (i : S12000x64.Idx) (q : dot_S12000x129_S129x64_S12000x64_1_0_0_1_n_n.contr.Idx) :
    (dot_S12000x129_S129x64_S12000x64_1_0_0_1_n_n.rhsIdx i q 0).val = (q ⟨0, by decide⟩).val :=
  dot_S12000x129_S129x64_S12000x64_1_0_0_1_n_n.rhsIdx_val_of_single rfl i q
theorem rhs_hidden_1 (i : S12000x64.Idx) (q : dot_S12000x129_S129x64_S12000x64_1_0_0_1_n_n.contr.Idx) :
    (dot_S12000x129_S129x64_S12000x64_1_0_0_1_n_n.rhsIdx i q 1).val = (i 1).val := by
  unfold DotDims.rhsIdx
  rw [dif_neg (show ¬(1 : Fin S129x64.rank) ∈ dot_S12000x129_S129x64_S12000x64_1_0_0_1_n_n.rhsBatch by decide), dif_pos (show (1 : Fin S129x64.rank) ∈ dot_S12000x129_S129x64_S12000x64_1_0_0_1_n_n.rhsNonContracting by decide)]
  rfl

/-- Entry (p, q) of the first product into a zero accumulator: the sum over the 129 shared columns. -/
theorem hidden_matmul_apply (a : FVec Ideal S12000x129 .bf16) (b : FVec Ideal S129x64 .bf16) (p : Fin 12000) (q : Fin 64) :
    matmul dot_S12000x129_S129x64_S12000x64_1_0_0_1_n_n none a b (constant (F := Ideal) S12000x64 .f32 0x00000000#32) (ix2 p q)
      = ∑ k : Fin 129, a (ix2 p k) * b (ix2 k q) := by
  simp only [matmul]
  rw [Ideal.matmul_constant_zero_apply, ← Equiv.sum_comp (ValueIdx.contrEquiv1 dot_S12000x129_S129x64_S12000x64_1_0_0_1_n_n 129 rfl rfl).symm]
  refine Finset.sum_congr rfl fun k _ => ?_
  have hk := ValueIdx.contrEquiv1_symm_val dot_S12000x129_S129x64_S12000x64_1_0_0_1_n_n 129 rfl rfl k
  have el : dot_S12000x129_S129x64_S12000x64_1_0_0_1_n_n.lhsIdx (ix2 p q) ((ValueIdx.contrEquiv1 dot_S12000x129_S129x64_S12000x64_1_0_0_1_n_n 129 rfl rfl).symm k) = ix2 p k := funext fun ax => Fin.ext (by
    match ax with
    | ⟨0, _⟩ => exact lhs_hidden_0 _ _
    | ⟨1, _⟩ => exact (lhs_hidden_1 _ _).trans hk)
  have er : dot_S12000x129_S129x64_S12000x64_1_0_0_1_n_n.rhsIdx (ix2 p q) ((ValueIdx.contrEquiv1 dot_S12000x129_S129x64_S12000x64_1_0_0_1_n_n 129 rfl rfl).symm k) = ix2 k q := funext fun ax => Fin.ext (by
    match ax with
    | ⟨0, _⟩ => exact (rhs_hidden_0 _ _).trans hk
    | ⟨1, _⟩ => exact rhs_hidden_1 _ _)
  rw [el, er]

/-! ## The second product: the rectified hidden rows against the transposed second-layer row -/

theorem lhs_out_0 (i : S12000x1.Idx) (q : dot_S12000x64_S64x1_S12000x1_1_0_0_1_n_n.contr.Idx) :
    (dot_S12000x64_S64x1_S12000x1_1_0_0_1_n_n.lhsIdx i q 0).val = (i 0).val := by
  unfold DotDims.lhsIdx
  rw [dif_neg (show ¬(0 : Fin S12000x64.rank) ∈ dot_S12000x64_S64x1_S12000x1_1_0_0_1_n_n.lhsBatch by decide), dif_pos (show (0 : Fin S12000x64.rank) ∈ dot_S12000x64_S64x1_S12000x1_1_0_0_1_n_n.lhsNonContracting by decide)]
  rfl
theorem lhs_out_1 (i : S12000x1.Idx) (q : dot_S12000x64_S64x1_S12000x1_1_0_0_1_n_n.contr.Idx) :
    (dot_S12000x64_S64x1_S12000x1_1_0_0_1_n_n.lhsIdx i q 1).val = (q ⟨0, by decide⟩).val :=
  dot_S12000x64_S64x1_S12000x1_1_0_0_1_n_n.lhsIdx_val_of_single rfl i q
theorem rhs_out_0 (i : S12000x1.Idx) (q : dot_S12000x64_S64x1_S12000x1_1_0_0_1_n_n.contr.Idx) :
    (dot_S12000x64_S64x1_S12000x1_1_0_0_1_n_n.rhsIdx i q 0).val = (q ⟨0, by decide⟩).val :=
  dot_S12000x64_S64x1_S12000x1_1_0_0_1_n_n.rhsIdx_val_of_single rfl i q
theorem rhs_out_1 (i : S12000x1.Idx) (q : dot_S12000x64_S64x1_S12000x1_1_0_0_1_n_n.contr.Idx) :
    (dot_S12000x64_S64x1_S12000x1_1_0_0_1_n_n.rhsIdx i q 1).val = (i 1).val := by
  unfold DotDims.rhsIdx
  rw [dif_neg (show ¬(1 : Fin S64x1.rank) ∈ dot_S12000x64_S64x1_S12000x1_1_0_0_1_n_n.rhsBatch by decide), dif_pos (show (1 : Fin S64x1.rank) ∈ dot_S12000x64_S64x1_S12000x1_1_0_0_1_n_n.rhsNonContracting by decide)]
  rfl

/-- Entry (p, z) of the second product into a zero accumulator: the sum over the 64 hidden units. -/
theorem out_matmul_apply (a : FVec Ideal S12000x64 .bf16) (b : FVec Ideal S64x1 .bf16) (p : Fin 12000) (z : Fin 1) :
    matmul dot_S12000x64_S64x1_S12000x1_1_0_0_1_n_n none a b (constant (F := Ideal) S12000x1 .f32 0x00000000#32) (ix2 p z)
      = ∑ q : Fin 64, a (ix2 p q) * b (ix2 q z) := by
  simp only [matmul]
  rw [Ideal.matmul_constant_zero_apply, ← Equiv.sum_comp (ValueIdx.contrEquiv1 dot_S12000x64_S64x1_S12000x1_1_0_0_1_n_n 64 rfl rfl).symm]
  refine Finset.sum_congr rfl fun k _ => ?_
  have hk := ValueIdx.contrEquiv1_symm_val dot_S12000x64_S64x1_S12000x1_1_0_0_1_n_n 64 rfl rfl k
  have el : dot_S12000x64_S64x1_S12000x1_1_0_0_1_n_n.lhsIdx (ix2 p z) ((ValueIdx.contrEquiv1 dot_S12000x64_S64x1_S12000x1_1_0_0_1_n_n 64 rfl rfl).symm k) = ix2 p k := funext fun ax => Fin.ext (by
    match ax with
    | ⟨0, _⟩ => exact lhs_out_0 _ _
    | ⟨1, _⟩ => exact (lhs_out_1 _ _).trans hk)
  have er : dot_S12000x64_S64x1_S12000x1_1_0_0_1_n_n.rhsIdx (ix2 p z) ((ValueIdx.contrEquiv1 dot_S12000x64_S64x1_S12000x1_1_0_0_1_n_n 64 rfl rfl).symm k) = ix2 k z := funext fun ax => Fin.ext (by
    match ax with
    | ⟨0, _⟩ => exact (rhs_out_0 _ _).trans hk
    | ⟨1, _⟩ => exact rhs_out_1 _ _)
  rw [el, er]

/-! ## The block's stored value at an entry -/

/-- Entry (p, z) of the block the body stores, from the five loaded blocks: the second layer's sum over the rectified
    hidden units of row p, plus the 1 × 1 bias. The one column index z is 0. -/
theorem k2_pay1_apply (x0 : Vec Ideal S12000x129 .f32) (x1 : Vec Ideal S64x129 .f32) (x2 : Vec Ideal S1x64 .f32)
    (x3 : Vec Ideal S1x64 .f32) (x4 : Vec Ideal S1x1 .f32) (p : Fin 12000) (z : Fin 1) :
    k2_pay1 (F := Ideal) x0 x1 x2 x3 x4 (ix2 p z)
      = (∑ q : Fin 64, max ((∑ k : Fin 129, x0 (ix2 p k) * x1 (ix2 q k)) + x2 (ix2 (0 : Fin 1) q)) Cert.Spec.zero32
            * x3 (ix2 (0 : Fin 1) q)) + x4 (ix2 (0 : Fin 1) (0 : Fin 1)) := by
  obtain rfl : z = 0 := Subsingleton.elim z 0
  unfold k2_pay1
  simp only [shapeCast_self]
  rw [addf_apply, out_matmul_apply, broadcastTo_1b_ab_apply]
  refine congrArg (· + x4 (ix2 (0 : Fin 1) (0 : Fin 1))) (Finset.sum_congr rfl fun q _ => ?_)
  rw [truncf_apply, maximumf_apply, addf_apply, hidden_matmul_apply, broadcastTo_1b_ab_apply, broadcast_apply,
    transpose_ix2_apply, truncf_apply]
  refine congrArg (max · _ * _) (congrArg (· + _) (Finset.sum_congr rfl fun k _ => ?_))
  rw [truncf_apply, transpose_ix2_apply, truncf_apply]

end Cert.KernelIdeal.Hand

end
-- ==== Proof.KIValue2.lean ====
/-
  What the edge network's launch leaves in its result array.

  The launch walks 150 row blocks of 12000 edges. At block t the body reads rows 12000 t … 12000 t + 11999 of the
  edge embedding, the whole first-layer matrix and bias row, the whole second-layer row and its 1 × 1 bias, and stores
  the 12000 × 1 block whose entry p is the edge network's output at row 12000 t + p. The 150 blocks tile the
  1800000 × 1 result, so after the launch the result is the edge network's output of the arrays the launch was
  entered with.
-/
import proofs.«416973_j1090921693652_1_alg».proof.Proof.KIRegion2
import proofs.«416973_j1090921693652_1_alg».proof.Proof.KIPayload2
import proofs.«416973_j1090921693652_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## Where each window's block lies -/

/-- Every access of the body starts at row 0 and column 0 of its buffer. -/
theorem origin2 : (![0, 0] : Fin 2 → Nat) = fun _ => 0 := funext fun a => by fin_cases a <;> rfl

/-- The index maps over the 150 grid points: the embedding's window and the result's window are at row block t, column
    block 0; the two matrices' and the two biases' windows stay at block (0, 0). -/
theorem edge_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row y of the embedding's block at point t is row 12000 t + y of the embedding. -/
theorem embedding_block_apply (c : Dev nD) (t : Fin cfg2.N) (y : S12000x129.Idx) (i : S1800000x129.Idx)
    (h0 : (i 0).val = 12000 * t.val + (y 0).val) (h1 : (i 1).val = (y 1).val) :
    (iblk2 V c 0 t : Vec Ideal S12000x129 .f32) y = (V c main_v67 : Vec Ideal S1800000x129 .f32) i := by
  obtain ⟨e0, e1, -⟩ := edge_index_maps t
  unfold iblk2
  rw [View.read_apply]
  show V c main_v67 _ = V c main_v67 _
  congr 1
  funext a
  apply Fin.ext
  match a with
  | ⟨0, _⟩ => show win2_0.index t 0 * 12000 + 1 * (y 0).val = (i 0).val; rw [e0, h0]; omega
  | ⟨1, _⟩ => show win2_0.index t 1 * 129 + 1 * (y 1).val = (i 1).val; rw [e1, h1]; omega

/-- The first-layer matrix's block is the whole matrix at every point. -/
theorem w1_block_eq (c : Dev nD) (t : Fin cfg2.N) :
    (iblk2 V c 1 t : Vec Ideal S64x129 .f32) = (V c main_arg9 : Vec Ideal S64x129 .f32) := by
  obtain ⟨-, -, e0, e1, -⟩ := edge_index_maps t
  funext y
  unfold iblk2
  rw [View.read_apply]
  show V c main_arg9 _ = V c main_arg9 y
  congr 1
  funext a
  apply Fin.ext
  match a with
  | ⟨0, _⟩ => show win2_1.index t 0 * 64 + 1 * (y 0).val = (y 0).val; rw [e0]; omega
  | ⟨1, _⟩ => show win2_1.index t 1 * 129 + 1 * (y 1).val = (y 1).val; rw [e1]; omega

/-- The first-layer bias row's block is the whole row. -/
theorem b1_block_eq (c : Dev nD) (t : Fin cfg2.N) :
    (iblk2 V c 2 t : Vec Ideal S1x64 .f32) = (V c main_v68 : Vec Ideal S1x64 .f32) := by
  obtain ⟨-, -, -, -, e0, e1, -⟩ := edge_index_maps t
  funext y
  unfold iblk2
  rw [View.read_apply]
  show V c main_v68 _ = V c main_v68 y
  congr 1
  funext a
  apply Fin.ext
  match a with
  | ⟨0, _⟩ => show win2_2.index t 0 * 1 + 1 * (y 0).val = (y 0).val; rw [e0]; omega
  | ⟨1, _⟩ => show win2_2.index t 1 * 64 + 1 * (y 1).val = (y 1).val; rw [e1]; omega

/-- The second-layer matrix's block is the whole 1 × 64 matrix. -/
theorem w2_block_eq (c : Dev nD) (t : Fin cfg2.N) :
    (iblk2 V c 3 t : Vec Ideal S1x64 .f32) = (V c main_arg11 : Vec Ideal S1x64 .f32) := by
  obtain ⟨-, -, -, -, -, -, e0, e1, -⟩ := edge_index_maps t
  funext y
  unfold iblk2
  rw [View.read_apply]
  show V c main_arg11 _ = V c main_arg11 y
  congr 1
  funext a
  apply Fin.ext
  match a with
  | ⟨0, _⟩ => show win2_3.index t 0 * 1 + 1 * (y 0).val = (y 0).val; rw [e0]; omega
  | ⟨1, _⟩ => show win2_3.index t 1 * 64 + 1 * (y 1).val = (y 1).val; rw [e1]; omega

/-- The second-layer bias's block is the whole 1 × 1 array. -/
theorem b2_block_eq (c : Dev nD) (t : Fin cfg2.N) :
    (iblk2 V c 4 t : Vec Ideal S1x1 .f32) = (V c main_v69 : Vec Ideal S1x1 .f32) := by
  obtain ⟨-, -, -, -, -, -, -, -, e0, e1, -⟩ := edge_index_maps t
  funext y
  unfold iblk2
  rw [View.read_apply]
  show V c main_v69 _ = V c main_v69 y
  congr 1
  funext a
  apply Fin.ext
  match a with
  | ⟨0, _⟩ => show win2_4.index t 0 * 1 + 1 * (y 0).val = (y 0).val; rw [e0]; omega
  | ⟨1, _⟩ => show win2_4.index t 1 * 1 + 1 * (y 1).val = (y 1).val; rw [e1]; omega

/-! ## One block of the result is the matching rows of the edge network -/

/-- If row (j 0) of a 12000-row block is row (i 0) of the embedding, the body's stored value at j is the edge
    network's output at i: both are the second layer's sum over the rectified hidden units of that row, plus the
    1 × 1 bias. -/
theorem edge_block_entry (x0 : Vec Ideal S12000x129 .f32) (emb : Vec Ideal S1800000x129 .f32) (w1 : Vec Ideal S64x129 .f32)
    (b1 w2 : Vec Ideal S1x64 .f32) (b2 : Vec Ideal S1x1 .f32) (j : S12000x1.Idx) (i : S1800000x1.Idx)
    (hrow : ∀ k : Fin 129, x0 (ix2 (j 0) k) = emb (ix2 (i 0) k)) :
    k2_pay1 (F := Ideal) x0 w1 b1 w2 b2 j = Cert.Spec.edgeNet emb w1 b1 w2 b2 i := by
  obtain ⟨p, z, rfl⟩ : ∃ (p : Fin 12000) (z : Fin 1), j = ix2 p z := ⟨j 0, j 1, eq_ix2 j⟩
  obtain ⟨e, z', rfl⟩ : ∃ (e : Fin 1800000) (z' : Fin 1), i = ix2 e z' := ⟨i 0, i 1, eq_ix2 i⟩
  have hrow' : ∀ k : Fin 129, x0 (ix2 p k) = emb (ix2 e k) := hrow
  rw [k2_pay1_apply, Cert.Spec.edgeNet_apply]
  unfold Cert.Spec.edgeAt Cert.Spec.hiddenAt
  simp only [hrow']

/-- The edge network of the arrays the region is entered with. -/
abbrev edgeOf (c : Dev nD) : Vec Ideal S1800000x1 .f32 :=
  Cert.Spec.edgeNet (V c main_v67 : Vec Ideal S1800000x129 .f32) (V c main_arg9 : Vec Ideal S64x129 .f32)
    (V c main_v68 : Vec Ideal S1x64 .f32) (V c main_arg11 : Vec Ideal S1x64 .f32) (V c main_v69 : Vec Ideal S1x1 .f32)

/-- What point t writes back is rows 12000 t … 12000 t + 11999 of the edge network's output. -/
theorem flushed2_eq (c : Dev nD) (t : Fin cfg2.N) :
    (dat2 (F := Ideal) V c).flushed 5 t = ((cfg2.win 5).blk t).view.read (Elt Ideal) (edgeOf V c) := by
  show (cfg2.win 5).cut (grid2.coords t) ((dat2 V c).after 5 t) = _
  rw [after2_5]
  unfold out2_5
  rw [View.canon_unit_zero origin2]
  simp only [View.ld_unit_zero (S := S12000x129) origin2, View.ld_unit_zero (S := S64x129) origin2,
    View.ld_unit_zero (S := S1x64) origin2, View.ld_unit_zero (S := S1x1) origin2]
  rw [w1_block_eq, b1_block_eq, w2_block_eq, b2_block_eq]
  obtain ⟨-, -, -, -, -, -, -, -, -, -, e0, e1⟩ := edge_index_maps t
  funext j
  show k2_pay1 (F := Ideal) (iblk2 V c 0 t) (V c main_arg9) (V c main_v68) (V c main_arg11) (V c main_v69) j
    = Cert.Spec.edgeNet _ _ _ _ _ (((cfg2.win 5).blk t).view.emb j)
  refine edge_block_entry _ _ _ _ _ _ j _ fun k => embedding_block_apply V c t _ _ ?_ ?_
  · show win2_5.index t (0 : Fin 2) * 12000 + 1 * (j 0).val = 12000 * t.val + (j 0).val
    rw [e0]; omega
  · rfl

/-! ## The blocks tile the result -/

/-- An index of the result is in point t's block iff each coordinate is in the block's range on its axis. -/
theorem mem_edge_block (t : Fin cfg2.N) (i : S1800000x1.Idx) :
    i ∈ ((cfg2.win 5).blk t).view.set ↔ ∀ a : Fin 2, win2_5.index t a * S12000x1.size a ≤ (i a).val ∧ (i a).val < win2_5.index t a * S12000x1.size a + S12000x1.size a := by
  show i ∈ ((View.whole main_v70).slice (win2_5.rect t)).set ↔ _
  rw [View.set_slice_whole, Rect.mem_set_unit]
  exact Iff.rfl

/-- Row r of the result lies in the block of point r / 12000, and every point writes its block back. -/
theorem edge_blocks_cover (i : S1800000x1.Idx) :
    ∃ t : Fin cfg2.N, (cfg2.win 5).flush t = true ∧ i ∈ ((cfg2.win 5).blk t).view.set := by
  have hi0 : (i 0).val < 1800000 := (i 0).isLt
  have hi1 : (i 1).val < 1 := (i 1).isLt
  have hN : cfg2.N = 150 := N_2
  let t : Fin cfg2.N := ⟨(i 0).val / 12000, by rw [hN]; omega⟩
  have ht : t.val = (i 0).val / 12000 := rfl
  obtain ⟨-, -, -, -, -, -, -, -, -, -, e0, e1⟩ := edge_index_maps t
  refine ⟨t, flush2_5 t, ?_⟩
  rw [mem_edge_block]
  intro a
  match a with
  | ⟨0, _⟩ => show win2_5.index t (0 : Fin 2) * 12000 ≤ (i 0).val ∧ (i 0).val < win2_5.index t (0 : Fin 2) * 12000 + 12000; rw [e0, ht]; omega
  | ⟨1, _⟩ => show win2_5.index t (1 : Fin 2) * 1 ≤ (i 1).val ∧ (i 1).val < win2_5.index t (1 : Fin 2) * 1 + 1; rw [e1]; omega

/-! ## The result array after the launch -/

/-- After the 150 points the result array holds the edge network's output of the arrays the launch was entered
    with. -/
theorem final2 (c : Dev nD) : (dat2 (F := Ideal) V c).arrAt 5 cfg2.N
    = Cert.Spec.edgeNet (V c main_v67 : Vec Ideal S1800000x129 .f32) (V c main_arg9 : Vec Ideal S64x129 .f32)
        (V c main_v68 : Vec Ideal S1x64 .f32) (V c main_arg11 : Vec Ideal S1x64 .f32) (V c main_v69 : Vec Ideal S1x1 .f32) :=
  (dat2 (F := Ideal) V c).arrAt_eq_of_cover 5 (edgeOf V c) (fun t _ => flushed2_eq V c t) edge_blocks_cover

end Cert.KernelIdeal.Hand

end
-- ==== Proof.LibClamp.lean ====
/-
  The start index of a host gather, read as the operation reads it: the word taken as a signed integer and clamped
  into the table's rows 0 … N − 1 (a negative index reads row 0, one past the end reads the last row).
-/
import Mathlib.Data.BitVec
import Mathlib.Order.Basic

namespace Cert.LibClamp

/-- A word read signed and clamped into the rows 0 … N − 1 of a table with at least one row. -/
def clampTo {w : Nat} (N : Nat) (hN : 0 < N) (v : BitVec w) : Fin N := ⟨min v.toInt.toNat (N - 1), by omega⟩

end Cert.LibClamp
-- ==== Proof.LibGatherScatter.lean ====
/-
  The host's row gather and accumulating row scatter, read at one element, for abstract dimension records whose
  printed fields are given as hypotheses. A row gather over an [N × C] table with an [n × 1] column of start indices
  reads, at (e, j), the table's row named by the e-th index — taken as a signed integer and clamped into the rows
  0 … N − 1 — at column j. The accumulating row scatter adds, into element (c, j), column j of every update row
  whose index, taken signed and NOT clamped, is exactly c; an index that is negative or at least N adds nowhere. The
  same two readings are given for a rank-1 table.
-/
import Idealize.ShloMosaic.PureOps.Ideal
import Idealize.ShloMosaic.PureOps.Ideal.Laws
import Idealize.ShloMosaic.Lib.ValueIdx
import Idealize.ShloMosaic.Lib.StableHlo.Predicate
import proofs.«416973_j1090921693652_1_alg».proof.Proof.LibClamp

open scoped BigOperators

namespace Cert.LibGatherScatter

open Idealize.ShloMosaic Idealize.ShloMosaic.ValueIdx Idealize.ShloMosaic.StableHlo.Predicate
open Cert.LibClamp

/-! ## Where an update lands -/

/-- An update index lands at operand index `i` exactly when, on every operand axis, the window's start (read signed,
    not clamped) plus the window coordinate is `i`'s coordinate: inside the operand by being a coordinate of it. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

/-- The accumulating row scatter's dimension numbers, read at update index `(e, j')`: on the operand's row axis the
    window starts at the `e`-th scatter index and has no extent; on the column axis it starts at `0` and the update's
    column is the window coordinate. -/
theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

/-- Update `(e, j')` of the row scatter lands at operand element `(c, j)` exactly when it is in column `j` and the
    `e`-th scatter index, read signed, is the row `c`: a negative index, or one past the last row, lands nowhere. -/
theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-! ## The accumulating row scatter at an element -/

/-- THE ROW SCATTER READ AT `(c, j)`. The accumulation of update rows into the rows of an [N × C] table, the scatter indices an
    [n × 1] column: element `(c, j)` is the operand's plus the sum of column `j` of the update rows `e` whose scatter
    index, read SIGNED and NOT clamped, is `c`. A row whose index is negative or at least `N` adds nowhere. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

/-! ## The row gather at an element -/

/-- The row gather's dimension numbers, read at result index `(e, j)`: the operand's row is the `e`-th start index read
    signed and clamped into `0 … N − 1` (the slice is one row high), its column is `j` (the slice starts at column 0,
    and the result's second axis is the offset along it). -/
theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- THE ROW GATHER READ AT `(e, j)`: the table's row named by the `e`-th start index, read SIGNED and CLAMPED into the rows
    `0 … N − 1` (a negative index reads row 0, one past the end reads the last row), at column `j`. -/
theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

/-! ## The accumulating scatter into a rank-1 table at an element -/

/-- The rank-1 scatter's dimension numbers, read at update index `e`: on the operand's one axis the window starts at
    the `e`-th scatter index and has no extent. -/
theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

/-- Update `e` of the rank-1 scatter lands at operand element `q` exactly when the `e`-th scatter index, read signed, is
    `q`: a negative index, or one past the last entry, lands nowhere. -/
theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- THE RANK-1 SCATTER READ AT `q`. The accumulation of scalar updates into a table of `G` entries, the scatter indices an
    [n × 1] column: entry `q` is the operand's plus the sum of the updates `e` whose scatter index, read SIGNED and NOT
    clamped, is `q`. An update whose index is negative or at least `G` adds nowhere. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

/-! ## The rank-1 gather at an element -/

/-- A rank-1 index built from its coordinate is the same index however it is written. -/
theorem ofFin_eq_ix1 {n : Nat} (k : Fin n) : (Shape.Idx.ofFin k : (⟨1, ![n]⟩ : Shape).Idx) = ix1 k := by
  funext a
  match a with
  | ⟨0, _⟩ => rfl

/-- THE RANK-1 GATHER READ AT `e`: the table's entry named by the `e`-th start index, read SIGNED and CLAMPED into the
    positions `0 … N − 1` (a negative index reads entry 0, one past the end reads the last). -/
theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.NodeGather.lean ====
/-
  Two ways of fetching node rows for the 1800000 augmented edges of a graph on n = 100000 nodes.

  The augmented edge list is the 2 × 1800000 array of 32-bit words whose first 1600000 columns are the edge list's,
  whose next 100000 columns are (p, p + n) and whose last 100000 columns are (p, p + 2n), p the node's number.
  One program fetches, for each column, row w(source) and row w(target mod n) of a 100000 × 64 table, w(v) = v + n
  for a negative v and v otherwise, "mod" the remainder that takes the divisor's sign. The other stacks three copies
  of the table on top of each other and fetches rows w'(source) and w'(target) of the stack, w'(v) = v + 3n for a
  negative v. Each fetch reads its start index signed and clamps it into the table's rows.

  When every word of the edge list, read signed, lies in 0 … n − 1, the two fetch the same rows: a source lies in
  0 … n − 1, so nothing wraps or clamps and row v of the stack is row v of the table; a target lies in 0 … 3n − 1,
  and row v of the stack is row v mod n of the table, which is the row the first program's remainder names.
-/
import Idealize.ShloMosaic.PureOps.Ideal
import Idealize.ShloMosaic.Lib.ValueIdx
import Idealize.ShloMosaic.Lib.Affine
import Idealize.ShloMosaic.Lib.StableHlo.Predicate
import Idealize.ShloMosaic.Lib.Pipeline.Value
import proofs.«416973_j1090921693652_1_alg».proof.KernelIdeal
import proofs.«416973_j1090921693652_1_alg».proof.ReferenceIdeal
import proofs.«416973_j1090921693652_1_alg».proof.Proof.LibClamp
import proofs.«416973_j1090921693652_1_alg».proof.Proof.LibGatherScatter

noncomputable section

namespace Cert.NodeGather

open Idealize.ShloMosaic Idealize.ShloMosaic.ValueIdx Idealize.ShloMosaic.StableHlo.Predicate
open Cert.LibClamp Cert.LibGatherScatter

/-! ## The shape relations the first program's index arithmetic cites -/

namespace KFacts
open Cert.KernelIdeal
theorem bcast_S_S100000 : S_.BroadcastsInDim S100000 (![] : Fin 0 → Fin S100000.rank) := by decide
theorem bcast_S100000_S1x100000_1 : S100000.BroadcastsInDim S1x100000 (![1] : Fin 1 → Fin S1x100000.rank) := by decide
theorem concatenates_S1x100000_S1x100000_S2x100000_d0 : Shape.Concatenates [S1x100000, S1x100000] S2x100000 0 := by decide
theorem concatenates_S2x1600000_S2x100000_S2x100000_S2x1800000_d1 :
    Shape.Concatenates [S2x1600000, S2x100000, S2x100000] S2x1800000 1 := by decide
theorem slices_S2x1800000_S1x1800000_0_0 : S2x1800000.Slices ![0, 0] S1x1800000 := by decide
theorem slices_S2x1800000_S1x1800000_1_0 : S2x1800000.Slices ![1, 0] S1x1800000 := by decide
theorem shapeCasts_S1x1800000_S1800000 : S1x1800000.ShapeCasts S1800000 := by decide
theorem bcast_S_S1800000 : S_.BroadcastsInDim S1800000 (![] : Fin 0 → Fin S1800000.rank) := by decide
theorem bcast_S1800000_S1800000x1_0 : S1800000.BroadcastsInDim S1800000x1 (![0] : Fin 1 → Fin S1800000x1.rank) := by decide
end KFacts

/-! ## The shape relations the second program's index arithmetic cites -/

namespace RFacts
open Cert.ReferenceIdeal
theorem bcast_S_S100000 : S_.BroadcastsInDim S100000 (![] : Fin 0 → Fin S100000.rank) := by decide
theorem bcast_S100000_S1x100000_1 : S100000.BroadcastsInDim S1x100000 (![1] : Fin 1 → Fin S1x100000.rank) := by decide
theorem concatenates_S1x100000_S1x100000_S2x100000_d0 : Shape.Concatenates [S1x100000, S1x100000] S2x100000 0 := by decide
theorem concatenates_S2x1600000_S2x100000_S2x100000_S2x1800000_d1 :
    Shape.Concatenates [S2x1600000, S2x100000, S2x100000] S2x1800000 1 := by decide
theorem slices_S2x1800000_S1x1800000_0_0 : S2x1800000.Slices ![0, 0] S1x1800000 := by decide
theorem slices_S2x1800000_S1x1800000_1_0 : S2x1800000.Slices ![1, 0] S1x1800000 := by decide
theorem shapeCasts_S1x1800000_S1800000 : S1x1800000.ShapeCasts S1800000 := by decide
theorem bcast_S_S1800000 : S_.BroadcastsInDim S1800000 (![] : Fin 0 → Fin S1800000.rank) := by decide
theorem bcast_S1800000_S1800000x1_0 : S1800000.BroadcastsInDim S1800000x1 (![0] : Fin 1 → Fin S1800000x1.rank) := by decide
theorem concatenates_S100000x64_S100000x64_S100000x64_S300000x64_d0 :
    Shape.Concatenates [S100000x64, S100000x64, S100000x64] S300000x64 0 := by decide
end RFacts

/-! ## The two programs' index arithmetic, as terms of the edge list -/

section
open Cert.KernelIdeal

/-- The two rows of a block of self-loops: row 0 holds the node's number p, row 1 holds p + c. -/
def selfLoops_K (c : BitVec 32) : IVec S2x100000 32 :=
  concatenate S2x100000 0
    [⟨S1x100000, broadcastInDim S1x100000 ![1] KFacts.bcast_S100000_S1x100000_1 (iotaInDim S100000 32 0)⟩,
     ⟨S1x100000, broadcastInDim S1x100000 ![1] KFacts.bcast_S100000_S1x100000_1
        (addi (iotaInDim S100000 32 0) (broadcastInDim S100000 ![] KFacts.bcast_S_S100000 (constantI S_ 32 c)))⟩]
    KFacts.concatenates_S1x100000_S1x100000_S2x100000_d0

/-- The augmented edge list: the edge list, then the self-loops (p, p + n), then the self-loops (p, p + 2n). -/
def augmented_K (ei : IVec S2x1600000 32) : IVec S2x1800000 32 :=
  concatenate S2x1800000 1
    [⟨S2x1600000, ei⟩, ⟨S2x100000, selfLoops_K 100000#32⟩, ⟨S2x100000, selfLoops_K 200000#32⟩]
    KFacts.concatenates_S2x1600000_S2x100000_S2x100000_S2x1800000_d1

/-- Row 0 of the augmented edge list (the sources) as a vector. -/
def sources_K (ei : IVec S2x1600000 32) : IVec S1800000 32 :=
  shapeCast S1800000 (extractStridedSlice S1x1800000 ![0, 0] (augmented_K ei) KFacts.slices_S2x1800000_S1x1800000_0_0)
    KFacts.shapeCasts_S1x1800000_S1800000

/-- Row 1 of the augmented edge list (the targets) as a vector. -/
def targets_K (ei : IVec S2x1600000 32) : IVec S1800000 32 :=
  shapeCast S1800000 (extractStridedSlice S1x1800000 ![1, 0] (augmented_K ei) KFacts.slices_S2x1800000_S1x1800000_1_0)
    KFacts.shapeCasts_S1x1800000_S1800000

/-- A negative index counts from the end of a table of c rows: v + c where v is negative, v otherwise. -/
def wrap_K (c : BitVec 32) (v : IVec S1800000 32) : IVec S1800000 32 :=
  select (cmpi .slt v (broadcastInDim S1800000 ![] KFacts.bcast_S_S1800000 (constantI S_ 32 0#32)))
    (addi v (broadcastInDim S1800000 ![] KFacts.bcast_S_S1800000 (constantI S_ 32 c))) v

/-- A vector of indices as the one-column array a row gather takes. -/
def column_K (v : IVec S1800000 32) : IVec S1800000x1 32 :=
  broadcastInDim S1800000x1 ![0] KFacts.bcast_S1800000_S1800000x1_0 v
end

section
open Cert.ReferenceIdeal

/-- The two rows of a block of self-loops: row 0 holds the node's number p, row 1 holds p + c. -/
def selfLoops_R (c : BitVec 32) : IVec S2x100000 32 :=
  concatenate S2x100000 0
    [⟨S1x100000, broadcastInDim S1x100000 ![1] RFacts.bcast_S100000_S1x100000_1 (iotaInDim S100000 32 0)⟩,
     ⟨S1x100000, broadcastInDim S1x100000 ![1] RFacts.bcast_S100000_S1x100000_1
        (addi (iotaInDim S100000 32 0) (broadcastInDim S100000 ![] RFacts.bcast_S_S100000 (constantI S_ 32 c)))⟩]
    RFacts.concatenates_S1x100000_S1x100000_S2x100000_d0

/-- The augmented edge list: the edge list, then the self-loops (p, p + n), then the self-loops (p, p + 2n). -/
def augmented_R (ei : IVec S2x1600000 32) : IVec S2x1800000 32 :=
  concatenate S2x1800000 1
    [⟨S2x1600000, ei⟩, ⟨S2x100000, selfLoops_R 100000#32⟩, ⟨S2x100000, selfLoops_R 200000#32⟩]
    RFacts.concatenates_S2x1600000_S2x100000_S2x100000_S2x1800000_d1

/-- Row 0 of the augmented edge list (the sources) as a vector. -/
def sources_R (ei : IVec S2x1600000 32) : IVec S1800000 32 :=
  shapeCast S1800000 (extractStridedSlice S1x1800000 ![0, 0] (augmented_R ei) RFacts.slices_S2x1800000_S1x1800000_0_0)
    RFacts.shapeCasts_S1x1800000_S1800000

/-- Row 1 of the augmented edge list (the targets) as a vector. -/
def targets_R (ei : IVec S2x1600000 32) : IVec S1800000 32 :=
  shapeCast S1800000 (extractStridedSlice S1x1800000 ![1, 0] (augmented_R ei) RFacts.slices_S2x1800000_S1x1800000_1_0)
    RFacts.shapeCasts_S1x1800000_S1800000

/-- A negative index counts from the end of a table of c rows: v + c where v is negative, v otherwise. -/
def wrap_R (c : BitVec 32) (v : IVec S1800000 32) : IVec S1800000 32 :=
  select (cmpi .slt v (broadcastInDim S1800000 ![] RFacts.bcast_S_S1800000 (constantI S_ 32 0#32)))
    (addi v (broadcastInDim S1800000 ![] RFacts.bcast_S_S1800000 (constantI S_ 32 c))) v

/-- A vector of indices as the one-column array a row gather takes. -/
def column_R (v : IVec S1800000 32) : IVec S1800000x1 32 :=
  broadcastInDim S1800000x1 ![0] RFacts.bcast_S1800000_S1800000x1_0 v
end

section
open Cert.KernelIdeal

/-- The divisor the floor-style remainder divides by: 1 in place of a zero divisor, the divisor otherwise. -/
def divisor_K (n : IVec S_ 32) : IVec S_ 32 :=
  select (cmpi .eq (id n) (constantI S_ 32 0#32)) (constantI S_ 32 1#32) (id n)

/-- The truncated remainder (it takes the dividend's sign) of each word by the divisor. -/
def truncRem_K (x : IVec S1800000 32) (n : IVec S_ 32) : IVec S1800000 32 :=
  Host.remsi x (broadcastInDim S1800000 ![] KFacts.bcast_S_S1800000 (divisor_K n))

/-- The floor-style remainder (it takes the divisor's sign): the truncated remainder, plus the divisor where that
    remainder is nonzero and its sign differs from the divisor's. -/
def floorRem_K (x : IVec S1800000 32) (n : IVec S_ 32) : IVec S1800000 32 :=
  select
    (andi
      (cmpi .ne
        (cmpi .slt (truncRem_K x n) (broadcastInDim S1800000 ![] KFacts.bcast_S_S1800000 (constantI S_ 32 0#32)))
        (broadcastInDim S1800000 ![] KFacts.bcast_S_S1800000 (cmpi .slt (divisor_K n) (constantI S_ 32 0#32))))
      (cmpi .ne (truncRem_K x n) (broadcastInDim S1800000 ![] KFacts.bcast_S_S1800000 (constantI S_ 32 0#32))))
    (addi (truncRem_K x n) (broadcastInDim S1800000 ![] KFacts.bcast_S_S1800000 (divisor_K n)))
    (truncRem_K x n)

/-- The first program's start indices for the sources: the source, wrapped into a table of n rows. -/
def idxI_K (ei : IVec S2x1600000 32) : IVec S1800000x1 32 :=
  column_K (wrap_K 100000#32 (sources_K ei))

/-- The first program's start indices for the targets: the target's floor-style remainder by n, wrapped into a table
    of n rows. -/
def idxJ_K (ei : IVec S2x1600000 32) : IVec S1800000x1 32 :=
  column_K (wrap_K 100000#32 (floorRem_K (targets_K ei) (constantI S_ 32 100000#32)))
end

section
open Cert.ReferenceIdeal

/-- The second program's start indices for the sources: the source, wrapped into a table of 3n rows. -/
def idxI_R (ei : IVec S2x1600000 32) : IVec S1800000x1 32 :=
  column_R (wrap_R 300000#32 (sources_R ei))

/-- The second program's start indices for the targets: the target, wrapped into a table of 3n rows. -/
def idxJ_R (ei : IVec S2x1600000 32) : IVec S1800000x1 32 :=
  column_R (wrap_R 300000#32 (targets_R ei))

/-- Three copies of the node table on top of each other. -/
def stack3 (h : FVec Ideal S100000x64 .f32) : FVec Ideal S300000x64 .f32 :=
  concatenate S300000x64 0 [⟨S100000x64, h⟩, ⟨S100000x64, h⟩, ⟨S100000x64, h⟩]
    RFacts.concatenates_S100000x64_S100000x64_S100000x64_S300000x64_d0
end

/-- Every word of the edge list, read signed, names a node. -/
def InRange (ei : IVec Cert.KernelIdeal.S2x1600000 32) : Prop :=
  ∀ i, 0 ≤ (ei i).toInt ∧ (ei i).toInt < 100000

/-! ## One 32-bit word: the wrap and the floor-style remainder of a word that is not negative -/

/-- A word whose signed value is not negative reads the same signed and unsigned. -/
theorem toInt_eq_toNat_of_nonneg {x : BitVec 32} (h : 0 ≤ x.toInt) : x.toInt = (x.toNat : ℤ) := by
  have hlt := x.isLt
  rw [BitVec.toInt_eq_toNat_cond] at h ⊢
  split at h
  · next hc => rw [if_pos hc]
  · exfalso; omega

/-- Such a word is below 2³¹. -/
theorem toNat_lt_of_nonneg {x : BitVec 32} (h : 0 ≤ x.toInt) : x.toNat < 2 ^ 31 := by
  have hlt := x.isLt
  rw [BitVec.toInt_eq_toNat_cond] at h
  split at h
  · omega
  · exfalso; omega

/-- The sum of two small words does not wrap: its value is the sum of the values. -/
theorem toNat_ofNat_add (p c : Nat) (h : p + c < 2 ^ 32) : (IntOp.addi (BitVec.ofNat 32 p) (BitVec.ofNat 32 c)).toNat = p + c := by
  unfold IntOp.addi
  rw [BitVec.toNat_add, BitVec.toNat_ofNat, BitVec.toNat_ofNat]
  omega

/-- The wrap of one word into a table of c rows. -/
def wrapW (c v : BitVec 32) : BitVec 32 := Scalar.select (IntOp.cmpi .slt v 0#32) (IntOp.addi v c) v

/-- A word that is not negative is not wrapped. -/
theorem wrapW_of_small (c : BitVec 32) {v : BitVec 32} (h : v.toNat < 2 ^ 31) : wrapW c v = v := by
  have hn : ¬ IntOp.cmpi .slt v 0#32 = 1#1 := by
    rw [IntOp.cmpi_slt, toInt_eq_toNat_of_lt h]
    show ¬ ((v.toNat : ℤ) < 0)
    omega
  unfold wrapW
  rw [eq_zero_of_ne_one hn, select_zero]

/-- The divisor of one floor-style remainder. -/
def divisorW (n : BitVec 32) : BitVec 32 := Scalar.select (IntOp.cmpi .eq n 0#32) 1#32 n

/-- The truncated remainder of one word. -/
def truncRemW (x n : BitVec 32) : BitVec 32 := IntOp.remsi .host x (divisorW n)

/-- The floor-style remainder of one word. -/
def floorRemW (x n : BitVec 32) : BitVec 32 :=
  Scalar.select
    (IntOp.andi (IntOp.cmpi .ne (IntOp.cmpi .slt (truncRemW x n) 0#32) (IntOp.cmpi .slt (divisorW n) 0#32))
      (IntOp.cmpi .ne (truncRemW x n) 0#32))
    (IntOp.addi (truncRemW x n) (divisorW n)) (truncRemW x n)

/-- The truncated remainder of a word that is not negative by n = 100000 is the remainder of its value. -/
theorem toNat_truncRemW {x : BitVec 32} (h : x.toNat < 2 ^ 31) : (truncRemW x 100000#32).toNat = x.toNat % 100000 := by
  have hd : divisorW 100000#32 = BitVec.ofNat 32 100000 := by decide
  unfold truncRemW
  rw [hd]
  exact IntOp.toNat_remsi .host (by omega) 100000 (by omega) (by omega)

/-- For such a word the floor-style remainder is the truncated one: both signs are the divisor's. -/
theorem floorRemW_of_small {x : BitVec 32} (h : x.toNat < 2 ^ 31) : floorRemW x 100000#32 = truncRemW x 100000#32 := by
  have hr := toNat_truncRemW h
  have hrlt : (truncRemW x 100000#32).toNat < 2 ^ 31 := by
    rw [hr]; have := Nat.mod_lt x.toNat (show 0 < 100000 by omega); omega
  have h1 : IntOp.cmpi .slt (truncRemW x 100000#32) 0#32 = 0#1 := by
    apply eq_zero_of_ne_one
    rw [IntOp.cmpi_slt, toInt_eq_toNat_of_lt hrlt]
    show ¬ (((truncRemW x 100000#32).toNat : ℤ) < 0)
    omega
  have h2 : IntOp.cmpi .slt (divisorW 100000#32) 0#32 = 0#1 := by decide
  have h3 : ∀ c : BitVec 1, IntOp.andi (IntOp.cmpi .ne (0#1 : BitVec 1) 0#1) c = 0#1 := by decide
  unfold floorRemW
  rw [h1, h2, h3, select_zero]

/-- So its value is the remainder of the word's value by n. -/
theorem toNat_floorRemW {x : BitVec 32} (h : x.toNat < 2 ^ 31) : (floorRemW x 100000#32).toNat = x.toNat % 100000 := by
  rw [floorRemW_of_small h, toNat_truncRemW h]

/-! ## The augmented edge list read at one entry -/

section
open Cert.KernelIdeal

/-- Row 0 of a block of self-loops holds the node's number. -/
theorem selfLoops_K_row0 (c : BitVec 32) (p : Fin 100000) :
    selfLoops_K c (ix2 (0 : Fin 2) p) = BitVec.ofNat 32 p.val := by
  unfold selfLoops_K
  refine (concatenate_apply_piece (t := S2x100000) 0 _ _ (ix2 (0 : Fin 2) p) 0 (by simp) S1x100000 _ rfl rfl 0 rfl (i1q p)
    ?_ ?_).trans ?_
  · intro b hb
    match b with
    | ⟨0, _⟩ => exact absurd rfl hb
    | ⟨1, _⟩ => rfl
  · rfl
  · rw [bcast_row1]; rfl

/-- Row 1 of a block of self-loops holds the node's number plus the block's offset. -/
theorem selfLoops_K_row1 (c : BitVec 32) (p : Fin 100000) :
    selfLoops_K c (ix2 (1 : Fin 2) p) = IntOp.addi (BitVec.ofNat 32 p.val) c := by
  unfold selfLoops_K
  refine (concatenate_apply_piece (t := S2x100000) 0 _ _ (ix2 (1 : Fin 2) p) 1 (by simp) S1x100000 _ rfl rfl 1 rfl (i1q p)
    ?_ ?_).trans ?_
  · intro b hb
    match b with
    | ⟨0, _⟩ => exact absurd rfl hb
    | ⟨1, _⟩ => rfl
  · rfl
  · rw [bcast_row1]; rfl

/-- The first 1600000 columns of the augmented edge list are the edge list's. -/
theorem augmented_K_edge (ei : IVec S2x1600000 32) (r : Fin 2) (e : Fin 1800000) (he : e.val < 1600000) :
    augmented_K ei (ix2 r e) = ei (ix2 r ⟨e.val, he⟩) := by
  unfold augmented_K
  refine concatenate_apply_piece (t := S2x1800000) 1 _ _ (ix2 r e) 0 (by simp) S2x1600000 ei rfl rfl 0 rfl (ix2 r ⟨e.val, he⟩)
    ?_ ?_
  · intro b hb
    match b with
    | ⟨0, _⟩ => rfl
    | ⟨1, _⟩ => exact absurd rfl hb
  · show 0 + e.val = e.val; omega

/-- The next 100000 columns are the self-loops with offset n. -/
theorem augmented_K_loops1 (ei : IVec S2x1600000 32) (r : Fin 2) (e : Fin 1800000) (h1 : 1600000 ≤ e.val) (h2 : e.val < 1700000) :
    augmented_K ei (ix2 r e) = selfLoops_K 100000#32 (ix2 r ⟨e.val - 1600000, by omega⟩) := by
  unfold augmented_K
  refine concatenate_apply_piece (t := S2x1800000) 1 _ _ (ix2 r e) 1 (by simp) S2x100000 (selfLoops_K 100000#32) rfl rfl 1600000 rfl
    (ix2 r ⟨e.val - 1600000, by omega⟩) ?_ ?_
  · intro b hb
    match b with
    | ⟨0, _⟩ => rfl
    | ⟨1, _⟩ => exact absurd rfl hb
  · show 1600000 + (e.val - 1600000) = e.val; omega

/-- The last 100000 columns are the self-loops with offset 2n. -/
theorem augmented_K_loops2 (ei : IVec S2x1600000 32) (r : Fin 2) (e : Fin 1800000) (h1 : 1700000 ≤ e.val) :
    augmented_K ei (ix2 r e) = selfLoops_K 200000#32 (ix2 r ⟨e.val - 1700000, by have := e.isLt; omega⟩) := by
  unfold augmented_K
  refine concatenate_apply_piece (t := S2x1800000) 1 _ _ (ix2 r e) 2 (by simp) S2x100000 (selfLoops_K 200000#32) rfl rfl 1700000 rfl
    (ix2 r ⟨e.val - 1700000, by have := e.isLt; omega⟩) ?_ ?_
  · intro b hb
    match b with
    | ⟨0, _⟩ => rfl
    | ⟨1, _⟩ => exact absurd rfl hb
  · show 1700000 + (e.val - 1700000) = e.val; omega

/-- The vector of sources at e is the augmented edge list at (0, e). -/
theorem sources_K_apply (ei : IVec S2x1600000 32) (e : Fin 1800000) :
    sources_K ei (ix1 e) = augmented_K ei (ix2 (0 : Fin 2) e) := by
  unfold sources_K
  refine (shapeCast_apply _ _ (ix1 e) (i1q e) ?_).trans ?_
  · rw [Shape.rowMajor_val_two, Shape.rowMajor_val_one]
    show 0 * 1800000 + e.val = e.val
    omega
  · refine extractStridedSlice_apply _ _ _ (i1q e) (ix2 (0 : Fin 2) e) ?_
    intro a
    match a with
    | ⟨0, _⟩ => rfl
    | ⟨1, _⟩ => show e.val = 0 + e.val; omega

/-- The vector of targets at e is the augmented edge list at (1, e). -/
theorem targets_K_apply (ei : IVec S2x1600000 32) (e : Fin 1800000) :
    targets_K ei (ix1 e) = augmented_K ei (ix2 (1 : Fin 2) e) := by
  unfold targets_K
  refine (shapeCast_apply _ _ (ix1 e) (i1q e) ?_).trans ?_
  · rw [Shape.rowMajor_val_two, Shape.rowMajor_val_one]
    show 0 * 1800000 + e.val = e.val
    omega
  · refine extractStridedSlice_apply _ _ _ (i1q e) (ix2 (1 : Fin 2) e) ?_
    intro a
    match a with
    | ⟨0, _⟩ => rfl
    | ⟨1, _⟩ => show e.val = 0 + e.val; omega

/-- The column of indices at (e, 0) is the vector at e. -/
theorem column_K_apply (v : IVec S1800000 32) (e : Fin 1800000) : column_K v (ixP e) = v (ix1 e) := by
  unfold column_K
  rw [bcast_col1, ofFin_eq_ix1]

/-- The wrap at an index is the wrap of the word there. -/
theorem wrap_K_apply (c : BitVec 32) (v : IVec S1800000 32) (j : S1800000.Idx) : wrap_K c v j = wrapW c (v j) := rfl

/-- The floor-style remainder by a constant at an index is the floor-style remainder of the word there. -/
theorem floorRem_K_apply (x : IVec S1800000 32) (c : BitVec 32) (j : S1800000.Idx) :
    floorRem_K x (constantI S_ 32 c) j = floorRemW (x j) c := rfl
end

/-! ## The second program's index arithmetic is the first's, entry by entry -/

section
open Cert.ReferenceIdeal

/-- Both programs build the same augmented edge list. -/
theorem augmented_R_eq (ei : IVec S2x1600000 32) : augmented_R ei = augmented_K ei := rfl
/-- So their vectors of sources agree. -/
theorem sources_R_eq (ei : IVec S2x1600000 32) : sources_R ei = sources_K ei := rfl
/-- And their vectors of targets. -/
theorem targets_R_eq (ei : IVec S2x1600000 32) : targets_R ei = targets_K ei := rfl
/-- The column of indices at (e, 0) is the vector at e. -/
theorem column_R_apply (v : IVec S1800000 32) (e : Fin 1800000) : column_R v (ixP e) = v (ix1 e) := column_K_apply v e
/-- The wrap at an index is the wrap of the word there. -/
theorem wrap_R_apply (c : BitVec 32) (v : IVec S1800000 32) (j : S1800000.Idx) : wrap_R c v j = wrapW c (v j) := rfl
end

/-! ## Where the words of the augmented edge list lie -/

/-- Every source names a node: an edge's source by hypothesis, a self-loop's because it is the node's number. -/
theorem source_lt (ei : IVec Cert.KernelIdeal.S2x1600000 32) (hr : InRange ei) (e : Fin 1800000) :
    (augmented_K ei (ix2 (0 : Fin 2) e)).toNat < 100000 := by
  have he := e.isLt
  by_cases h1 : e.val < 1600000
  · rw [augmented_K_edge ei 0 e h1]
    obtain ⟨h0, h2⟩ := hr (ix2 (0 : Fin 2) ⟨e.val, h1⟩)
    have := toInt_eq_toNat_of_nonneg h0
    omega
  · by_cases h2 : e.val < 1700000
    · rw [augmented_K_loops1 ei 0 e (by omega) h2, selfLoops_K_row0, BitVec.toNat_ofNat]
      show (e.val - 1600000) % 2 ^ 32 < 100000
      omega
    · rw [augmented_K_loops2 ei 0 e (by omega), selfLoops_K_row0, BitVec.toNat_ofNat]
      show (e.val - 1700000) % 2 ^ 32 < 100000
      omega

/-- Every target lies in 0 … 3n − 1, and its remainder by n names the node: an edge's target by hypothesis, a
    self-loop's because it is the node's number plus n or 2n, a sum that does not wrap. -/
theorem target_lt (ei : IVec Cert.KernelIdeal.S2x1600000 32) (hr : InRange ei) (e : Fin 1800000) :
    (augmented_K ei (ix2 (1 : Fin 2) e)).toNat < 300000 := by
  have he := e.isLt
  by_cases h1 : e.val < 1600000
  · rw [augmented_K_edge ei 1 e h1]
    obtain ⟨h0, h2⟩ := hr (ix2 (1 : Fin 2) ⟨e.val, h1⟩)
    have := toInt_eq_toNat_of_nonneg h0
    omega
  · by_cases h2 : e.val < 1700000
    · rw [augmented_K_loops1 ei 1 e (by omega) h2, selfLoops_K_row1]
      show (IntOp.addi (BitVec.ofNat 32 (e.val - 1600000)) (BitVec.ofNat 32 100000)).toNat < 300000
      rw [toNat_ofNat_add _ _ (by omega)]
      omega
    · rw [augmented_K_loops2 ei 1 e (by omega), selfLoops_K_row1]
      show (IntOp.addi (BitVec.ofNat 32 (e.val - 1700000)) (BitVec.ofNat 32 200000)).toNat < 300000
      rw [toNat_ofNat_add _ _ (by omega)]
      omega

/-! ## The stack of three copies read at one entry -/

/-- Row r of the stack is row r mod n of the table. -/
theorem stack3_apply (h : FVec Ideal Cert.ReferenceIdeal.S100000x64 .f32) (r : Fin 300000) (j : Fin 64) :
    stack3 h (ix2 r j) = h (ix2 ⟨r.val % 100000, Nat.mod_lt _ (by omega)⟩ j) := by
  have hr := r.isLt
  have hi : ∀ b : Fin Cert.ReferenceIdeal.S100000x64.rank, b.cast (rfl : Cert.ReferenceIdeal.S100000x64.rank = Cert.ReferenceIdeal.S300000x64.rank) ≠ 0 →
      ((ix2 (⟨r.val % 100000, Nat.mod_lt _ (by omega)⟩ : Fin 100000) j : Cert.ReferenceIdeal.S100000x64.Idx) b).val
        = ((ix2 r j : Cert.ReferenceIdeal.S300000x64.Idx) (b.cast rfl)).val := by
    intro b hb
    match b with
    | ⟨0, _⟩ => exact absurd rfl hb
    | ⟨1, _⟩ => rfl
  unfold stack3
  by_cases h1 : r.val < 100000
  · refine concatenate_apply_piece (t := Cert.ReferenceIdeal.S300000x64) 0 _ _ (ix2 r j) 0 (by simp) Cert.ReferenceIdeal.S100000x64 h rfl rfl 0 rfl
      (ix2 ⟨r.val % 100000, Nat.mod_lt _ (by omega)⟩ j) hi ?_
    show 0 + r.val % 100000 = r.val
    omega
  · by_cases h2 : r.val < 200000
    · refine concatenate_apply_piece (t := Cert.ReferenceIdeal.S300000x64) 0 _ _ (ix2 r j) 1 (by simp) Cert.ReferenceIdeal.S100000x64 h rfl rfl 100000 rfl
        (ix2 ⟨r.val % 100000, Nat.mod_lt _ (by omega)⟩ j) hi ?_
      show 100000 + r.val % 100000 = r.val
      omega
    · refine concatenate_apply_piece (t := Cert.ReferenceIdeal.S300000x64) 0 _ _ (ix2 r j) 2 (by simp) Cert.ReferenceIdeal.S100000x64 h rfl rfl 200000 rfl
        (ix2 ⟨r.val % 100000, Nat.mod_lt _ (by omega)⟩ j) hi ?_
      show 200000 + r.val % 100000 = r.val
      omega

/-! ## The clamp of a start index that is already a row -/

/-- A word whose value is a row of the table is clamped to that row. -/
theorem clampTo_val_of_lt {N : Nat} (hN : 0 < N) {v : BitVec 32} (hv : v.toNat < N) (hN' : N ≤ 2 ^ 31) :
    (clampTo N hN v).val = v.toNat := by
  show min v.toInt.toNat (N - 1) = v.toNat
  rw [toInt_eq_toNat_of_lt (by omega)]
  show min ((v.toNat : ℤ)).toNat (N - 1) = v.toNat
  rw [Int.toNat_natCast]
  omega

/-- Two rows of the table with the same number hold the same entries. -/
theorem row_congr {α : Type} (h : (⟨2, ![100000, 64]⟩ : Shape).Idx → α) {a b : Fin 100000} (j : Fin 64) (hab : a.val = b.val) :
    h (ix2 a j) = h (ix2 b j) := by
  rw [Fin.ext hab]

/-! ## The two programs fetch the same rows -/

section
variable [Cert.KernelIdeal.Facts₀] [Cert.ReferenceIdeal.Facts₀]

/-- THE SOURCES' ROWS. A source v lies in 0 … n − 1: neither program wraps it, neither gather clamps it, and row v of
    the stack is row v of the table. -/
theorem nodeI_eq (h : FVec Ideal Cert.KernelIdeal.S100000x64 .f32) (ei : IVec Cert.KernelIdeal.S2x1600000 32) (hr : InRange ei) :
    Host.gather Cert.KernelIdeal.gather_S100000x64_S1800000x1_S1800000x64_1_0_n_n_0_1_164 h (idxI_K ei)
      = Host.gather Cert.ReferenceIdeal.gather_S300000x64_S1800000x1_S1800000x64_1_0_n_n_0_1_164 (stack3 h) (idxI_R ei) := by
  funext i
  obtain ⟨e, j, rfl⟩ : ∃ (e : Fin 1800000) (j : Fin 64), i = ix2 e j := ⟨i 0, i 1, eq_ix2 i⟩
  have hv := source_lt ei hr e
  have hK : idxI_K ei (ixP e) = augmented_K ei (ix2 (0 : Fin 2) e) := by
    unfold idxI_K
    rw [column_K_apply, wrap_K_apply, sources_K_apply, wrapW_of_small _ (by omega)]
  have hR : idxI_R ei (ixP e) = augmented_K ei (ix2 (0 : Fin 2) e) := by
    unfold idxI_R
    rw [column_R_apply, wrap_R_apply, sources_R_eq, sources_K_apply, wrapW_of_small _ (by omega)]
  rw [gather_rows_apply (N := 100000) (by omega) _ rfl rfl rfl rfl rfl h (idxI_K ei) e j,
    gather_rows_apply (N := 300000) (by omega) _ rfl rfl rfl rfl rfl (stack3 h) (idxI_R ei) e j, stack3_apply, hK, hR]
  apply row_congr
  show (clampTo 100000 _ _).val = (clampTo 300000 _ _).val % 100000
  rw [clampTo_val_of_lt _ hv (by omega), clampTo_val_of_lt _ (show _ < 300000 by omega) (by omega)]
  omega

/-- THE TARGETS' ROWS. A target v lies in 0 … 3n − 1: the first program's floor-style remainder is v mod n, which it
    neither wraps nor clamps; the second program neither wraps nor clamps v, and row v of the stack is row v mod n of
    the table. -/
theorem nodeJ_eq (h : FVec Ideal Cert.KernelIdeal.S100000x64 .f32) (ei : IVec Cert.KernelIdeal.S2x1600000 32) (hr : InRange ei) :
    Host.gather Cert.KernelIdeal.gather_S100000x64_S1800000x1_S1800000x64_1_0_n_n_0_1_164 h (idxJ_K ei)
      = Host.gather Cert.ReferenceIdeal.gather_S300000x64_S1800000x1_S1800000x64_1_0_n_n_0_1_164 (stack3 h) (idxJ_R ei) := by
  funext i
  obtain ⟨e, j, rfl⟩ : ∃ (e : Fin 1800000) (j : Fin 64), i = ix2 e j := ⟨i 0, i 1, eq_ix2 i⟩
  have hv := target_lt ei hr e
  have hrem := toNat_floorRemW (x := augmented_K ei (ix2 (1 : Fin 2) e)) (by omega)
  have hmod := Nat.mod_lt (augmented_K ei (ix2 (1 : Fin 2) e)).toNat (show 0 < 100000 by omega)
  have hK : idxJ_K ei (ixP e) = floorRemW (augmented_K ei (ix2 (1 : Fin 2) e)) 100000#32 := by
    unfold idxJ_K
    rw [column_K_apply, wrap_K_apply, floorRem_K_apply, targets_K_apply, wrapW_of_small _ (by omega)]
  have hR : idxJ_R ei (ixP e) = augmented_K ei (ix2 (1 : Fin 2) e) := by
    unfold idxJ_R
    rw [column_R_apply, wrap_R_apply, targets_R_eq, targets_K_apply, wrapW_of_small _ (by omega)]
  rw [gather_rows_apply (N := 100000) (by omega) _ rfl rfl rfl rfl rfl h (idxJ_K ei) e j,
    gather_rows_apply (N := 300000) (by omega) _ rfl rfl rfl rfl rfl (stack3 h) (idxJ_R ei) e j, stack3_apply, hK, hR]
  apply row_congr
  show (clampTo 100000 _ _).val = (clampTo 300000 _ _).val % 100000
  rw [clampTo_val_of_lt _ (show _ < 100000 by omega) (by omega), clampTo_val_of_lt _ hv (by omega), hrem]
end

end Cert.NodeGather

end
-- ==== Proof.HostRead.lean ====
import proofs.«416973_j1090921693652_1_alg».proof.Proof.Gen.KernelIdeal.Regions
import proofs.«416973_j1090921693652_1_alg».proof.Proof.RefRun
import proofs.«416973_j1090921693652_1_alg».proof.Proof.NodeGather
import Idealize.ShloMosaic.Lib.StableHlo.Run
import Idealize.ShloMosaic.Lib.Pipeline.Value
import Idealize.ShloMosaic.Lib.ValueIdx
import Idealize.ShloMosaic.Lib.ValueLayout

/-!
# What the host operations of the kernel program write

Between its three kernel regions the kernel program runs stretches of host operations. This module reads, out of the
fold of those stretches over the launch memory `m` and over what the regions leave (`outs`), the contents of every
buffer a region reads and of every result buffer: the arguments (untouched), the bias rows (a vector given a leading
unit axis), the aggregated messages of both layers (a gather along the edges' sources, a scaling by the edge weights,
a scatter-add at the edges' destinations), the augmented edge list, and the reshaped score column. Where the
reference program applies the same operations, the reading is stated as the reference's stage.
-/

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read (val_main_v15 val_main_v24 val_main_v36 val_main_v57)

variable (m : (ℓ : Loc nD τ sig) → Buf (Elt Ideal) ℓ) (outs : Gen.Outs (F := Ideal))

/-- The one-pass reading of a stretch of host operations at one buffer: each operation's result at its own buffer is
    its function of its operands' contents, at any other buffer what was there; the `k`-th of a literal family of
    operand references (a concatenation's operands) is picked out. -/
macro "host_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Matrix.cons_val]))

/-! ## A vector given a leading unit axis -/

/-- An `[a]` vector reshaped to a `[1, a]` row reads, at `i`, the vector at `i`'s second coordinate: both have
    row-major position `i 1`. -/
theorem row_of_vector {α : Type} {a : ℕ} (x : (⟨1, ![a]⟩ : Shape).Idx → α) (h : (⟨1, ![a]⟩ : Shape).ShapeCasts ⟨2, ![1, a]⟩)
    (i : (⟨2, ![1, a]⟩ : Shape).Idx) : shapeCast ⟨2, ![1, a]⟩ x h i = x (ix1 (i 1)) := by
  have hi : i = ix2 (i 0) (i 1) := funext fun d => match d with | ⟨0, _⟩ => rfl | ⟨1, _⟩ => rfl
  exact (congrArg (shapeCast ⟨2, ![1, a]⟩ x h) hi).trans (shapeCast_a_1a_apply x h (i 0) (i 1))

/-! ## The arguments the regions read are as launched

No host operation writes an argument, and a region changes its own output array only. -/

/-- Before the first region: the node features and the first layer's two weight matrices. -/
theorem read_arg0 (c : Dev nD) : Gen.V1 m c main_arg0 = m ((c : Thread nD τ).loc main_arg0) := (Gen.V1_of m c main_arg0 (by decide)).trans rfl
theorem read_arg3 (c : Dev nD) : Gen.V1 m c main_arg3 = m ((c : Thread nD τ).loc main_arg3) := (Gen.V1_of m c main_arg3 (by decide)).trans rfl
theorem read_arg4 (c : Dev nD) : Gen.V1 m c main_arg4 = m ((c : Thread nD τ).loc main_arg4) := (Gen.V1_of m c main_arg4 (by decide)).trans rfl

/-- After the first region, a buffer that is neither its output nor written by the first stretch is as launched. -/
theorem V2_arg (c : Dev nD) (r : Ref sig .tc) (h2 : r ∉ ([main_v17] : List (Ref sig .tc))) (h1 : r ∉ Gen.hostOps0_W) :
    Gen.V2 m outs c r = m ((c : Thread nD τ).loc r) :=
  (Gen.V2_of m outs c r h2).trans ((Gen.V1_of m c r h1).trans rfl)

/-- Before the second region: the second layer's two weight matrices, -/
theorem read_arg6 (c : Dev nD) : Gen.V3 m outs c main_arg6 = m ((c : Thread nD τ).loc main_arg6) :=
  (Gen.V3_of m outs c main_arg6 (by decide)).trans (V2_arg m outs c main_arg6 (by decide) (by decide))
theorem read_arg7 (c : Dev nD) : Gen.V3 m outs c main_arg7 = m ((c : Thread nD τ).loc main_arg7) :=
  (Gen.V3_of m outs c main_arg7 (by decide)).trans (V2_arg m outs c main_arg7 (by decide) (by decide))

/-- and the first layer's output, as the first region left it. -/
theorem V2_v17 (c : Dev nD) : Gen.V2 m outs c main_v17 = outs 2 main_v17 c := by
  show Function.update _ _ _ _ = _
  exact Function.update_self ..
theorem read_v17 (c : Dev nD) : Gen.V3 m outs c main_v17 = outs 2 main_v17 c :=
  (Gen.V3_of m outs c main_v17 (by decide)).trans (V2_v17 m outs c)

/-- After the second region, a buffer no earlier item writes is as launched; -/
theorem V4_arg (c : Dev nD) (r : Ref sig .tc) (h4 : r ∉ ([main_v31] : List (Ref sig .tc))) (h3 : r ∉ Gen.hostOps1_W)
    (h2 : r ∉ ([main_v17] : List (Ref sig .tc))) (h1 : r ∉ Gen.hostOps0_W) :
    Gen.V4 m outs c r = m ((c : Thread nD τ).loc r) :=
  (Gen.V4_of m outs c r h4).trans ((Gen.V3_of m outs c r h3).trans (V2_arg m outs c r h2 h1))
/-- likewise two stretches later, -/
theorem V6_arg (c : Dev nD) (r : Ref sig .tc) (h6 : r ∉ Gen.hostOps2_1_W) (h5 : r ∉ Gen.hostOps2_W)
    (h4 : r ∉ ([main_v31] : List (Ref sig .tc))) (h3 : r ∉ Gen.hostOps1_W)
    (h2 : r ∉ ([main_v17] : List (Ref sig .tc))) (h1 : r ∉ Gen.hostOps0_W) :
    Gen.V6 m outs c r = m ((c : Thread nD τ).loc r) :=
  (Gen.V6_of m outs c r h6).trans ((Gen.V5_of m outs c r h5).trans (V4_arg m outs c r h4 h3 h2 h1))
/-- and when the third region starts. -/
theorem V7_arg (c : Dev nD) (r : Ref sig .tc) (h7 : r ∉ Gen.hostOps2_2_W) (h6 : r ∉ Gen.hostOps2_1_W) (h5 : r ∉ Gen.hostOps2_W)
    (h4 : r ∉ ([main_v31] : List (Ref sig .tc))) (h3 : r ∉ Gen.hostOps1_W)
    (h2 : r ∉ ([main_v17] : List (Ref sig .tc))) (h1 : r ∉ Gen.hostOps0_W) :
    Gen.V7 m outs c r = m ((c : Thread nD τ).loc r) :=
  (Gen.V7_of m outs c r h7).trans (V6_arg m outs c r h6 h5 h4 h3 h2 h1)

/-- Before the third region: the scoring layer's weight matrix and its output weight row. -/
theorem read_arg9 (c : Dev nD) : Gen.V7 m outs c main_arg9 = m ((c : Thread nD τ).loc main_arg9) :=
  V7_arg m outs c main_arg9 (by decide) (by decide) (by decide) (by decide) (by decide) (by decide) (by decide)
theorem read_arg11 (c : Dev nD) : Gen.V7 m outs c main_arg11 = m ((c : Thread nD τ).loc main_arg11) :=
  V7_arg m outs c main_arg11 (by decide) (by decide) (by decide) (by decide) (by decide) (by decide) (by decide)

/-! ## The bias rows

Each region's bias row is its bias vector reshaped to one row; the scoring layer's output bias is a one-element
vector reshaped to `[1, 1]`. First the stretch's operation at any starting contents `W`, then at the run's. -/

theorem hostOps0_v16 (W : Valuation τ sig (Elt Ideal)) :
    StableHlo.after Gen.hostOps0 W (Proc.devRef .tc main_v16) = shapeCast S1x64 (W main_arg5) Gen.shapeCasts_S64_S1x64 := by
  after_results; rfl
theorem hostOps1_v30 (W : Valuation τ sig (Elt Ideal)) :
    StableHlo.after Gen.hostOps1 W (Proc.devRef .tc main_v30) = shapeCast S1x64 (W main_arg8) Gen.shapeCasts_S64_S1x64 := by
  after_results; rfl
theorem hostOps2_2_v68 (W : Valuation τ sig (Elt Ideal)) :
    StableHlo.after Gen.hostOps2_2 W (Proc.devRef .tc main_v68) = shapeCast S1x64 (W main_arg10) Gen.shapeCasts_S64_S1x64 := by
  after_results; rfl
theorem hostOps2_2_v69 (W : Valuation τ sig (Elt Ideal)) :
    StableHlo.after Gen.hostOps2_2 W (Proc.devRef .tc main_v69) = shapeCast S1x1 (W main_arg12) Gen.shapeCasts_S1_S1x1 := by
  after_results; rfl

theorem read_v16 (c : Dev nD) :
    Gen.V1 m c main_v16 = fun i => m ((c : Thread nD τ).loc main_arg5) (ix1 (i 1)) := by
  refine (hostOps0_v16 _).trans ?_
  funext i
  exact row_of_vector _ _ i

theorem read_v30 (c : Dev nD) :
    Gen.V3 m outs c main_v30 = fun i => m ((c : Thread nD τ).loc main_arg8) (ix1 (i 1)) := by
  refine (hostOps1_v30 _).trans ?_
  rw [V2_arg m outs c main_arg8 (by decide) (by decide)]
  funext i
  exact row_of_vector _ _ i

theorem read_v68 (c : Dev nD) :
    Gen.V7 m outs c main_v68 = fun i => m ((c : Thread nD τ).loc main_arg10) (ix1 (i 1)) := by
  refine (hostOps2_2_v68 _).trans ?_
  rw [V6_arg m outs c main_arg10 (by decide) (by decide) (by decide) (by decide) (by decide) (by decide)]
  funext i
  exact row_of_vector _ _ i

theorem read_v69 (c : Dev nD) :
    Gen.V7 m outs c main_v69 = fun i => m ((c : Thread nD τ).loc main_arg12) (ix1 (i 1)) := by
  refine (hostOps2_2_v69 _).trans ?_
  rw [V6_arg m outs c main_arg12 (by decide) (by decide) (by decide) (by decide) (by decide) (by decide)]
  funext i
  exact row_of_vector _ _ i

/-! ## The first layer's aggregated messages

The first stretch gathers the node features' rows at the edges' sources (a negative index wrapped by adding the node
count), scales each by its edge's weight, and adds it into the row of its edge's destination in an array of zeros. The
reference applies the same twenty operations to the same three arguments, so the buffer holds the reference's stage:
the two terms agree operation by operation once the stage's definitions are opened. -/

theorem hostOps0_v15 (W : Valuation τ sig (Elt Ideal)) :
    StableHlo.after Gen.hostOps0 W (Proc.devRef .tc main_v15) = val_main_v15 (F := Ideal) (W main_arg0) (W main_arg1) (W main_arg2) := by
  after_results_simp
  unfold val_main_v15 Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0 Cert.ReferenceIdeal.Read.val_main_cst
  rfl

theorem read_v15 (c : Dev nD) :
    Gen.V1 m c main_v15 = val_main_v15 (F := Ideal) (m ((c : Thread nD τ).loc main_arg0)) (m ((c : Thread nD τ).loc main_arg1)) (m ((c : Thread nD τ).loc main_arg2)) :=
  hostOps0_v15 _

/-! ## The second layer's aggregated messages

The second stretch aggregates the first layer's output `h` the same way: edge `e` runs from node `src e` (row 0 of
the edge list) to node `dst e` (row 1); the row of `h` at `src e`, wrapped, is scaled by the edge's weight and added
into row `dst e` of an array of zeros. -/

/-- Row 0 of the edge list as a vector: the edges' source nodes. -/
def edgeSrc (ei : IVec S2x1600000 32) : IVec S1600000 32 :=
  shapeCast S1600000 (extractStridedSlice S1x1600000 ![0, 0] ei Gen.slices_S2x1600000_S1x1600000_0_0) Gen.shapeCasts_S1x1600000_S1600000
/-- Row 1 of the edge list as a vector: the edges' destination nodes. -/
def edgeDst (ei : IVec S2x1600000 32) : IVec S1600000 32 :=
  shapeCast S1600000 (extractStridedSlice S1x1600000 ![1, 0] ei Gen.slices_S2x1600000_S1x1600000_1_0) Gen.shapeCasts_S1x1600000_S1600000

/-- The weighted scatter-add of `h`'s rows along edges given by their source and destination vectors. -/
def aggFrom64 (h : FVec Ideal S100000x64 .f32) (src dst : IVec S1600000 32) (ew : FVec Ideal S1600000x1 .f32) : FVec Ideal S100000x64 .f32 :=
  Host.scatterAdd scatter_S100000x64_S1600000x1_S1600000x64_1_0_0_1
    (broadcastInDim S100000x64 ![] Gen.bcast_S_S100000x64 (constant (F := Ideal) S_ .f32 0x00000000#32))
    (broadcastInDim S1600000x1 ![0] Gen.bcast_S1600000_S1600000x1_0 dst)
    (mulf (broadcastInDim S1600000x64 ![0, 1] Gen.bcast_S1600000x1_S1600000x64_0_1 ew)
      (Host.gather gather_S100000x64_S1600000x1_S1600000x64_1_0_n_n_0_1_164 h
        (broadcastInDim S1600000x1 ![0] Gen.bcast_S1600000_S1600000x1_0
          (select (cmpi .slt src (broadcastInDim S1600000 ![] Gen.bcast_S_S1600000 (constantI S_ 32 0#32)))
            (addi src (broadcastInDim S1600000 ![] Gen.bcast_S_S1600000 (constantI S_ 32 100000#32))) src))))

/-- The second layer's aggregated messages from the first layer's output, the edge list and the edge weights. -/
def aggOf64 (h : FVec Ideal S100000x64 .f32) (ei : IVec S2x1600000 32) (ew : FVec Ideal S1600000x1 .f32) : FVec Ideal S100000x64 .f32 :=
  aggFrom64 h (edgeSrc ei) (edgeDst ei) ew

/-- The second stretch computes the aggregation from the first layer's output, the two edge vectors the first stretch
    made, and the edge weights. -/
theorem hostOps1_v29 (W : Valuation τ sig (Elt Ideal)) :
    StableHlo.after Gen.hostOps1 W (Proc.devRef .tc main_v29) = aggFrom64 (W main_v17) (W main_v1) (W main_v3) (W main_arg2) := by
  after_results_simp; rfl
/-- The first stretch's two edge vectors. -/
theorem hostOps0_v1 (W : Valuation τ sig (Elt Ideal)) :
    StableHlo.after Gen.hostOps0 W (Proc.devRef .tc main_v1) = edgeSrc (W main_arg1) := by
  after_results; rfl
theorem hostOps0_v3 (W : Valuation τ sig (Elt Ideal)) :
    StableHlo.after Gen.hostOps0 W (Proc.devRef .tc main_v3) = edgeDst (W main_arg1) := by
  after_results; rfl

theorem read_v29 (c : Dev nD) :
    Gen.V3 m outs c main_v29 = aggOf64 (outs 2 main_v17 c) (m ((c : Thread nD τ).loc main_arg1)) (m ((c : Thread nD τ).loc main_arg2)) := by
  refine (hostOps1_v29 _).trans ?_
  rw [V2_v17 m outs c, V2_arg m outs c main_arg2 (by decide) (by decide),
    show Gen.V2 m outs c main_v1 = edgeSrc (m ((c : Thread nD τ).loc main_arg1)) from
      (Gen.V2_of m outs c main_v1 (by decide)).trans (hostOps0_v1 _),
    show Gen.V2 m outs c main_v3 = edgeDst (m ((c : Thread nD τ).loc main_arg1)) from
      (Gen.V2_of m outs c main_v3 (by decide)).trans (hostOps0_v3 _)]
  rfl

/-- The reference aggregates ITS first layer's output by the same chain, from the same edge list and weights: its
    stage, opened down to (and not into) its first layer's output, is the chain's term. -/
theorem ref_v36 (x0 : FVec Ideal Cert.ReferenceIdeal.S100000x4 .f32) (x1 : IVec Cert.ReferenceIdeal.S2x1600000 32)
    (x2 : FVec Ideal Cert.ReferenceIdeal.S1600000x1 .f32) (x3 x4 : FVec Ideal Cert.ReferenceIdeal.S64x4 .f32) (x5 : FVec Ideal Cert.ReferenceIdeal.S64 .f32) :
    val_main_v36 (F := Ideal) x0 x1 x2 x3 x4 x5 = aggOf64 (val_main_v24 (F := Ideal) x0 x1 x2 x3 x4 x5) x1 x2 := by
  unfold val_main_v36 Cert.ReferenceIdeal.Read.val_main_v35 Cert.ReferenceIdeal.Read.val_main_v34 Cert.ReferenceIdeal.Read.val_main_v33
    Cert.ReferenceIdeal.Read.val_main_v32 Cert.ReferenceIdeal.Read.val_main_v31 Cert.ReferenceIdeal.Read.val_main_v30
    Cert.ReferenceIdeal.Read.val_main_v29 Cert.ReferenceIdeal.Read.val_main_v28 Cert.ReferenceIdeal.Read.val_main_v27
    Cert.ReferenceIdeal.Read.val_main_v26 Cert.ReferenceIdeal.Read.val_main_v25 Cert.ReferenceIdeal.Read.val_main_v3
    Cert.ReferenceIdeal.Read.val_main_v2 Cert.ReferenceIdeal.Read.val_main_v1 Cert.ReferenceIdeal.Read.val_main_v0
    Cert.ReferenceIdeal.Read.val_main_c_1 Cert.ReferenceIdeal.Read.val_main_c_2 Cert.ReferenceIdeal.Read.val_main_cst_3
    aggOf64 aggFrom64 edgeSrc edgeDst
  rfl

/-! ## The results -/

/-- The augmented edge list: the edge list followed by `(v, v + 100000)` and `(v, v + 200000)` for every node `v`,
    joined along the edge axis. The reference builds it by the same fourteen operations. -/
theorem hostOps2_v43 (W : Valuation τ sig (Elt Ideal)) :
    StableHlo.after Gen.hostOps2 W (Proc.devRef .tc main_v43) = val_main_v57 (F := Ideal) (W main_arg1) := by
  host_results
  unfold val_main_v57 Cert.ReferenceIdeal.Read.val_main_v56 Cert.ReferenceIdeal.Read.val_main_v55 Cert.ReferenceIdeal.Read.val_main_v54
    Cert.ReferenceIdeal.Read.val_main_v53 Cert.ReferenceIdeal.Read.val_main_v52 Cert.ReferenceIdeal.Read.val_main_v51
    Cert.ReferenceIdeal.Read.val_main_v50 Cert.ReferenceIdeal.Read.val_main_v49 Cert.ReferenceIdeal.Read.val_main_v48
    Cert.ReferenceIdeal.Read.val_main_v47 Cert.ReferenceIdeal.Read.val_main_v46 Cert.ReferenceIdeal.Read.val_main_c_4
    Cert.ReferenceIdeal.Read.val_main_c_5
  rfl

/-- No later item writes it. -/
theorem read_v43 (c : Dev nD) :
    Gen.V9 m outs c main_v43 = val_main_v57 (F := Ideal) (m ((c : Thread nD τ).loc main_arg1)) := by
  refine (Gen.V9_of m outs c main_v43 (by decide)).trans ((Gen.V8_of m outs c main_v43 (by decide)).trans
    ((Gen.V7_of m outs c main_v43 (by decide)).trans ((Gen.V6_of m outs c main_v43 (by decide)).trans ?_)))
  refine (hostOps2_v43 _).trans ?_
  rw [V4_arg m outs c main_arg1 (by decide) (by decide) (by decide) (by decide)]

/-- The scores: the column the third region left, reshaped to a vector. -/
theorem read_v71 (c : Dev nD) :
    Gen.V9 m outs c main_v71 = shapeCast S1800000 (outs 8 main_v70 c) Gen.shapeCasts_S1800000x1_S1800000 := by
  have h : ∀ W : Valuation τ sig (Elt Ideal), StableHlo.after Gen.hostOps3 W (Proc.devRef .tc main_v71)
      = shapeCast S1800000 (W main_v70) Gen.shapeCasts_S1800000x1_S1800000 := fun W => by after_results; rfl
  refine (h _).trans ?_
  rw [show Gen.V8 m outs c main_v70 = outs 8 main_v70 c from Function.update_self ..]

/-- The two node-count constants returned beside them. -/
theorem read_c13 (c : Dev nD) : Gen.V9 m outs c main_c_13 = constantI S_ 32 100000#32 := by
  show StableHlo.after Gen.hostOps3 _ (Proc.devRef .tc main_c_13) = _
  after_results
theorem read_c14 (c : Dev nD) : Gen.V9 m outs c main_c_14 = constantI S_ 32 200000#32 := by
  show StableHlo.after Gen.hostOps3 _ (Proc.devRef .tc main_c_14) = _
  after_results

/-! ## The third region's operand: the edge embedding

Ahead of the third region the host joins, for every edge of the augmented list, the second layer's output row at the
edge's source, the row at its target (the target's floor-style remainder by the node count), and the edge's weight: the
given weights, then `1` for the first block of self-loops and `-1` for the second. -/

/-- The augmented list's weights column: the edge weights, then ones, then minus ones. -/
def weightsCol (ew : FVec Ideal S1600000x1 .f32) : FVec Ideal S1800000x1 .f32 :=
  concatenate S1800000x1 0
    [⟨S1600000x1, ew⟩,
     ⟨S100000x1, broadcastInDim S100000x1 ![] Gen.bcast_S_S100000x1 (constant (F := Ideal) S_ .f32 0x3F800000#32)⟩,
     ⟨S100000x1, Host.negf (broadcastInDim S100000x1 ![] Gen.bcast_S_S100000x1 (constant (F := Ideal) S_ .f32 0x3F800000#32))⟩]
    Gen.concatenates_S1600000x1_S100000x1_S100000x1_S1800000x1_d0

/-- What the stretch after the second region makes of the edge list and the weights, at any starting contents: the
    augmented list's sources and targets as vectors, the weights column, the node count. -/
theorem hostOps2_v49 (W : Valuation τ sig (Elt Ideal)) :
    StableHlo.after Gen.hostOps2 W (Proc.devRef .tc main_v49) = Cert.NodeGather.sources_K (W main_arg1) := by
  host_results; rfl
theorem hostOps2_v51 (W : Valuation τ sig (Elt Ideal)) :
    StableHlo.after Gen.hostOps2 W (Proc.devRef .tc main_v51) = Cert.NodeGather.targets_K (W main_arg1) := by
  host_results; rfl
theorem hostOps2_v47 (W : Valuation τ sig (Elt Ideal)) :
    StableHlo.after Gen.hostOps2 W (Proc.devRef .tc main_v47) = weightsCol (W main_arg2) := by
  host_results; rfl
theorem hostOps2_c8 (W : Valuation τ sig (Elt Ideal)) :
    StableHlo.after Gen.hostOps2 W (Proc.devRef .tc main_c_8) = constantI S_ 32 100000#32 := by
  host_results

/-- The called remainder: the floor-style remainder of the targets by the node count. -/
theorem hostOps2_1_v52 (W : Valuation τ sig (Elt Ideal)) :
    StableHlo.after Gen.hostOps2_1 W (Proc.devRef .tc main_v52) = Cert.NodeGather.floorRem_K (W main_v51) (W main_c_8) := by
  host_results
  simp only [TRef.ofBuf, TRef.toBuf, cast_eq]
  rfl

/-- The last stretch before the third region: both gathers and the join. -/
theorem hostOps2_2_v67 (W : Valuation τ sig (Elt Ideal)) :
    StableHlo.after Gen.hostOps2_2 W (Proc.devRef .tc main_v67) = concatenate S1800000x129 1
      [⟨S1800000x64, Host.gather gather_S100000x64_S1800000x1_S1800000x64_1_0_n_n_0_1_164 (W main_v31)
          (Cert.NodeGather.column_K (Cert.NodeGather.wrap_K 100000#32 (W main_v49)))⟩,
       ⟨S1800000x64, Host.gather gather_S100000x64_S1800000x1_S1800000x64_1_0_n_n_0_1_164 (W main_v31)
          (Cert.NodeGather.column_K (Cert.NodeGather.wrap_K 100000#32 (W main_v52)))⟩,
       ⟨S1800000x1, W main_v47⟩] Gen.concatenates_S1800000x64_S1800000x64_S1800000x1_S1800000x129_d1 := by
  host_results; rfl

/-- The edge embedding the third region reads: the second layer's output rows at the two start-index columns of the
    first program, joined with the weights column. Each operand is read through the stretches that leave it alone
    back to the one that made it. -/
theorem read_v67 (c : Dev nD) :
    Gen.V7 m outs c main_v67 = concatenate S1800000x129 1
      [⟨S1800000x64, Host.gather gather_S100000x64_S1800000x1_S1800000x64_1_0_n_n_0_1_164 (outs 4 main_v31 c)
          (Cert.NodeGather.idxI_K (m ((c : Thread nD τ).loc main_arg1)))⟩,
       ⟨S1800000x64, Host.gather gather_S100000x64_S1800000x1_S1800000x64_1_0_n_n_0_1_164 (outs 4 main_v31 c)
          (Cert.NodeGather.idxJ_K (m ((c : Thread nD τ).loc main_arg1)))⟩,
       ⟨S1800000x1, weightsCol (m ((c : Thread nD τ).loc main_arg2))⟩]
      Gen.concatenates_S1800000x64_S1800000x64_S1800000x1_S1800000x129_d1 := by
  refine (hostOps2_2_v67 _).trans ?_
  have h1 : Gen.V4 m outs c main_arg1 = m ((c : Thread nD τ).loc main_arg1) :=
    V4_arg m outs c main_arg1 (by decide) (by decide) (by decide) (by decide)
  have h2 : Gen.V4 m outs c main_arg2 = m ((c : Thread nD τ).loc main_arg2) :=
    V4_arg m outs c main_arg2 (by decide) (by decide) (by decide) (by decide)
  have h31 : Gen.V6 m outs c main_v31 = outs 4 main_v31 c :=
    (Gen.V6_of m outs c main_v31 (by decide)).trans ((Gen.V5_of m outs c main_v31 (by decide)).trans (Function.update_self ..))
  have h49 : Gen.V6 m outs c main_v49 = Cert.NodeGather.sources_K (m ((c : Thread nD τ).loc main_arg1)) :=
    (Gen.V6_of m outs c main_v49 (by decide)).trans ((hostOps2_v49 _).trans (by rw [h1]))
  have h47 : Gen.V6 m outs c main_v47 = weightsCol (m ((c : Thread nD τ).loc main_arg2)) :=
    (Gen.V6_of m outs c main_v47 (by decide)).trans ((hostOps2_v47 _).trans (by rw [h2]))
  have h51 : Gen.V5 m outs c main_v51 = Cert.NodeGather.targets_K (m ((c : Thread nD τ).loc main_arg1)) :=
    (hostOps2_v51 _).trans (by rw [h1])
  have hc8 : Gen.V5 m outs c main_c_8 = constantI S_ 32 100000#32 := hostOps2_c8 _
  have h52 : Gen.V6 m outs c main_v52
      = Cert.NodeGather.floorRem_K (Cert.NodeGather.targets_K (m ((c : Thread nD τ).loc main_arg1))) (constantI S_ 32 100000#32) :=
    (hostOps2_1_v52 _).trans (by rw [h51, hc8])
  rw [h31, h49, h52, h47]
  rfl

end Cert.KernelIdeal.Hand

end
-- ==== Proof.RefIsSpec.lean ====
/-
  Three stages of the reference network, read at the extended reals, are the specification's whole-array functions
  of earlier stages.

  The first graph-convolution layer is  max ((agg0 · gc0_relᵀ + bias0) + x · gc0_rootᵀ, 0)  with agg0 the first
  scatter-add of weighted neighbour features; the second is  max ((agg1 · gc1_relᵀ + bias1) + h1 · gc1_rootᵀ, 0)  with
  agg1 the second scatter-add and h1 the first layer's output; the edge network is
  max (emb · w1ᵀ + b1, 0) · w2ᵀ + b2  with emb the concatenated edge embedding. Entry by entry each matrix product is a
  finite sum over the contracted axis, each transposed weight is the weight read at the swapped index, and each
  broadcast bias is the bias read at the column. The reference adds the bias between the two products and the
  specification after them: the two groupings agree because addition of extended reals is commutative and
  associative. The scatter-adds and the concatenation are left as they are: each identity holds with any array in
  their place, and is proved for an arbitrary one.
-/
import proofs.«416973_j1090921693652_1_alg».proof.Proof.RefRun
import proofs.«416973_j1090921693652_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo Idealize.ShloMosaic.ValueIdx

/-! ## Where each operand is read

  Entry (r, q) of a product  a · wᵀ  reads row r of a and row q of w, both at the contracted column k; entry (r, q) of a
  bias row broadcast down the rows reads the bias at q. -/

/-- The aggregated features of layer 0 are read at (r, k). -/
theorem agg0_at (r : Fin 100000) (q : Fin 64) (k : Fin 4) : lidx_main_v17 (ix2 r q) k = ix2 r k :=
  funext fun a => by match a with | ⟨0, _⟩ => rfl | ⟨1, _⟩ => rfl
/-- gc0_rel, transposed and contracted on its second axis, is read at (q, k). -/
theorem rel0_at (r : Fin 100000) (q : Fin 64) (k : Fin 4) : idx_main_v16 (ridx_main_v17 (ix2 r q) k) = ix2 q k :=
  funext fun a => by match a with | ⟨0, _⟩ => rfl | ⟨1, _⟩ => rfl
/-- gc0_bias, made a row and repeated down the 100000 rows, is read at q. -/
theorem bias0_at (r : Fin 100000) (q : Fin 64) : idx_main_v18 (idx_main_v19 (ix2 r q)) = ix1 q :=
  funext fun a => by match a with | ⟨0, _⟩ => rfl
/-- The node features of layer 0 are read at (r, k). -/
theorem feat0_at (r : Fin 100000) (q : Fin 64) (k : Fin 4) : lidx_main_v22 (ix2 r q) k = ix2 r k :=
  funext fun a => by match a with | ⟨0, _⟩ => rfl | ⟨1, _⟩ => rfl
/-- gc0_root, transposed and contracted on its second axis, is read at (q, k). -/
theorem root0_at (r : Fin 100000) (q : Fin 64) (k : Fin 4) : idx_main_v21 (ridx_main_v22 (ix2 r q) k) = ix2 q k :=
  funext fun a => by match a with | ⟨0, _⟩ => rfl | ⟨1, _⟩ => rfl

/-- The aggregated features of layer 1 are read at (r, k). -/
theorem agg1_at (r : Fin 100000) (q : Fin 64) (k : Fin 64) : lidx_main_v38 (ix2 r q) k = ix2 r k :=
  funext fun a => by match a with | ⟨0, _⟩ => rfl | ⟨1, _⟩ => rfl
/-- gc1_rel, transposed and contracted on its second axis, is read at (q, k). -/
theorem rel1_at (r : Fin 100000) (q : Fin 64) (k : Fin 64) : idx_main_v37 (ridx_main_v38 (ix2 r q) k) = ix2 q k :=
  funext fun a => by match a with | ⟨0, _⟩ => rfl | ⟨1, _⟩ => rfl
/-- gc1_bias, made a row and repeated down the 100000 rows, is read at q. -/
theorem bias1_at (r : Fin 100000) (q : Fin 64) : idx_main_v39 (idx_main_v40 (ix2 r q)) = ix1 q :=
  funext fun a => by match a with | ⟨0, _⟩ => rfl
/-- The first layer's output, as the node features of layer 1, is read at (r, k). -/
theorem feat1_at (r : Fin 100000) (q : Fin 64) (k : Fin 64) : lidx_main_v43 (ix2 r q) k = ix2 r k :=
  funext fun a => by match a with | ⟨0, _⟩ => rfl | ⟨1, _⟩ => rfl
/-- gc1_root, transposed and contracted on its second axis, is read at (q, k). -/
theorem root1_at (r : Fin 100000) (q : Fin 64) (k : Fin 64) : idx_main_v42 (ridx_main_v43 (ix2 r q) k) = ix2 q k :=
  funext fun a => by match a with | ⟨0, _⟩ => rfl | ⟨1, _⟩ => rfl

/-- The rectified hidden layer of the edge network is read at (e, q). -/
theorem hidden_at (e : Fin 1800000) (z : Fin 1) (q : Fin 64) : lidx_main_v89 (ix2 e z) q = ix2 e q :=
  funext fun a => by match a with | ⟨0, _⟩ => rfl | ⟨1, _⟩ => rfl
/-- mlp_w2, transposed and contracted on its second axis, is read at (0, q): its one row has index 0. -/
theorem w2_at (e : Fin 1800000) (z : Fin 1) (q : Fin 64) : idx_main_v88 (ridx_main_v89 (ix2 e z) q) = ix2 (0 : Fin 1) q :=
  funext fun a => by match a with | ⟨0, _⟩ => exact Fin.ext (Nat.lt_one_iff.mp z.isLt) | ⟨1, _⟩ => rfl
/-- mlp_b2, made a 1 × 1 array and repeated down the 1800000 rows, is read at its one entry. -/
theorem b2_at (e : Fin 1800000) (z : Fin 1) : idx_main_v90 (idx_main_v91 (ix2 e z)) = ix1 (0 : Fin 1) :=
  funext fun a => by match a with | ⟨0, _⟩ => rfl
/-- The edge embedding is read at (e, k). -/
theorem emb_at (e : Fin 1800000) (q : Fin 64) (k : Fin 129) : lidx_main_v83 (ix2 e q) k = ix2 e k :=
  funext fun a => by match a with | ⟨0, _⟩ => rfl | ⟨1, _⟩ => rfl
/-- mlp_w1, transposed and contracted on its second axis, is read at (q, k). -/
theorem w1_at (e : Fin 1800000) (q : Fin 64) (k : Fin 129) : idx_main_v82 (ridx_main_v83 (ix2 e q) k) = ix2 q k :=
  funext fun a => by match a with | ⟨0, _⟩ => rfl | ⟨1, _⟩ => rfl
/-- mlp_b1, made a row and repeated down the 1800000 rows, is read at q. -/
theorem b1_at (e : Fin 1800000) (q : Fin 64) : idx_main_v84 (idx_main_v85 (ix2 e q)) = ix1 q :=
  funext fun a => by match a with | ⟨0, _⟩ => rfl

/-! ## The three stages -/

/-- The first layer's output is the specification's 4-feature layer of the first scatter-add, the node features,
    gc0_rel, gc0_root and the bias row: (agg0 · relᵀ + bias) + x · rootᵀ = (agg0 · relᵀ + x · rootᵀ) + bias. -/
theorem layer0_eq (x0 : (⟨S100000x4, .f32⟩ : BufTy).Contents (Elt Ideal)) (x1 : (⟨S2x1600000, .i32⟩ : BufTy).Contents (Elt Ideal)) (x2 : (⟨S1600000x1, .f32⟩ : BufTy).Contents (Elt Ideal)) (x3 x4 : (⟨S64x4, .f32⟩ : BufTy).Contents (Elt Ideal)) (x5 : (⟨S64, .f32⟩ : BufTy).Contents (Elt Ideal)) :
    val_main_v24 (F := Ideal) x0 x1 x2 x3 x4 x5
      = Cert.Spec.layer4 (val_main_v15 (F := Ideal) x0 x1 x2) x0 x4 x3 (fun i => x5 (ix1 (i 1))) := by
  funext i
  obtain ⟨r, q, rfl⟩ : ∃ r q, i = ix2 r q := ⟨i 0, i 1, eq_ix2 i⟩
  rw [val_main_v24_apply, val_main_v23_apply, val_main_v20_apply, val_main_v17_apply, val_main_v19_apply, val_main_v18_apply,
    val_main_v22_apply, val_main_call0_v0_apply, val_main_call0_cst_apply, Cert.Spec.layer4_apply]
  generalize val_main_v15 (F := Ideal) x0 x1 x2 = agg
  simp only [val_main_v16_apply, val_main_v21_apply, agg0_at, rel0_at, bias0_at, feat0_at, root0_at, Cert.Spec.layer4At,
    Ideal.addf_def, Ideal.maximumf_def, Ideal.ofBits_def]
  rw [add_right_comm]

/-- The second layer's output is the specification's 64-feature layer of the second scatter-add, the first layer's
    output, gc1_rel, gc1_root and the bias row, by the same regrouping. -/
theorem layer1_eq (x0 : (⟨S100000x4, .f32⟩ : BufTy).Contents (Elt Ideal)) (x1 : (⟨S2x1600000, .i32⟩ : BufTy).Contents (Elt Ideal)) (x2 : (⟨S1600000x1, .f32⟩ : BufTy).Contents (Elt Ideal)) (x3 x4 : (⟨S64x4, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) :
    val_main_v45 (F := Ideal) x0 x1 x2 x3 x4 x5 x6 x7 x8
      = Cert.Spec.layer64 (val_main_v36 (F := Ideal) x0 x1 x2 x3 x4 x5) (val_main_v24 (F := Ideal) x0 x1 x2 x3 x4 x5) x7 x6
          (fun i => x8 (ix1 (i 1))) := by
  funext i
  obtain ⟨r, q, rfl⟩ : ∃ r q, i = ix2 r q := ⟨i 0, i 1, eq_ix2 i⟩
  rw [val_main_v45_apply, val_main_v44_apply, val_main_v41_apply, val_main_v38_apply, val_main_v40_apply, val_main_v39_apply,
    val_main_v43_apply, val_main_call1_v0_apply, val_main_call1_cst_apply, Cert.Spec.layer64_apply]
  generalize val_main_v36 (F := Ideal) x0 x1 x2 x3 x4 x5 = agg
  generalize val_main_v24 (F := Ideal) x0 x1 x2 x3 x4 x5 = h
  simp only [val_main_v37_apply, val_main_v42_apply, agg1_at, rel1_at, bias1_at, feat1_at, root1_at, Cert.Spec.layer64At,
    Ideal.addf_def, Ideal.maximumf_def, Ideal.ofBits_def]
  rw [add_right_comm]

/-- The edge network's output column is the specification's edge network of the concatenated embedding, mlp_w1, the
    bias row of mlp_b1, mlp_w2 and the 1 × 1 array of mlp_b2: the same sums in the same order. -/
theorem edge_eq (x0 : (⟨S100000x4, .f32⟩ : BufTy).Contents (Elt Ideal)) (x1 : (⟨S2x1600000, .i32⟩ : BufTy).Contents (Elt Ideal)) (x2 : (⟨S1600000x1, .f32⟩ : BufTy).Contents (Elt Ideal)) (x3 x4 : (⟨S64x4, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 : (⟨S64x129, .f32⟩ : BufTy).Contents (Elt Ideal)) (x10 : (⟨S64, .f32⟩ : BufTy).Contents (Elt Ideal)) (x11 : (⟨S1x64, .f32⟩ : BufTy).Contents (Elt Ideal)) (x12 : (⟨S1, .f32⟩ : BufTy).Contents (Elt Ideal)) :
    val_main_v92 (F := Ideal) x0 x1 x2 x3 x4 x5 x6 x7 x8 x9 x10 x11 x12
      = Cert.Spec.edgeNet (val_main_v81 (F := Ideal) x0 x1 x2 x3 x4 x5 x6 x7 x8) x9 (fun i => x10 (ix1 (i 1))) x11
          (fun i => x12 (ix1 (i 1))) := by
  funext i
  obtain ⟨e, z, rfl⟩ : ∃ e z, i = ix2 e z := ⟨i 0, i 1, eq_ix2 i⟩
  have hidden : ∀ q : Fin 64, val_main_v87 (F := Ideal) x0 x1 x2 x3 x4 x5 x6 x7 x8 x9 x10 (ix2 e q)
      = Cert.Spec.hiddenAt (val_main_v81 (F := Ideal) x0 x1 x2 x3 x4 x5 x6 x7 x8) x9 (fun i => x10 (ix1 (i 1))) e q := by
    intro q
    rw [val_main_v87_apply, val_main_v86_apply, val_main_v83_apply, val_main_v85_apply, val_main_v84_apply,
      val_main_call2_v0_apply, val_main_call2_cst_apply, Cert.Spec.hiddenAt]
    generalize val_main_v81 (F := Ideal) x0 x1 x2 x3 x4 x5 x6 x7 x8 = emb
    simp only [val_main_v82_apply, emb_at, w1_at, b1_at, Ideal.addf_def, Ideal.maximumf_def, Ideal.ofBits_def]
  rw [val_main_v92_apply, val_main_v89_apply, val_main_v91_apply, val_main_v90_apply, Cert.Spec.edgeNet_apply,
    Cert.Spec.edgeAt]
  simp only [hidden_at, hidden, val_main_v88_apply, w2_at, b2_at]
  generalize val_main_v81 (F := Ideal) x0 x1 x2 x3 x4 x5 x6 x7 x8 = emb
  rw [Ideal.addf_def]

end Cert.ReferenceIdeal.RefValue

end
-- ==== Proof.PreDecode.lean ====
/-
  The index range, read out of the precondition.

  The precondition is one bit: the conjunction of one "every entry is finite" bit per float input and, last, the bit
      all ( (edge_index ≥ 0) & (edge_index < 100000) )
  over the 2 × 1600000 array of edge endpoints. When the whole conjunction is 1 its last conjunct is 1; a conjunction
  over all entries that is 1 has a 1 at every entry; and at one entry the two signed comparisons of the 32-bit word
  against the words 0 and 100000 say that the word, read as a signed integer, lies in 0 … 99999. The float conjuncts
  are never opened.
-/
import proofs.«416973_j1090921693652_1_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Cert.Pre_finite_inputs

/-- The scalar shape has one index. -/
instance scalarIdx_subsingleton : Subsingleton S_.Idx := ⟨fun a b => funext fun d => d.elim0⟩

/-- One entry: the bit "v ≥ 0 signed" and the bit "v < 100000 signed" are both 1 exactly when the word, read as a
    signed integer, lies in 0 … 99999. -/
theorem word_inRange_iff (v : BitVec 32) :
    IntOp.andi (IntOp.cmpi .sge v 0#32) (IntOp.cmpi .slt v 100000#32) = 1#1 ↔ 0 ≤ v.toInt ∧ v.toInt < 100000 := by
  have e0 : (0#32 : BitVec 32).toInt = 0 := by decide
  have e1 : (100000#32 : BitVec 32).toInt = 100000 := by decide
  rw [IntOp.andi_eq_one, IntOp.cmpi_sge, IntOp.cmpi_slt, e0, e1]

/-- The last part of the conjunction: whatever bit the earlier conjuncts left, if the part's result is 1 then every
    edge endpoint is in range. Holds over any float semantics: the index conjunct compares integer words only. -/
theorem inRange_of_part3 {F : FTy → Type} [FloatOps F] [Facts] (a1 : IVec S2x1600000 32) (a12 : FVec F S1 .f32)
    (earlier : IVec S_ 1) (absLast bound : FVec F S1x64 .f32)
    (h : fn_part3 (F := F) a1 a12 earlier absLast bound = fun _ => 1#1) :
    ∀ i : S2x1600000.Idx, 0 ≤ (a1 i).toInt ∧ (a1 i).toInt < 100000 := by
  intro i
  have e := congrFun h ValueIdx.ix0
  dsimp only [fn_part3] at e
  -- the result is (earlier conjuncts) ∧ (the conjunction over all entries of the two comparisons)
  have eAll := (IntOp.andi_eq_one.1 e).2
  have eAt := Host.reduce_andi_all _ _ _ _ _ eAll i
  simp only [andi, cmpi, broadcastInDim, constantI] at eAt
  exact (word_inRange_iff (a1 i)).1 eAt

/-- The whole precondition, over any float semantics: its parts call one another in a chain that ends in the last part. -/
theorem inRange_of_fn {F : FTy → Type} [FloatOps F] [Facts] (a0 : FVec F S100000x4 .f32) (a1 : IVec S2x1600000 32)
    (a2 : FVec F S1600000x1 .f32) (a3 a4 : FVec F S64x4 .f32) (a5 : FVec F S64 .f32) (a6 a7 : FVec F S64x64 .f32)
    (a8 : FVec F S64 .f32) (a9 : FVec F S64x129 .f32) (a10 : FVec F S64 .f32) (a11 : FVec F S1x64 .f32)
    (a12 : FVec F S1 .f32)
    (h : fn (F := F) a0 a1 a2 a3 a4 a5 a6 a7 a8 a9 a10 a11 a12 = fun _ => 1#1) :
    ∀ i : S2x1600000.Idx, 0 ≤ (a1 i).toInt ∧ (a1 i).toInt < 100000 := by
  unfold fn at h
  dsimp only at h
  unfold fn_part1 at h
  dsimp only at h
  unfold fn_part2 at h
  dsimp only at h
  exact inRange_of_part3 a1 a12 _ _ _ h

/-- At the extended reals: a precondition that holds puts every edge endpoint in 0 … 99999. -/
theorem inRange_of_pre [Facts] (a0 : FVec Ideal S100000x4 .f32) (a1 : IVec S2x1600000 32)
    (a2 : FVec Ideal S1600000x1 .f32) (a3 a4 : FVec Ideal S64x4 .f32) (a5 : FVec Ideal S64 .f32)
    (a6 a7 : FVec Ideal S64x64 .f32) (a8 : FVec Ideal S64 .f32) (a9 : FVec Ideal S64x129 .f32)
    (a10 : FVec Ideal S64 .f32) (a11 : FVec Ideal S1x64 .f32) (a12 : FVec Ideal S1 .f32)
    (h : Cert.Pre_finite_inputs.fn (F := Ideal) a0 a1 a2 a3 a4 a5 a6 a7 a8 a9 a10 a11 a12 = fun _ => 1#1) :
    ∀ i : Cert.Pre_finite_inputs.S2x1600000.Idx, 0 ≤ (a1 i).toInt ∧ (a1 i).toInt < 100000 :=
  inRange_of_fn a0 a1 a2 a3 a4 a5 a6 a7 a8 a9 a10 a11 a12 h

end Cert.PreDecode

end
-- ==== Proof.Algebraic.lean ====
/-
  The idealized kernel program and the idealized reference end with equal results.

  Fix a core and write a0 … a12 for the thirteen argument arrays. Layer by layer the two programs hold the same hidden
  table: the first kernel region leaves the first layer's function of (the aggregated messages, the node features, the
  two weight matrices, the bias row), the host operations before it leave there exactly the reference's own aggregate,
  and the reference's first rectified stage is that same function; the second layer repeats this with the aggregate
  being one shared gather, multiply and scatter-add chain applied to equal tables. For the augmented edges the kernel
  program fetches rows of the hidden table at the source index and at the target index reduced modulo 100000, the
  reference rows of three stacked copies of the table at the indices themselves; every edge index lies in
  [0, 100000) by the precondition, and then both fetch the same rows, so the two edge embeddings are one array. The
  third region leaves the edge network's function of that embedding, which is the reference's last stage before its
  final reshape. The augmented edge list and the two counts are the same operations of the same argument in both
  programs.
-/
import proofs.«416973_j1090921693652_1_alg».proof.Defs
import proofs.«416973_j1090921693652_1_alg».proof.Proof.KIRun
import proofs.«416973_j1090921693652_1_alg».proof.Proof.KIValue0
import proofs.«416973_j1090921693652_1_alg».proof.Proof.KIValue1
import proofs.«416973_j1090921693652_1_alg».proof.Proof.KIValue2
import proofs.«416973_j1090921693652_1_alg».proof.Proof.HostRead
import proofs.«416973_j1090921693652_1_alg».proof.Proof.RefIsSpec
import proofs.«416973_j1090921693652_1_alg».proof.Proof.RefRunHand
import proofs.«416973_j1090921693652_1_alg».proof.Proof.NodeGather
import proofs.«416973_j1090921693652_1_alg».proof.Proof.PreDecode
import proofs.«416973_j1090921693652_1_alg».proof.Proof.Gen.KernelIdeal
import proofs.«416973_j1090921693652_1_alg».proof.Proof.Gen.ReferenceIdeal
import proofs.«416973_j1090921693652_1_alg».proof.Proof.Gen.Pre_finite_inputs

noncomputable section

namespace Cert.Proof

open Idealize.ShloMosaic Idealize.ShloMosaic.TcCoe Idealize.SL.Sem Idealize.ShloMosaic.ValueIdx
open Cert.KernelIdeal Cert.KernelIdeal.Gen Cert.KernelIdeal.Hand
open Cert.ReferenceIdeal.Read (val_main_v15 val_main_v24 val_main_v36 val_main_v45 val_main_v57 val_main_v61 val_main_v62
  val_main_v70 val_main_v71 val_main_v79 val_main_v80 val_main_v81 val_main_v92 val_main_v93)

attribute [local instance] Cert.KernelIdeal.Gen.facts Cert.ReferenceIdeal.Gen.facts Cert.Pre_finite_inputs.Gen.facts

variable (m : (ℓ : Loc nD τ sig) → Buf (Elt Ideal) ℓ) (c : Dev nD)

/-- After the first region the hidden table is the reference's first rectified stage of the arguments. -/
theorem hidden1 : o2 m c = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold o2
  rw [final0 (E1 m) c, Cert.ReferenceIdeal.RefValue.layer0_eq]
  dsimp only [E1]
  rw [read_v15 m c, read_arg0 m c, read_arg4 m c, read_arg3 m c, read_v16 m c]
  rfl

/-- After the second region it is the reference's second rectified stage. -/
theorem hidden2 : o4 m c = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold o4
  rw [final1 (E3 m) c, Cert.ReferenceIdeal.RefValue.layer1_eq, ref_v36]
  dsimp only [E3]
  rw [read_v29 m (outs1 m) c, read_v17 m (outs1 m) c, read_arg7 m (outs1 m) c, read_arg6 m (outs1 m) c, read_v30 m (outs1 m) c,
    outs1_17 m c, hidden1 m c]
  rfl

/-- Under the index range the kernel program's edge embedding is the reference's. -/
theorem embedding (hr : Cert.NodeGather.InRange (m ((c : Thread nD τ).loc main_arg1))) :
    Gen.V7 m (outs2 m) c main_v67 = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [read_v67 m (outs2 m) c, outs2_31 m c, hidden2 m c]
  unfold val_main_v81 val_main_v71 val_main_v80
  rw [Cert.NodeGather.nodeI_eq _ _ hr, Cert.NodeGather.nodeJ_eq _ _ hr]
  rfl

/-- After the third region the score column is the reference's last stage before its reshape. -/
theorem scores (hr : Cert.NodeGather.InRange (m ((c : Thread nD τ).loc main_arg1))) : o8 m c = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold o8
  rw [final2 (E7 m) c, Cert.ReferenceIdeal.RefValue.edge_eq]
  dsimp only [E7]
  rw [embedding m c hr, read_arg9 m (outs2 m) c, read_v68 m (outs2 m) c, read_arg11 m (outs2 m) c, read_v69 m (outs2 m) c]
  rfl

/-- The decoded precondition: on every core each word of the edge-index argument, read signed, lies in [0, 100000). -/
theorem indexRange (hpre : Cert.Pre_KernelIdeal m) : Cert.NodeGather.InRange (m ((c : Thread nD τ).loc main_arg1)) :=
  Cert.PreDecode.inRange_of_pre _ _ _ _ _ _ _ _ _ _ _ _ _ (hpre c)

/-- The score vector the kernel program ends with is the reference's stage of the same arguments. -/
theorem scoreVector (hr : Cert.NodeGather.InRange (m ((c : Thread nD τ).loc main_arg1))) :
    Gen.V9 m (outs m) c main_v71 = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [read_v71 m (outs m) c, outs_70 m c, scores m c hr]
  rfl

theorem algebraic : Cert.algebraic_KernelIdeal_ReferenceIdeal := by
  intro m ρ m' ρ' hpre hagree
  refine ⟨fun c => Gen.V9 m (outs m) c main_v43, fun c => Gen.V9 m (outs m) c main_v71,
    fun c => Gen.V9 m (outs m) c main_c_13, fun c => Gen.V9 m (outs m) c main_c_14, ?_, ?_⟩
  · -- the kernel program: every unscoped buffer ends at the last valuation; the arguments there are as launched
    refine (θ_run Cert.KernelIdeal.defs _ _).mono (fun r h c => ?_) (run_all (F := Ideal) m ρ)
    have hc := h c
    exact ⟨hc (Proc.devRef .tc main_v43) (Finset.mem_filter.mpr ⟨StableHlo.devRef_mem_tcRefs main_v43, by decide⟩), hc (Proc.devRef .tc main_v71) (Finset.mem_filter.mpr ⟨StableHlo.devRef_mem_tcRefs main_v71, by decide⟩), hc (Proc.devRef .tc main_c_13) (Finset.mem_filter.mpr ⟨StableHlo.devRef_mem_tcRefs main_c_13, by decide⟩), hc (Proc.devRef .tc main_c_14) (Finset.mem_filter.mpr ⟨StableHlo.devRef_mem_tcRefs main_c_14, by decide⟩),
      (hc (Proc.devRef .tc main_arg0) (Finset.mem_filter.mpr ⟨StableHlo.devRef_mem_tcRefs main_arg0, by decide⟩)).trans (Gen.V9_main_arg0 m (outs m) c),
      (hc (Proc.devRef .tc main_arg1) (Finset.mem_filter.mpr ⟨StableHlo.devRef_mem_tcRefs main_arg1, by decide⟩)).trans (Gen.V9_main_arg1 m (outs m) c),
      (hc (Proc.devRef .tc main_arg2) (Finset.mem_filter.mpr ⟨StableHlo.devRef_mem_tcRefs main_arg2, by decide⟩)).trans (Gen.V9_main_arg2 m (outs m) c),
      (hc (Proc.devRef .tc main_arg3) (Finset.mem_filter.mpr ⟨StableHlo.devRef_mem_tcRefs main_arg3, by decide⟩)).trans (Gen.V9_main_arg3 m (outs m) c),
      (hc (Proc.devRef .tc main_arg4) (Finset.mem_filter.mpr ⟨StableHlo.devRef_mem_tcRefs main_arg4, by decide⟩)).trans (Gen.V9_main_arg4 m (outs m) c),
      (hc (Proc.devRef .tc main_arg5) (Finset.mem_filter.mpr ⟨StableHlo.devRef_mem_tcRefs main_arg5, by decide⟩)).trans (Gen.V9_main_arg5 m (outs m) c),
      (hc (Proc.devRef .tc main_arg6) (Finset.mem_filter.mpr ⟨StableHlo.devRef_mem_tcRefs main_arg6, by decide⟩)).trans (Gen.V9_main_arg6 m (outs m) c),
      (hc (Proc.devRef .tc main_arg7) (Finset.mem_filter.mpr ⟨StableHlo.devRef_mem_tcRefs main_arg7, by decide⟩)).trans (Gen.V9_main_arg7 m (outs m) c),
      (hc (Proc.devRef .tc main_arg8) (Finset.mem_filter.mpr ⟨StableHlo.devRef_mem_tcRefs main_arg8, by decide⟩)).trans (Gen.V9_main_arg8 m (outs m) c),
      (hc (Proc.devRef .tc main_arg9) (Finset.mem_filter.mpr ⟨StableHlo.devRef_mem_tcRefs main_arg9, by decide⟩)).trans (Gen.V9_main_arg9 m (outs m) c),
      (hc (Proc.devRef .tc main_arg10) (Finset.mem_filter.mpr ⟨StableHlo.devRef_mem_tcRefs main_arg10, by decide⟩)).trans (Gen.V9_main_arg10 m (outs m) c),
      (hc (Proc.devRef .tc main_arg11) (Finset.mem_filter.mpr ⟨StableHlo.devRef_mem_tcRefs main_arg11, by decide⟩)).trans (Gen.V9_main_arg11 m (outs m) c),
      (hc (Proc.devRef .tc main_arg12) (Finset.mem_filter.mpr ⟨StableHlo.devRef_mem_tcRefs main_arg12, by decide⟩)).trans (Gen.V9_main_arg12 m (outs m) c)⟩
  · -- the reference: its results are stages of ITS arguments, which agree with the kernel program's
    refine (θ_run Cert.ReferenceIdeal.defs _ _).mono (fun r h c => ?_)
      (Cert.ReferenceIdeal.RefValue.run_stages (F := Ideal) m' ρ')
    obtain ⟨h57, h93, h12, h13, hargs⟩ := h c
    obtain ⟨e0, e1, e2, e3, e4, e5, e6, e7, e8, e9, e10, e11, e12⟩ := hagree c
    have hr := indexRange m c hpre
    refine ⟨?_, ?_, ?_, ?_, hargs⟩
    · rw [h57, e1]; exact (read_v43 m (outs m) c).symm
    · rw [h93, e0, e1, e2, e3, e4, e5, e6, e7, e8, e9, e10, e11, e12]; exact (scoreVector m c hr).symm
    · rw [h12]; exact (read_c13 m (outs m) c).symm
    · rw [h13]; exact (read_c14 m (outs m) c).symm

end Cert.Proof

end
-- ==== Proof.lean ====
/- The proof of `Cert.Claim`: a two-layer graph convolution on 100000 nodes followed by a two-layer network on the
   1800000 augmented edges, computed by three tiled kernels among host operations, against the same network written with
   whole-array operations.

   The three frames. Each kernel program runs as a chain of host stretches and three kernel regions; a region's run is
   its body at a symbolic grid point (five whole-block loads, one whole-block store) under the pipeline that stages the
   blocks, and no item of the chain writes an argument array. The reference has no kernel: its frame is its run with the
   results dropped.

   The values, at the extended reals. Each region's output array is one function of the arrays it is entered with: entry
   (r, q) of a layer is max((Σ_k agg[r,k]·wrel[q,k] + Σ_k h[r,k]·wroot[q,k]) + bias[q], 0), and entry e of the edge network
   is Σ_q max(Σ_k emb[e,k]·w1[q,k] + b1[q], 0)·w2[q] + b2. The reference forms the same sums grouped as
   (product + bias) + product, equal because addition of extended reals is commutative and associative. The aggregated
   messages are the same gather, multiply and scatter-add of equal arrays in both programs. The two programs fetch node
   rows for the augmented edges differently — the kernel from the node table at the index reduced modulo 100000, the
   reference from three stacked copies of the table at the index itself — and these agree because every edge index lies
   in [0, 100000), which the precondition states.

   `preserves` is `True`: the idealization rewrote no operation. -/
import proofs.«416973_j1090921693652_1_alg».proof.Defs
import proofs.«416973_j1090921693652_1_alg».proof.Proof.KBRun
import proofs.«416973_j1090921693652_1_alg».proof.Proof.KIRun
import proofs.«416973_j1090921693652_1_alg».proof.Proof.RefRunHand
import proofs.«416973_j1090921693652_1_alg».proof.Proof.Algebraic
import proofs.«416973_j1090921693652_1_alg».proof.Proof.Gen.Kernel
import proofs.«416973_j1090921693652_1_alg».proof.Proof.Gen.KernelIdeal
import proofs.«416973_j1090921693652_1_alg».proof.Proof.Gen.ReferenceIdeal
import proofs.«416973_j1090921693652_1_alg».proof.Proof.Gen.Pre_finite_inputs
import Idealize.ShloMosaic.Adequacy
import Idealize.ShloMosaic.Init

noncomputable section

namespace Cert.Proof

open Idealize.ShloMosaic Idealize.SL.Sem

/-- The bit-level kernel program runs to the end and leaves its arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference is host operations only: its run names every result, and the frame keeps the arguments' part. -/
theorem frame_reference : Cert.frame_ReferenceIdeal := fun m ρ _ =>
  (θ_run Cert.ReferenceIdeal.defs _ _).mono (fun _ h c => (h c).2.2.2.2) (Cert.ReferenceIdeal.RefValue.run_stages (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.algebraic⟩

end Cert.Proof

end
